-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S2x160000 : S_.BroadcastsInDim S2x160000 (![] : Fin 0 → Fin S2x160000.rank)
  reducesTo_S2x160000_S_d0_1 : S2x160000.ReducesTo [0, 1] S_

variable [Facts]

def fn_part1 {F : FTy → Type} [FloatOps F] (main_arg1 : IVec S2x160000 32) (main_arg5 : FVec F S512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_c_8 : IVec S_ 32 := constantI S_ 32 0#32
  let main_v24 : IVec S2x160000 32 := broadcastInDim S2x160000 ![] bcast_S_S2x160000 main_c_8
  let main_v25 : IVec S2x160000 1 := cmpi .sge main_arg1 main_v24
  let main_c_9 : IVec S_ 32 := constantI S_ 32 10000#32
  let main_v26 : IVec S2x160000 32 := broadcastInDim S2x160000 ![] bcast_S_S2x160000 main_c_9
  let main_v27 : IVec S2x160000 1 := cmpi .slt main_arg1 main_v26
  let main_v28 : IVec S2x160000 1 := andi main_v25 main_v27
  let main_c_10 : IVec S_ 1 := constantI S_ 1 1#1
  let main_v29 : IVec S_ 1 := (fun x v => Host.reduce IntOp.andi x v reducesTo_S2x160000_S_d0_1 h_S_) main_v28 main_c_10
  let main_v30 : IVec S_ 1 := andi main_v23 main_v29
  main_v30

def fn {F : FTy → Type} [FloatOps F] (main_arg0 : FVec F S10000x512 .f32) (main_arg1 : IVec S2x160000 32) (main_arg2 : FVec F S512x1024 .f32) (main_arg3 : FVec F S1024 .f32) (main_arg4 : FVec F S1024x512 .f32) (main_arg5 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x512 .f32 := Host.absf main_arg4
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg1 main_arg5 main_v13 main_v16
-- ==== Kernel.lean ====
abbrev S10000x512 : Shape := ⟨2, ![10000, 512]⟩
abbrev S2x160000 : Shape := ⟨2, ![2, 160000]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S104857600 : Shape := ⟨1, ![104857600]⟩
abbrev S10240x10240 : Shape := ⟨2, ![10240, 10240]⟩
abbrev S10240x512 : Shape := ⟨2, ![10240, 512]⟩
abbrev S1x1024 : Shape := ⟨2, ![1, 1024]⟩
abbrev S1x512 : Shape := ⟨2, ![1, 512]⟩
abbrev S10240x1024 : Shape := ⟨2, ![10240, 1024]⟩
abbrev S1280x512 : Shape := ⟨2, ![1280, 512]⟩
abbrev S1280x1024 : Shape := ⟨2, ![1280, 1024]⟩
abbrev S1280x1280 : Shape := ⟨2, ![1280, 1280]⟩

abbrev nBuf : Space → Nat
  | .hbm => 91
  | .vmem => 23
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x1024, .f32⟩
  | .hbm, ⟨3, _⟩ => ⟨S1024, .f32⟩
  | .hbm, ⟨4, _⟩ => ⟨S1024x512, .f32⟩
  | .hbm, ⟨5, _⟩ => ⟨S512, .f32⟩
  | .hbm, ⟨6, _⟩ => ⟨S10000, .i32⟩
  | .hbm, ⟨7, _⟩ => ⟨S1x160000, .i32⟩
  | .hbm, ⟨8, _⟩ => ⟨S160000, .i32⟩
  | .hbm, ⟨9, _⟩ => ⟨S170000, .i32⟩
  | .hbm, ⟨10, _⟩ => ⟨S1x160000, .i32⟩
  | .hbm, ⟨11, _⟩ => ⟨S160000, .i32⟩
  | .hbm, ⟨12, _⟩ => ⟨S170000, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S170000, .i32⟩
  | .hbm, ⟨17, _⟩ => ⟨S170000, .i32⟩
  | .hbm, ⟨18, _⟩ => ⟨S_, .i32⟩
  | .hbm, ⟨19, _⟩ => ⟨S170000, .i32⟩
  | .hbm, ⟨20, _⟩ => ⟨S170000, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S170000, .i32⟩
  | .hbm, ⟨25, _⟩ => ⟨S170000, .i32⟩
  | .hbm, ⟨26, _⟩ => ⟨S_, .i32⟩
  | .hbm, ⟨27, _⟩ => ⟨S170000, .i32⟩
  | .hbm, ⟨28, _⟩ => ⟨S170000, .i32⟩
  | .hbm, ⟨29, _⟩ => ⟨S_, .f32⟩
  | .hbm, ⟨30, _⟩ => ⟨S170000, .f32⟩
  | .hbm, ⟨31, _⟩ => ⟨S_, .f32⟩
  | .hbm, ⟨32, _⟩ => ⟨S10000, .f32⟩
  | .hbm, ⟨33, _⟩ => ⟨S170000x1, .i32⟩
  | .hbm, ⟨34, _⟩ => ⟨S10000, .f32⟩
  | .hbm, ⟨35, _⟩ => ⟨S_, .f32⟩
  | .hbm, ⟨36, _⟩ => ⟨S10000, .f32⟩
  | .hbm, ⟨37, _⟩ => ⟨S10000, .i1⟩
  | .hbm, ⟨38, _⟩ => ⟨S10000, .f32⟩
  | .hbm, ⟨39, _⟩ => ⟨S_, .f32⟩
  | .hbm, ⟨40, _⟩ => ⟨S_, .f32⟩
  | .hbm, ⟨41, _⟩ => ⟨S10000, .f32⟩
  | .hbm, ⟨42, _⟩ => ⟨S10000, .f32⟩
  | .hbm, ⟨43, _⟩ => ⟨S_, .i32⟩
  | .hbm, ⟨44, _⟩ => ⟨S170000, .i32⟩
  | .hbm, ⟨45, _⟩ => ⟨S170000, .i1⟩
  | .hbm, ⟨46, _⟩ => ⟨S_, .i32⟩
  | .hbm, ⟨47, _⟩ => ⟨S170000, .i32⟩
  | .hbm, ⟨48, _⟩ => ⟨S170000, .i32⟩
  | .hbm, ⟨49, _⟩ => ⟨S170000, .i32⟩
  | .hbm, ⟨50, _⟩ => ⟨S170000x1, .i32⟩
  | .hbm, ⟨51, _⟩ => ⟨S170000, .f32⟩
  | .hbm, ⟨52, _⟩ => ⟨S_, .i32⟩
  | .hbm, ⟨53, _⟩ => ⟨S170000, .i32⟩
  | .hbm, ⟨54, _⟩ => ⟨S170000, .i1⟩
  | .hbm, ⟨55, _⟩ => ⟨S_, .i32⟩
  | .hbm, ⟨56, _⟩ => ⟨S170000, .i32⟩
  | .hbm, ⟨57, _⟩ => ⟨S170000, .i32⟩
  | .hbm, ⟨58, _⟩ => ⟨S170000, .i32⟩
  | .hbm, ⟨59, _⟩ => ⟨S170000x1, .i32⟩
  | .hbm, ⟨60, _⟩ => ⟨S170000, .f32⟩
  | .hbm, ⟨61, _⟩ => ⟨S170000, .f32⟩
  | .hbm, ⟨62, _⟩ => ⟨S_, .i32⟩
  | .hbm, ⟨63, _⟩ => ⟨S170000, .i32⟩
  | .hbm, ⟨64, _⟩ => ⟨S170000, .i32⟩
  | .hbm, ⟨65, _⟩ => ⟨S170000, .i32⟩
  | .hbm, ⟨66, _⟩ => ⟨S_, .f32⟩
  | .hbm, ⟨67, _⟩ => ⟨S104857600, .f32⟩
  | .hbm, ⟨68, _⟩ => ⟨S_, .i32⟩
  | .hbm, ⟨69, _⟩ => ⟨S170000, .i32⟩
  | .hbm, ⟨70, _⟩ => ⟨S170000, .i1⟩
  | .hbm, ⟨71, _⟩ => ⟨S_, .i32⟩
  | .hbm, ⟨72, _⟩ => ⟨S170000, .i32⟩
  | .hbm, ⟨73, _⟩ => ⟨S170000, .i32⟩
  | .hbm, ⟨74, _⟩ => ⟨S170000, .i32⟩
  | .hbm, ⟨75, _⟩ => ⟨S170000x1, .i32⟩
  | .hbm, ⟨76, _⟩ => ⟨S104857600, .f32⟩
  | .hbm, ⟨77, _⟩ => ⟨S10240x10240, .f32⟩
  | .hbm, ⟨78, _⟩ => ⟨S10240x10240, .bf16⟩
  | .hbm, ⟨79, _⟩ => ⟨S_, .i32⟩
  | .hbm, ⟨80, _⟩ => ⟨S_, .f32⟩
  | .hbm, ⟨81, _⟩ => ⟨S10240x512, .f32⟩
  | .hbm, ⟨82, _⟩ => ⟨S10240x512, .bf16⟩
  | .hbm, ⟨83, _⟩ => ⟨S512x1024, .bf16⟩
  | .hbm, ⟨84, _⟩ => ⟨S1024x512, .bf16⟩
  | .hbm, ⟨85, _⟩ => ⟨S1x1024, .f32⟩
  | .hbm, ⟨86, _⟩ => ⟨S1x512, .f32⟩
  | .hbm, ⟨87, _⟩ => ⟨S10240x1024, .bf16⟩
  | .hbm, ⟨88, _⟩ => ⟨S10240x512, .bf16⟩
  | .hbm, ⟨89, _⟩ => ⟨S10240x512, .f32⟩
  | .hbm, ⟨90, _⟩ => ⟨S10000x512, .f32⟩
  | .local _ .vmem, ⟨0, _⟩ => ⟨S1280x512, .bf16⟩
  | .local _ .vmem, ⟨1, _⟩ => ⟨S1280x512, .bf16⟩
  | .local _ .vmem, ⟨2, _⟩ => ⟨S512x1024, .bf16⟩
  | .local _ .vmem, ⟨3, _⟩ => ⟨S1280x1024, .bf16⟩
  | .local _ .vmem, ⟨4, _⟩ => ⟨S1280x1024, .bf16⟩
  | .local _ .vmem, ⟨5, _⟩ => ⟨S1280x1024, .f32⟩
  | .local _ .vmem, ⟨6, _⟩ => ⟨S1280x1280, .bf16⟩
  | .local _ .vmem, ⟨7, _⟩ => ⟨S1280x1280, .bf16⟩
  | .local _ .vmem, ⟨8, _⟩ => ⟨S1280x1024, .bf16⟩
  | .local _ .vmem, ⟨9, _⟩ => ⟨S1280x1024, .bf16⟩
  | .local _ .vmem, ⟨10, _⟩ => ⟨S1x1024, .f32⟩
  | .local _ .vmem, ⟨11, _⟩ => ⟨S1024x512, .bf16⟩
  | .local _ .vmem, ⟨12, _⟩ => ⟨S1280x512, .bf16⟩
  | .local _ .vmem, ⟨13, _⟩ => ⟨S1280x512, .bf16⟩
  | .local _ .vmem, ⟨14, _⟩ => ⟨S1280x1024, .f32⟩
  | .local _ .vmem, ⟨15, _⟩ => ⟨S1280x1280, .bf16⟩
  | .local _ .vmem, ⟨16, _⟩ => ⟨S1280x1280, .bf16⟩
  | .local _ .vmem, ⟨17, _⟩ => ⟨S1280x512, .bf16⟩
  | .local _ .vmem, ⟨18, _⟩ => ⟨S1280x512, .bf16⟩
  | .local _ .vmem, ⟨19, _⟩ => ⟨S1x512, .f32⟩
  | .local _ .vmem, ⟨20, _⟩ => ⟨S1280x512, .f32⟩
  | .local _ .vmem, ⟨21, _⟩ => ⟨S1280x512, .f32⟩
  | .local _ .vmem, ⟨22, _⟩ => ⟨S1280x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_c_1 : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_cst_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_4 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_5 : Ref sig .tc := ⟨.hbm, 39, rfl⟩
abbrev main_call2_v0 : Ref sig .tc := ⟨.hbm, 40, rfl⟩
abbrev main_call2_v1 : Ref sig .tc := ⟨.hbm, 41, rfl⟩
abbrev main_v16 : Ref sig .tc := ⟨.hbm, 42, rfl⟩
abbrev main_c_6 : Ref sig .tc := ⟨.hbm, 43, rfl⟩
abbrev main_v17 : Ref sig .tc := ⟨.hbm, 44, rfl⟩
abbrev main_v18 : Ref sig .tc := ⟨.hbm, 45, rfl⟩
abbrev main_c_7 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_8 : Ref sig .tc := ⟨.hbm, 52, rfl⟩
abbrev main_v24 : Ref sig .tc := ⟨.hbm, 53, rfl⟩
abbrev main_v25 : Ref sig .tc := ⟨.hbm, 54, rfl⟩
abbrev main_c_9 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_10 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_11 : Ref sig .tc := ⟨.hbm, 66, rfl⟩
abbrev main_v35 : Ref sig .tc := ⟨.hbm, 67, rfl⟩
abbrev main_c_12 : Ref sig .tc := ⟨.hbm, 68, rfl⟩
abbrev main_v36 : Ref sig .tc := ⟨.hbm, 69, rfl⟩
abbrev main_v37 : Ref sig .tc := ⟨.hbm, 70, rfl⟩
abbrev main_c_13 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_c_14 : Ref sig .tc := ⟨.hbm, 79, rfl⟩
abbrev main_call3_v0 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S1280x1280 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1280x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1024x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1280x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev grid2 : Pipeline.Grid := ⟨3, ![8, 1, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1280x1280 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1280x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S1280x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S_S104857600 : S_.BroadcastsInDim S104857600 (![] : Fin 0 → Fin S104857600.rank)
  shapeCasts_S104857600_S10240x10240 : S104857600.ShapeCasts S10240x10240
  bitsLt_bf16_f32 : FTy.bits .bf16 < FTy.bits .f32
  pads_S10000x512_S10240x512_02400_000 : S10000x512.Pads (![0, 0] : Fin 2 → Nat) ![240, 0] ![0, 0] S10240x512
  h_S_ : 0 < S_.numel
  shapeCasts_S1024_S1x1024 : S1024.ShapeCasts S1x1024
  shapeCasts_S512_S1x512 : S512.ShapeCasts S1x512
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S1280x512_S1280x512_0_0 : ∀ a, (![0, 0] : Fin 2 → Nat) a + S1280x512.size a ≤ S1280x512.size a
  h_S1280x512 : 0 < S1280x512.numel
  shapeCasts_S1280x512_S1280x512 : S1280x512.ShapeCasts S1280x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S1280x1024_S1280x1024_0_0 : (Rect.unit (s := S1280x1024) ![0, 0] S1280x1024.size inb_S1280x1024_S1280x1024_0_0).PackedRows (EltTy.packing .bf16)
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1280x1024 : S1x1024.Broadcasts S1280x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  packedbf16_S1280x512_S1280x512_0_0 : (Rect.unit (s := S1280x512) ![0, 0] S1280x512.size inb_S1280x512_S1280x512_0_0).PackedRows (EltTy.packing .bf16)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1280x512 : S1x512.Broadcasts S1280x512
  slices_S10240x512_S10000x512_0_0 : S10240x512.Slices ![0, 0] S10000x512
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  scatter_S104857600_S170000x1_S170000_n_0_0_1_wf : ScatterDims.WF S104857600 S170000x1 S170000 [] [0] [0] 1
  dot_S1280x512_S512x1024_S1280x1024_1_0_0_1_n_n_wf : DotDims.WF S1280x512 S512x1024 S1280x1024 [1] [0] [0] [1] [] []
  dot_S1280x1280_S1280x1024_S1280x1024_1_0_0_1_n_n_wf : DotDims.WF S1280x1280 S1280x1024 S1280x1024 [1] [0] [0] [1] [] []
  dot_S1280x1024_S1024x512_S1280x512_1_0_0_1_n_n_wf : DotDims.WF S1280x1024 S1024x512 S1280x512 [1] [0] [0] [1] [] []
  dot_S1280x1280_S1280x512_S1280x512_1_0_0_1_n_n_wf : DotDims.WF S1280x1280 S1280x512 S1280x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x512.size a ≤ S10240x512.size a
  hwx0_0 : ∀ i : grid0.Coords, EltTy.bits .bf16 = 32 ∨ (Rect.block (s := S10240x512) S1280x512.size (cc0_transform_0 i) (hinb0_0 i)).WholeWords (EltTy.packing .bf16)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x1024.size a ≤ S10240x1024.size a
  hwx0_2 : ∀ i : grid0.Coords, EltTy.bits .bf16 = 32 ∨ (Rect.block (s := S10240x1024) S1280x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x1280.size a ≤ S10240x10240.size a
  hwx1_0 : ∀ i : grid1.Coords, EltTy.bits .bf16 = 32 ∨ (Rect.block (s := S10240x10240) S1280x1280.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x1024.size a ≤ S10240x1024.size a
  hwx1_1 : ∀ i : grid1.Coords, EltTy.bits .bf16 = 32 ∨ (Rect.block (s := S10240x1024) S1280x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S1024x512.size a
  hwx1_3 : ∀ i : grid1.Coords, EltTy.bits .bf16 = 32 ∨ (Rect.block (s := S1024x512) S1024x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1280x512.size a ≤ S10240x512.size a
  hwx1_4 : ∀ i : grid1.Coords, EltTy.bits .bf16 = 32 ∨ (Rect.block (s := S10240x512) S1280x512.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1280x1280.size a ≤ S10240x10240.size a
  hwx2_0 : ∀ i : grid2.Coords, EltTy.bits .bf16 = 32 ∨ (Rect.block (s := S10240x10240) S1280x1280.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1280x512.size a ≤ S10240x512.size a
  hwx2_1 : ∀ i : grid2.Coords, EltTy.bits .bf16 = 32 ∨ (Rect.block (s := S10240x512) S1280x512.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1280x512.size a ≤ S10240x512.size a
  hwx2_3 : ∀ i : grid2.Coords, EltTy.bits .f32 = 32 ∨ (Rect.block (s := S10240x512) S1280x512.size (cc2_transform_3 i) (hinb2_3 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def scatter_S104857600_S170000x1_S170000_n_0_0_1 : ScatterDims S104857600 S170000x1 S170000 where
  updateWindowDims := []
  insertedWindowDims := [0]
  scatterDimsToOperandDims := [0]
  indexVectorDim := 1
  wf := scatter_S104857600_S170000x1_S170000_n_0_0_1_wf
def dot_S1280x512_S512x1024_S1280x1024_1_0_0_1_n_n : DotDims S1280x512 S512x1024 S1280x1024 where
  lhsContracting := [1]
  rhsContracting := [0]
  lhsNonContracting := [0]
  rhsNonContracting := [1]
  lhsBatch := []
  rhsBatch := []
  wf := dot_S1280x512_S512x1024_S1280x1024_1_0_0_1_n_n_wf
def dot_S1280x1280_S1280x1024_S1280x1024_1_0_0_1_n_n : DotDims S1280x1280 S1280x1024 S1280x1024 where
  lhsContracting := [1]
  rhsContracting := [0]
  lhsNonContracting := [0]
  rhsNonContracting := [1]
  lhsBatch := []
  rhsBatch := []
  wf := dot_S1280x1280_S1280x1024_S1280x1024_1_0_0_1_n_n_wf
def dot_S1280x1024_S1024x512_S1280x512_1_0_0_1_n_n : DotDims S1280x1024 S1024x512 S1280x512 where
  lhsContracting := [1]
  rhsContracting := [0]
  lhsNonContracting := [0]
  rhsNonContracting := [1]
  lhsBatch := []
  rhsBatch := []
  wf := dot_S1280x1024_S1024x512_S1280x512_1_0_0_1_n_n_wf
def dot_S1280x1280_S1280x512_S1280x512_1_0_0_1_n_n : DotDims S1280x1280 S1280x512 S1280x512 where
  lhsContracting := [1]
  rhsContracting := [0]
  lhsNonContracting := [0]
  rhsNonContracting := [1]
  lhsBatch := []
  rhsBatch := []
  wf := dot_S1280x1280_S1280x512_S1280x512_1_0_0_1_n_n_wf

abbrev win0_0 : Pipeline.Window sig grid0 :=
  Pipeline.Window.ofSpec (Memref.whole main_v46) S1280x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S512x1024.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1280x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v44) S1280x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1280x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1024x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1280x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v44) S1280x1280.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1280x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x512.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1280x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S10000x512 : Shape := ⟨2, ![10000, 512]⟩
abbrev S2x160000 : Shape := ⟨2, ![2, 160000]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S10000x1024 : Shape := ⟨2, ![10000, 1024]⟩
abbrev S170000x1024 : Shape := ⟨2, ![170000, 1024]⟩
abbrev S1x1024 : Shape := ⟨2, ![1, 1024]⟩
abbrev S170000x512 : Shape := ⟨2, ![170000, 512]⟩
abbrev S1x512 : Shape := ⟨2, ![1, 512]⟩

abbrev nBuf : Space → Nat
  | .hbm => 132
  | .vmem => 0
  | .smem => 0
  | _ => 0

abbrev hbmTy0_0 (i : Nat) : BufTy := match i % 128 with
  | 0 => ⟨S10000x512, .f32⟩
  | 1 => ⟨S2x160000, .i32⟩
  | 2 => ⟨S512x1024, .f32⟩
  | 3 => ⟨S1024, .f32⟩
  | 4 => ⟨S1024x512, .f32⟩
  | 5 => ⟨S512, .f32⟩
  | 6 => ⟨S10000, .i32⟩
  | 7 => ⟨S1x160000, .i32⟩
  | 8 => ⟨S160000, .i32⟩
  | 9 => ⟨S170000, .i32⟩
  | 10 => ⟨S1x160000, .i32⟩
  | 11 => ⟨S160000, .i32⟩
  | 12 => ⟨S170000, .i32⟩
  | 13 => ⟨S_, .f32⟩
  | 14 => ⟨S170000, .f32⟩
  | 15 => ⟨S_, .f32⟩
  | 16 => ⟨S10000, .f32⟩
  | 17 => ⟨S170000x1, .i32⟩
  | 18 => ⟨S10000, .f32⟩
  | 19 => ⟨S_, .f32⟩
  | 20 => ⟨S10000, .f32⟩
  | 21 => ⟨S10000, .i1⟩
  | 22 => ⟨S10000, .f32⟩
  | 23 => ⟨S_, .f32⟩
  | 24 => ⟨S_, .f32⟩
  | 25 => ⟨S10000, .f32⟩
  | 26 => ⟨S10000, .f32⟩
  | 27 => ⟨S_, .i32⟩
  | 28 => ⟨S170000, .i32⟩
  | 29 => ⟨S170000, .i1⟩
  | 30 => ⟨S_, .i32⟩
  | 31 => ⟨S170000, .i32⟩
  | 32 => ⟨S170000, .i32⟩
  | 33 => ⟨S170000, .i32⟩
  | 34 => ⟨S170000x1, .i32⟩
  | 35 => ⟨S170000, .f32⟩
  | 36 => ⟨S_, .i32⟩
  | 37 => ⟨S170000, .i32⟩
  | 38 => ⟨S170000, .i1⟩
  | 39 => ⟨S_, .i32⟩
  | 40 => ⟨S170000, .i32⟩
  | 41 => ⟨S170000, .i32⟩
  | 42 => ⟨S170000, .i32⟩
  | 43 => ⟨S170000x1, .i32⟩
  | 44 => ⟨S170000, .f32⟩
  | 45 => ⟨S170000, .f32⟩
  | 46 => ⟨S10000x1024, .f32⟩
  | 47 => ⟨S_, .i32⟩
  | 48 => ⟨S170000, .i32⟩
  | 49 => ⟨S170000, .i1⟩
  | 50 => ⟨S_, .i32⟩
  | 51 => ⟨S170000, .i32⟩
  | 52 => ⟨S170000, .i32⟩
  | 53 => ⟨S170000, .i32⟩
  | 54 => ⟨S170000x1, .i32⟩
  | 55 => ⟨S170000x1024, .f32⟩
  | 56 => ⟨S170000x1, .f32⟩
  | 57 => ⟨S170000x1024, .f32⟩
  | 58 => ⟨S170000x1024, .f32⟩
  | 59 => ⟨S_, .f32⟩
  | 60 => ⟨S10000x1024, .f32⟩
  | 61 => ⟨S170000x1, .i32⟩
  | 62 => ⟨S10000x1024, .f32⟩
  | 63 => ⟨S1x1024, .f32⟩
  | 64 => ⟨S10000x1024, .f32⟩
  | 65 => ⟨S10000x1024, .f32⟩
  | 66 => ⟨S_, .f32⟩
  | 67 => ⟨S10000x1024, .f32⟩
  | 68 => ⟨S10000x1024, .f32⟩
  | 69 => ⟨S10000, .i32⟩
  | 70 => ⟨S1x160000, .i32⟩
  | 71 => ⟨S160000, .i32⟩
  | 72 => ⟨S170000, .i32⟩
  | 73 => ⟨S1x160000, .i32⟩
  | 74 => ⟨S160000, .i32⟩
  | 75 => ⟨S170000, .i32⟩
  | 76 => ⟨S_, .f32⟩
  | 77 => ⟨S170000, .f32⟩
  | 78 => ⟨S_, .f32⟩
  | 79 => ⟨S10000, .f32⟩
  | 80 => ⟨S170000x1, .i32⟩
  | 81 => ⟨S10000, .f32⟩
  | 82 => ⟨S_, .f32⟩
  | 83 => ⟨S10000, .f32⟩
  | 84 => ⟨S10000, .i1⟩
  | 85 => ⟨S10000, .f32⟩
  | 86 => ⟨S_, .f32⟩
  | 87 => ⟨S_, .f32⟩
  | 88 => ⟨S10000, .f32⟩
  | 89 => ⟨S10000, .f32⟩
  | 90 => ⟨S_, .i32⟩
  | 91 => ⟨S170000, .i32⟩
  | 92 => ⟨S170000, .i1⟩
  | 93 => ⟨S_, .i32⟩
  | 94 => ⟨S170000, .i32⟩
  | 95 => ⟨S170000, .i32⟩
  | 96 => ⟨S170000, .i32⟩
  | 97 => ⟨S170000x1, .i32⟩
  | 98 => ⟨S170000, .f32⟩
  | 99 => ⟨S_, .i32⟩
  | 100 => ⟨S170000, .i32⟩
  | 101 => ⟨S170000, .i1⟩
  | 102 => ⟨S_, .i32⟩
  | 103 => ⟨S170000, .i32⟩
  | 104 => ⟨S170000, .i32⟩
  | 105 => ⟨S170000, .i32⟩
  | 106 => ⟨S170000x1, .i32⟩
  | 107 => ⟨S170000, .f32⟩
  | 108 => ⟨S170000, .f32⟩
  | 109 => ⟨S10000x512, .f32⟩
  | 110 => ⟨S_, .i32⟩
  | 111 => ⟨S170000, .i32⟩
  | 112 => ⟨S170000, .i1⟩
  | 113 => ⟨S_, .i32⟩
  | 114 => ⟨S170000, .i32⟩
  | 115 => ⟨S170000, .i32⟩
  | 116 => ⟨S170000, .i32⟩
  | 117 => ⟨S170000x1, .i32⟩
  | 118 => ⟨S170000x512, .f32⟩
  | 119 => ⟨S170000x1, .f32⟩
  | 120 => ⟨S170000x512, .f32⟩
  | 121 => ⟨S170000x512, .f32⟩
  | 122 => ⟨S_, .f32⟩
  | 123 => ⟨S10000x512, .f32⟩
  | 124 => ⟨S170000x1, .i32⟩
  | 125 => ⟨S10000x512, .f32⟩
  | 126 => ⟨S1x512, .f32⟩
  | 127 => ⟨S10000x512, .f32⟩
  | _ => ⟨S10000x512, .f32⟩

abbrev hbmTy0_1 (i : Nat) : BufTy := match i % 128 with
  | 0 => ⟨S10000x512, .f32⟩
  | 1 => ⟨S_, .f32⟩
  | 2 => ⟨S10000x512, .f32⟩
  | 3 => ⟨S10000x512, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x1024_0_1 : S170000x1.BroadcastsInDim S170000x1024 (![0, 1] : Fin 2 → Fin S170000x1024.rank)
  bcast_S_S10000x1024 : S_.BroadcastsInDim S10000x1024 (![] : Fin 0 → Fin S10000x1024.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S10000x512_S512x1024_S10000x1024_1_0_0_1_n_n_wf : DotDims.WF S10000x512 S512x1024 S10000x1024 [1] [0] [0] [1] [] []
  gather_S10000x1024_S170000x1_S170000x1024_1_0_n_n_0_1_11024_wf : GatherDims.WF S10000x1024 S170000x1 S170000x1024 [1] [0] [] [0] [] 1 ![1, 1024]
  scatter_S10000x1024_S170000x1_S170000x1024_1_0_0_1_wf : ScatterDims.WF S10000x1024 S170000x1 S170000x1024 [1] [0] [0] 1
  dot_S10000x1024_S1024x512_S10000x512_1_0_0_1_n_n_wf : DotDims.WF S10000x1024 S1024x512 S10000x512 [1] [0] [0] [1] [] []
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S10000x512_S512x1024_S10000x1024_1_0_0_1_n_n : DotDims S10000x512 S512x1024 S10000x1024 where
  lhsContracting := [1]
  rhsContracting := [0]
  lhsNonContracting := [0]
  rhsNonContracting := [1]
  lhsBatch := []
  rhsBatch := []
  wf := dot_S10000x512_S512x1024_S10000x1024_1_0_0_1_n_n_wf
def gather_S10000x1024_S170000x1_S170000x1024_1_0_n_n_0_1_11024 : GatherDims S10000x1024 S170000x1 S170000x1024 where
  offsetDims := [1]
  collapsedSliceDims := [0]
  operandBatchingDims := []
  startIndicesBatchingDims := []
  startIndexMap := [0]
  indexVectorDim := 1
  sliceSizes := ![1, 1024]
  wf := gather_S10000x1024_S170000x1_S170000x1024_1_0_n_n_0_1_11024_wf
def scatter_S10000x1024_S170000x1_S170000x1024_1_0_0_1 : ScatterDims S10000x1024 S170000x1 S170000x1024 where
  updateWindowDims := [1]
  insertedWindowDims := [0]
  scatterDimsToOperandDims := [0]
  indexVectorDim := 1
  wf := scatter_S10000x1024_S170000x1_S170000x1024_1_0_0_1_wf
def dot_S10000x1024_S1024x512_S10000x512_1_0_0_1_n_n : DotDims S10000x1024 S1024x512 S10000x512 where
  lhsContracting := [1]
  rhsContracting := [0]
  lhsNonContracting := [0]
  rhsNonContracting := [1]
  lhsBatch := []
  rhsBatch := []
  wf := dot_S10000x1024_S1024x512_S10000x512_1_0_0_1_n_n_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf

class Facts : Prop extends Facts₀ where

variable [Facts]
-- ==== Proof.KI.Region0.lean ====
/- Region 0 of the program (the first matrix product): the per-region half of the frame
   certificate, stated at the buffer contents `V` the region is entered with, generic in the
   float instance.

   The kernel multiplies a 1280x512 block of the padded input by the whole 512x1024 weight matrix.
   Its grid is (8, 1, 1): the contraction axis has a single point, so at every grid point the
   accumulator is first zeroed, then the product of the two blocks is added to it, and the rounded
   accumulator is stored into the output block.  Since the accumulator is rewritten whole at
   every point before it is read, nothing is carried from one point to the next, and the region's
   invariant is the class's: every scoped buffer that is no staging buffer at some contents. -/
import proofs.«411933_j790273982476_2_alg».proof.Proof.Gen.KernelIdeal.Launch
import proofs.«411933_j790273982476_2_alg».proof.Proof.Gen.KernelIdeal.Skeleton
import proofs.«411933_j790273982476_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of 1280 x 1024 entries recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block of the left factor sits in its current staging buffer at every point, fetched
    there or not: where it is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right factor (the whole weight matrix, fetched once, at the first point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditionals -/

/-- "This is the first point of the contraction axis": the guard of the accumulator's reset. -/
abbrev cond0_0 (i : grid0.Coords) : Prop := (Scalar.cmpi .ne (Scalar.extui (Scalar.cmpi .eq (BitVec.ofNat 32 (i 2).val) 0#32)) 0#32) = 1#1
/-- The contraction axis has one point, so the guard holds at every grid point. -/
theorem hcond0_0 : ∀ t : Fin cfg0.N, cond0_0 (grid0.coords t) :=
  (by decide +kernel : ∀ t : Fin grid0.N, cond0_0 (grid0.coords t))

/-- "This is the last point of the contraction axis": the guard of the output's store. -/
abbrev cond0_1 (i : grid0.Coords) : Prop := k0_cond2 i = 1#1
/-- It holds at every grid point too. -/
theorem hcond0_1 : ∀ t : Fin cfg0.N, cond0_1 (grid0.coords t) :=
  (by decide +kernel : ∀ t : Fin grid0.N, cond0_1 (grid0.coords t))

/-- No window is idle at any point: the inputs never are, and the output is stored at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-! ## The kernel body on any staging memrefs -/

/-- One staging buffer of the output window, through which its contents are stated (which one does not matter). -/
abbrev VO0_2 : View sig .tc .vmem S1280x1024 .bf16 := (Memref.whole cc0_stg2_0 : Memref sig .tc .vmem S1280x1024 .bf16).view
/-- Each window's current staging memref at point `t`, as the pipeline passes it to the body, and its wholeness. -/
abbrev ms0_0 (t : Fin cfg0.N) : Memref sig .tc .vmem S1280x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0_0 : Memref sig .tc .vmem S1280x1024 .f32 := Memref.whole cc0_scratch0
abbrev VS0_0 : View sig .tc .vmem S1280x1024 .f32 := scM0_0.view

-- (the run's proof term is large)
set_option maxHeartbeats 1000000 in
/-- What the body's stores leave in the output's staging memref and in the accumulator, as pieces
    (last first), with the proof that on whole memrefs — the two input blocks at their contents,
    the output's buffer and the accumulator at anything — the body runs to the continuation holding
    the inputs as they were and the two written buffers with those pieces written.  Both conditionals
    are taken (`hc0`, `hc1`). -/
noncomputable def kernelRun0_A (c : Dev nD) (i : grid0.Coords)
    (arg3 : Memref sig .tc .vmem S1280x512 .bf16) (harg3 : arg3.IsWhole)
    (arg4 : Memref sig .tc .vmem S512x1024 .bf16) (harg4 : arg4.IsWhole)
    (arg5 : Memref sig .tc .vmem S1280x1024 .bf16) (harg5 : arg5.IsWhole)
    (arg6 : Memref sig .tc .vmem S1280x1024 .f32) (harg6 : arg6.IsWhole)
    (hc0 : cond0_0 i) (hc1 : cond0_1 i)
    (x0 : Vec F S1280x512 .bf16) (x1 : Vec F S512x1024 .bf16) :
    Σ' (L2 : List (View.Piece (Elt F) S1280x1024 .bf16)), { LS0 : List (View.Piece (Elt F) S1280x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)) -∗ K ⟨⟩))
          ⊢ wp frame (wpE (defs₀ (F := F)) Variants.none c none) E (cc0__gemm_kernel i arg3 harg3 arg4 harg4 arg5 harg5 arg6 harg6) K } := by
  refine ⟨?_, ?_, fun E K => ?run⟩
  case run =>
    simp only [cc0__gemm_kernel_eq_skeleton]; unfold cc0__gemm_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the run leaves -/

/-- The output's pieces (one store of the whole block) cover its buffer. -/
theorem cover0_A_2 (c : Dev nD) (i : grid0.Coords)
    (arg3 : Memref sig .tc .vmem S1280x512 .bf16) (harg3 : arg3.IsWhole)
    (arg4 : Memref sig .tc .vmem S512x1024 .bf16) (harg4 : arg4.IsWhole)
    (arg5 : Memref sig .tc .vmem S1280x1024 .bf16) (harg5 : arg5.IsWhole)
    (arg6 : Memref sig .tc .vmem S1280x1024 .f32) (harg6 : arg6.IsWhole)
    (hc0 : cond0_0 i) (hc1 : cond0_1 i)
    (x0 : Vec F S1280x512 .bf16) (x1 : Vec F S512x1024 .bf16) (y : S1280x1024.Idx) :
    ∃ pc ∈ (kernelRun0_A c i arg3 harg3 arg4 harg4 arg5 harg5 arg6 harg6 hc0 hc1 x0 x1).1, y ∈ pc.1.set :=
  View.cover_of_tiledL (kernelRun0_A c i arg3 harg3 arg4 harg4 arg5 harg5 arg6 harg6 hc0 hc1 x0 x1).1 S1280x1024.size (by sl_kernel_rfl) y

/-- What the run leaves in the output's staging buffer: its pieces read back over junk. -/
def out0_A_2 (c : Dev nD) (i : grid0.Coords)
    (arg3 : Memref sig .tc .vmem S1280x512 .bf16) (harg3 : arg3.IsWhole)
    (arg4 : Memref sig .tc .vmem S512x1024 .bf16) (harg4 : arg4.IsWhole)
    (arg5 : Memref sig .tc .vmem S1280x1024 .bf16) (harg5 : arg5.IsWhole)
    (arg6 : Memref sig .tc .vmem S1280x1024 .f32) (harg6 : arg6.IsWhole)
    (hc0 : cond0_0 i) (hc1 : cond0_1 i)
    (x0 : Vec F S1280x512 .bf16) (x1 : Vec F S512x1024 .bf16) : Vec F S1280x1024 .bf16 :=
  VO0_2.read (Elt F) (VO0_2.writes (Elt F) VO0_2.junk (kernelRun0_A c i arg3 harg3 arg4 harg4 arg5 harg5 arg6 harg6 hc0 hc1 x0 x1).1)

/-- The accumulator's pieces (the reset, then the update, each the whole buffer) cover it. -/
theorem scover0_A_0 (c : Dev nD) (i : grid0.Coords)
    (arg3 : Memref sig .tc .vmem S1280x512 .bf16) (harg3 : arg3.IsWhole)
    (arg4 : Memref sig .tc .vmem S512x1024 .bf16) (harg4 : arg4.IsWhole)
    (arg5 : Memref sig .tc .vmem S1280x1024 .bf16) (harg5 : arg5.IsWhole)
    (arg6 : Memref sig .tc .vmem S1280x1024 .f32) (harg6 : arg6.IsWhole)
    (hc0 : cond0_0 i) (hc1 : cond0_1 i)
    (x0 : Vec F S1280x512 .bf16) (x1 : Vec F S512x1024 .bf16) (y : S1280x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1280x1024.size (by sl_kernel_rfl) y

/-- What the run leaves in the accumulator: its pieces read back over junk. -/
def sout0_A_0 (c : Dev nD) (i : grid0.Coords)
    (arg3 : Memref sig .tc .vmem S1280x512 .bf16) (harg3 : arg3.IsWhole)
    (arg4 : Memref sig .tc .vmem S512x1024 .bf16) (harg4 : arg4.IsWhole)
    (arg5 : Memref sig .tc .vmem S1280x1024 .bf16) (harg5 : arg5.IsWhole)
    (arg6 : Memref sig .tc .vmem S1280x1024 .f32) (harg6 : arg6.IsWhole)
    (hc0 : cond0_0 i) (hc1 : cond0_1 i)
    (x0 : Vec F S1280x512 .bf16) (x1 : Vec F S512x1024 .bf16) : Vec F S1280x1024 .f32 :=
  VS0_0.read (Elt F) (VS0_0.writes (Elt F) VS0_0.junk (kernelRun0_A c i arg3 harg3 arg4 harg4 arg5 harg5 arg6 harg6 hc0 hc1 x0 x1).2.1)

/-! ## What the buffers hold after each point -/

/-- After the body at point `t`: the output's staging buffer and the accumulator, from the run at
    the point's memrefs and input blocks.  No component depends on an earlier point. -/
def outs0 (c : Dev nD) (t : Fin cfg0.N) : Vec F S1280x1024 .bf16 × Vec F S1280x1024 .f32 :=
  (out0_A_2 c (grid0.coords t) (ms0_0 t) (hs0_0 t) (ms0_1 t) (hs0_1 t) (ms0_2 t) (hs0_2 t) scM0_0 (Memref.isWhole_whole _) (hcond0_0 t) (hcond0_1 t) (iblk0 V c 0 t) (iblk0 V c 1 t),
   sout0_A_0 c (grid0.coords t) (ms0_0 t) (hs0_0 t) (ms0_1 t) (hs0_1 t) (ms0_2 t) (hs0_2 t) scM0_0 (Memref.isWhole_whole _) (hcond0_0 t) (hcond0_1 t) (iblk0 V c 0 t) (iblk0 V c 1 t))

/-- The same indexed by the point's position. -/
def outsAt0 (c : Dev nD) : (n : ℕ) → n < cfg0.N → Vec F S1280x1024 .bf16 × Vec F S1280x1024 .f32 :=
  fun n hn => outs0 V c ⟨n, hn⟩

theorem outsAt0_eq (c : Dev nD) (t : Fin cfg0.N) : outsAt0 V c t.val t.isLt = outs0 V c t := rfl

/-! ## The pipeline's proof data -/

/-- The proof data of the region on core `c`: the arrays as the region finds them; after the body
    at point `t` each input's buffer at its block and the output's at the run's contents; the
    invariant the class's (the scoped rest, the accumulator among it, and the generator register);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- The accumulator among the scoped rest, as a memref owned at some contents. -/
theorem scratch0_owned (c : Dev nD) :
    (iprop(∃ f : Buf (Elt F) ((c : Thread nD τ).loc cc0_scratch0), ((c : Thread nD τ).loc cc0_scratch0) ↦{fullShare} f) : sProp 𝕄)
      = iprop(∃ d, owns (c : Thread nD τ) scM0_0 fullShare d) := by
  simp only [scM0_0, owns_whole]; rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 2000000 in
/-- The body at any point: the inputs' memrefs hold their blocks, both conditionals are taken, so the
    run applies; the invariant hands the body the accumulator at some contents and takes it back at
    some contents, the other scoped buffers and the generator register pass through unread; the core
    owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Pipeline.ΦA spec0 c from rfl, show (dat0 V c).Φ t.castSucc = Pipeline.ΦA spec0 c from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [outsAt0_eq]
  unfold outs0 out0_A_2; (try dsimp only)
  unfold Pipeline.ΦA; rw [scopedRest0_eq, scratch0_owned]
  iintro ⟨⟨⟨HS0, Hrest⟩, Hg⟩, Ho, ⟨%d0, H0⟩, ⟨%d1, H1⟩, ⟨%d2, H2⟩⟩
  iapply ((kernelRun0_A c (grid0.coords t) _ _ _ _ _ _ _ _ (hcond0_0 t) (hcond0_1 t) (iblk0 V c 0 t) (iblk0 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hrest Hg]
  · isplitl [HS0 Hrest]
    · isplitl [HS0]
      · unfold owns; iexists _, _; isplitr
        swap; · iexact HS0
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = Pipeline.ΦA spec0 c from rfl]

/-- and the invariant after the last point gives it back. -/
theorem hout0 (c : Dev nD) : (dat0 V c).Φ (Fin.last cfg0.N) ⊢ Pipeline.ΦA spec0 c := by
  rw [show (dat0 V c).Φ (Fin.last cfg0.N) = Pipeline.ΦA spec0 c from rfl]

end Cert.KernelIdeal.Hand

end
-- ==== Proof.KI.Region1.lean ====
import proofs.«411933_j790273982476_2_alg».proof.Proof.Gen.KernelIdeal.Launch
import proofs.«411933_j790273982476_2_alg».proof.Proof.Gen.KernelIdeal.Skeleton
import proofs.«411933_j790273982476_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # Region 1: the fused second layer, point by point

The second kernel call walks a grid of 8 × 1 × 8 points `(i, _, k)`; point `t` has `k = t mod 8`.
At each point it adds to an accumulator of shape 1280 × 1024 the product of the `(i, k)` block of the
normalized adjacency with the `k`-th row block of the first layer's pre-activation. The accumulator is
zeroed where `k = 0` and lives on between points. Where `k = 7` the row block is complete: the bias is
added, the result clamped below at zero, rounded, multiplied by the second weight matrix, rounded again and
stored as the `i`-th row block of the output. At every other point the output's buffer is left as found.

This module states, at ANY contents `V` of the TensorCore's buffers on entry, what each point leaves in
the output's buffer and in the accumulator (`outsAt1`), the invariant that carries the accumulator from a
point to the next, and the body's obligation towards the pipeline; and, last, the three equations that say
what those contents are in terms of the kernel's three pure payloads. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the grid -/

/-- The first conditional's test: the innermost coordinate `k` is zero. -/
abbrev cond1_0 (i : grid1.Coords) : Prop := (Scalar.cmpi .ne (Scalar.extui (Scalar.cmpi .eq (BitVec.ofNat 32 (i 2).val) 0#32)) 0#32) = 1#1
/-- It holds exactly at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's test: `k` is the last, 7. -/
abbrev cond1_1 (i : grid1.Coords) : Prop := k1_cond2 i = 1#1
/-- It holds exactly at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The four inputs are read at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where `k ≠ 7` nothing is stored into the output's buffer, and it is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- Where `k = 7` the output's buffer is stored whole. -/
theorem liveAt1_4 : ∀ t : Fin cfg1.N, cond1_1 (grid1.coords t) → cfg1.idle 4 (grid1.coords t) = false := by decide +kernel

/-! ## The memrefs the body is called with -/

/-- One buffer of the output window, through which its contents are stated (the choice does not matter). -/
abbrev VO1_4 : View sig .tc .vmem S1280x512 .bf16 := (Memref.whole cc1_stg4_0 : Memref sig .tc .vmem S1280x512 .bf16).view
/-- Each window's current buffer at point `t`, and that it is a whole buffer. -/
abbrev ms1_0 (t : Fin cfg1.N) : Memref sig .tc .vmem S1280x1280 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1280x512 .bf16 := win1_4.stage (cfg1.slots t 4)
abbrev hs1_4 (t : Fin cfg1.N) : (ms1_4 t).IsWhole := hstage1_4 ((cfg1.slots t 4).cast nbuf1_4)
/-- The accumulator: a whole buffer of the kernel's own, and the view its contents are stated through. -/
abbrev scM1_0 : Memref sig .tc .vmem S1280x1024 .f32 := Memref.whole cc1_scratch0
abbrev VS1_0 : View sig .tc .vmem S1280x1024 .f32 := scM1_0.view

/-! ## The body's run, case by case

Each run is a pair: the list of pieces the body's stores leave in a buffer (last store first), found by
running the body, and the proof that from the buffers it touches the body reaches its continuation with
those pieces written. A buffer the case does not touch is not mentioned: it is framed around the run. -/

set_option maxHeartbeats 1000000 in
/-- Case `k = 0`: the accumulator, at anything, is zeroed and then added to. -/
noncomputable def kernelRun1_A (c : Dev nD) (i : grid1.Coords) (arg3 : Memref sig .tc .vmem S1280x1280 .bf16) (harg3 : arg3.IsWhole) (arg4 : Memref sig .tc .vmem S1280x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1280x512 .bf16) (harg7 : arg7.IsWhole) (arg8 : Memref sig .tc .vmem S1280x1024 .f32) (harg8 : arg8.IsWhole) (hc0 : cond1_0 i) (hc1 : ¬cond1_1 i)
    (x0 : Vec F S1280x1280 .bf16) (x1 : Vec F S1280x1024 .bf16) :
    { LS0 : List (View.Piece (Elt F) S1280x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg8 fullShare d)
            ∗ (iprop(owns (c : Thread nD τ) arg3 fullShare x0 ∗ owns (c : Thread nD τ) arg4 fullShare x1 ∗ (∃ f, arg8.view.loc (c : Thread nD τ) ↦[arg8.view.set]{fullShare} arg8.view.writes (Elt F) f LS0)) -∗ K ⟨⟩))
          ⊢ wp frame (wpE (defs₀ (F := F)) Variants.none c none) E (cc1__gemm2_fused_kernel i arg3 harg3 arg4 harg4 arg5 harg5 arg6 harg6 arg7 harg7 arg8 harg8) K } := by
  refine ⟨?_, fun E K => ?run⟩
  case run =>
    simp only [cc1__gemm2_fused_kernel_eq_skeleton]; unfold cc1__gemm2_fused_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

set_option maxHeartbeats 1000000 in
/-- Case `0 < k < 7`: the accumulator, at what the point before left, is added to. -/
noncomputable def kernelRun1_B (c : Dev nD) (i : grid1.Coords) (arg3 : Memref sig .tc .vmem S1280x1280 .bf16) (harg3 : arg3.IsWhole) (arg4 : Memref sig .tc .vmem S1280x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1280x512 .bf16) (harg7 : arg7.IsWhole) (arg8 : Memref sig .tc .vmem S1280x1024 .f32) (harg8 : arg8.IsWhole) (hc0 : ¬cond1_0 i) (hc1 : ¬cond1_1 i)
    (x0 : Vec F S1280x1280 .bf16) (x1 : Vec F S1280x1024 .bf16) (xs0 : Vec F S1280x1024 .f32) :
    { LS0 : List (View.Piece (Elt F) S1280x1024 .f32) //
      ∀ (E : Set ℕ) (K : PUnit → sProp 𝕄),
        iprop(owns (c : Thread nD τ) arg3 fullShare x0 ∗ owns (c : Thread nD τ) arg4 fullShare x1 ∗ owns (c : Thread nD τ) arg8 fullShare xs0
            ∗ (iprop(owns (c : Thread nD τ) arg3 fullShare x0 ∗ owns (c : Thread nD τ) arg4 fullShare x1 ∗ (∃ f, arg8.view.loc (c : Thread nD τ) ↦[arg8.view.set]{fullShare} arg8.view.writes (Elt F) f LS0)) -∗ K ⟨⟩))
          ⊢ wp frame (wpE (defs₀ (F := F)) Variants.none c none) E (cc1__gemm2_fused_kernel i arg3 harg3 arg4 harg4 arg5 harg5 arg6 harg6 arg7 harg7 arg8 harg8) K } := by
  refine ⟨?_, fun E K => ?run⟩
  case run =>
    simp only [cc1__gemm2_fused_kernel_eq_skeleton]; unfold cc1__gemm2_fused_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

set_option maxHeartbeats 1000000 in
/-- Case `k = 7`: the accumulator is added to, then read back with the bias and the second weight matrix, and the
    output's buffer, at anything, is stored whole. -/
noncomputable def kernelRun1_C (c : Dev nD) (i : grid1.Coords) (arg3 : Memref sig .tc .vmem S1280x1280 .bf16) (harg3 : arg3.IsWhole) (arg4 : Memref sig .tc .vmem S1280x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1280x512 .bf16) (harg7 : arg7.IsWhole) (arg8 : Memref sig .tc .vmem S1280x1024 .f32) (harg8 : arg8.IsWhole) (hc0 : ¬cond1_0 i) (hc1 : cond1_1 i)
    (x0 : Vec F S1280x1280 .bf16) (x1 : Vec F S1280x1024 .bf16) (x2 : Vec F S1x1024 .f32) (x3 : Vec F S1024x512 .bf16) (xs0 : Vec F S1280x1024 .f32) :
    Σ' (L4 : List (View.Piece (Elt F) S1280x512 .bf16)), { LS0 : List (View.Piece (Elt F) S1280x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)) -∗ K ⟨⟩))
          ⊢ wp frame (wpE (defs₀ (F := F)) Variants.none c none) E (cc1__gemm2_fused_kernel i arg3 harg3 arg4 harg4 arg5 harg5 arg6 harg6 arg7 harg7 arg8 harg8) K } := by
  refine ⟨?_, ?_, fun E K => ?run⟩
  case run =>
    simp only [cc1__gemm2_fused_kernel_eq_skeleton]; unfold cc1__gemm2_fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

/-! ## What each case leaves: the pieces cover their buffers -/

/-- Case `k = 0`: the accumulator's pieces (the zeros, then the sum over them) cover it. -/
theorem scover1_A_0 (c : Dev nD) (i : grid1.Coords) (arg3 : Memref sig .tc .vmem S1280x1280 .bf16) (harg3 : arg3.IsWhole) (arg4 : Memref sig .tc .vmem S1280x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1280x512 .bf16) (harg7 : arg7.IsWhole) (arg8 : Memref sig .tc .vmem S1280x1024 .f32) (harg8 : arg8.IsWhole) (hc0 : cond1_0 i) (hc1 : ¬cond1_1 i)
    (x0 : Vec F S1280x1280 .bf16) (x1 : Vec F S1280x1024 .bf16) (y : S1280x1024.Idx) :
    ∃ pc ∈ (kernelRun1_A c i arg3 harg3 arg4 harg4 arg5 harg5 arg6 harg6 arg7 harg7 arg8 harg8 hc0 hc1 x0 x1).1, y ∈ pc.1.set :=
  View.cover_of_tiledL (kernelRun1_A c i arg3 harg3 arg4 harg4 arg5 harg5 arg6 harg6 arg7 harg7 arg8 harg8 hc0 hc1 x0 x1).1 S1280x1024.size (by sl_kernel_rfl) y

/-- What case `k = 0` leaves in the accumulator: its pieces read back. -/
def sout1_A_0 (c : Dev nD) (i : grid1.Coords) (arg3 : Memref sig .tc .vmem S1280x1280 .bf16) (harg3 : arg3.IsWhole) (arg4 : Memref sig .tc .vmem S1280x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1280x512 .bf16) (harg7 : arg7.IsWhole) (arg8 : Memref sig .tc .vmem S1280x1024 .f32) (harg8 : arg8.IsWhole) (hc0 : cond1_0 i) (hc1 : ¬cond1_1 i)
    (x0 : Vec F S1280x1280 .bf16) (x1 : Vec F S1280x1024 .bf16) : Vec F S1280x1024 .f32 :=
  VS1_0.read (Elt F) (VS1_0.writes (Elt F) VS1_0.junk (kernelRun1_A c i arg3 harg3 arg4 harg4 arg5 harg5 arg6 harg6 arg7 harg7 arg8 harg8 hc0 hc1 x0 x1).1)

/-- Case `0 < k < 7`: the accumulator's one piece covers it. -/
theorem scover1_B_0 (c : Dev nD) (i : grid1.Coords) (arg3 : Memref sig .tc .vmem S1280x1280 .bf16) (harg3 : arg3.IsWhole) (arg4 : Memref sig .tc .vmem S1280x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1280x512 .bf16) (harg7 : arg7.IsWhole) (arg8 : Memref sig .tc .vmem S1280x1024 .f32) (harg8 : arg8.IsWhole) (hc0 : ¬cond1_0 i) (hc1 : ¬cond1_1 i)
    (x0 : Vec F S1280x1280 .bf16) (x1 : Vec F S1280x1024 .bf16) (xs0 : Vec F S1280x1024 .f32) (y : S1280x1024.Idx) :
    ∃ pc ∈ (kernelRun1_B c i arg3 harg3 arg4 harg4 arg5 harg5 arg6 harg6 arg7 harg7 arg8 harg8 hc0 hc1 x0 x1 xs0).1, y ∈ pc.1.set :=
  View.cover_of_tiledL (kernelRun1_B c i arg3 harg3 arg4 harg4 arg5 harg5 arg6 harg6 arg7 harg7 arg8 harg8 hc0 hc1 x0 x1 xs0).1 S1280x1024.size (by sl_kernel_rfl) y

/-- What case `0 < k < 7` leaves in the accumulator. -/
def sout1_B_0 (c : Dev nD) (i : grid1.Coords) (arg3 : Memref sig .tc .vmem S1280x1280 .bf16) (harg3 : arg3.IsWhole) (arg4 : Memref sig .tc .vmem S1280x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1280x512 .bf16) (harg7 : arg7.IsWhole) (arg8 : Memref sig .tc .vmem S1280x1024 .f32) (harg8 : arg8.IsWhole) (hc0 : ¬cond1_0 i) (hc1 : ¬cond1_1 i)
    (x0 : Vec F S1280x1280 .bf16) (x1 : Vec F S1280x1024 .bf16) (xs0 : Vec F S1280x1024 .f32) : Vec F S1280x1024 .f32 :=
  VS1_0.read (Elt F) (VS1_0.writes (Elt F) VS1_0.junk (kernelRun1_B c i arg3 harg3 arg4 harg4 arg5 harg5 arg6 harg6 arg7 harg7 arg8 harg8 hc0 hc1 x0 x1 xs0).1)

/-- Case `k = 7`: the output's one piece covers its buffer. -/
theorem cover1_C_4 (c : Dev nD) (i : grid1.Coords) (arg3 : Memref sig .tc .vmem S1280x1280 .bf16) (harg3 : arg3.IsWhole) (arg4 : Memref sig .tc .vmem S1280x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1280x512 .bf16) (harg7 : arg7.IsWhole) (arg8 : Memref sig .tc .vmem S1280x1024 .f32) (harg8 : arg8.IsWhole) (hc0 : ¬cond1_0 i) (hc1 : cond1_1 i)
    (x0 : Vec F S1280x1280 .bf16) (x1 : Vec F S1280x1024 .bf16) (x2 : Vec F S1x1024 .f32) (x3 : Vec F S1024x512 .bf16) (xs0 : Vec F S1280x1024 .f32) (y : S1280x512.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1280x512.size (by sl_kernel_rfl) y

/-- What case `k = 7` leaves in the output's buffer. -/
def out1_C_4 (c : Dev nD) (i : grid1.Coords) (arg3 : Memref sig .tc .vmem S1280x1280 .bf16) (harg3 : arg3.IsWhole) (arg4 : Memref sig .tc .vmem S1280x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1280x512 .bf16) (harg7 : arg7.IsWhole) (arg8 : Memref sig .tc .vmem S1280x1024 .f32) (harg8 : arg8.IsWhole) (hc0 : ¬cond1_0 i) (hc1 : cond1_1 i)
    (x0 : Vec F S1280x1280 .bf16) (x1 : Vec F S1280x1024 .bf16) (x2 : Vec F S1x1024 .f32) (x3 : Vec F S1024x512 .bf16) (xs0 : Vec F S1280x1024 .f32) : Vec F S1280x512 .bf16 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

/-- Case `k = 7`: the accumulator's one piece covers it. -/
theorem scover1_C_0 (c : Dev nD) (i : grid1.Coords) (arg3 : Memref sig .tc .vmem S1280x1280 .bf16) (harg3 : arg3.IsWhole) (arg4 : Memref sig .tc .vmem S1280x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1280x512 .bf16) (harg7 : arg7.IsWhole) (arg8 : Memref sig .tc .vmem S1280x1024 .f32) (harg8 : arg8.IsWhole) (hc0 : ¬cond1_0 i) (hc1 : cond1_1 i)
    (x0 : Vec F S1280x1280 .bf16) (x1 : Vec F S1280x1024 .bf16) (x2 : Vec F S1x1024 .f32) (x3 : Vec F S1024x512 .bf16) (xs0 : Vec F S1280x1024 .f32) (y : S1280x1024.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1280x1024.size (by sl_kernel_rfl) y

/-- What case `k = 7` leaves in the accumulator. -/
def sout1_C_0 (c : Dev nD) (i : grid1.Coords) (arg3 : Memref sig .tc .vmem S1280x1280 .bf16) (harg3 : arg3.IsWhole) (arg4 : Memref sig .tc .vmem S1280x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1280x512 .bf16) (harg7 : arg7.IsWhole) (arg8 : Memref sig .tc .vmem S1280x1024 .f32) (harg8 : arg8.IsWhole) (hc0 : ¬cond1_0 i) (hc1 : cond1_1 i)
    (x0 : Vec F S1280x1280 .bf16) (x1 : Vec F S1280x1024 .bf16) (x2 : Vec F S1x1024 .f32) (x3 : Vec F S1024x512 .bf16) (xs0 : Vec F S1280x1024 .f32) : Vec F S1280x1024 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-- At a point that stores nothing into the output's buffer nothing consults what the proof data names for it
    (it is neither written back there nor read at the next point): a placeholder. -/
def idleOut1 : Vec F S1280x512 .bf16 := VO1_4.read (Elt F) VO1_4.junk

/-! ## The region's invariant, with the accumulator taken out -/

/-- What the body neither reads nor writes: the core's scoped buffers that belong to the other two kernel calls
    (their windows' buffers and their accumulators), each whole at some contents, and the generator register at
    some state. -/
def Rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ f : Buf (Elt F) ((c : Thread nD τ).loc cc2_scratch0), ((c : Thread nD τ).loc cc2_scratch0) ↦{fullShare} f)
    ∗ (∃ r, prngReg c r))

/-- The class's invariant is the accumulator, owned whole at some contents, beside that rest. -/
theorem PhiA1_eq (c : Dev nD) :
    (Pipeline.ΦA spec1 c : sProp 𝕄) = iprop((∃ d, owns (c : Thread nD τ) scM1_0 fullShare d) ∗ Rest1 c) := by
  unfold Pipeline.ΦA Rest1; rw [scopedRest1_eq]; simp only [scM1_0, owns_whole]
  refine BI.equiv_iff.mp ⟨?_, ?_⟩
  · show (_ : sProp 𝕄) ⊢ (_ : sProp 𝕄)
    iintro ⟨⟨B0, B1, B2, B3, B4, B5, HS, B6, B7, B8, B9, B10, B11, B12, B13⟩, Hg⟩
    isplitl [HS]; · iexact HS
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact Hg
  · show (_ : sProp 𝕄) ⊢ (_ : sProp 𝕄)
    iintro ⟨HS, B0, B1, B2, B3, B4, B5, B6, B7, B8, B9, B10, B11, B12, B13, Hg⟩
    isplitr [Hg]
    swap; · iexact Hg
    isplitl [B0]; · iexact B0
    isplitl [B1]; · iexact B1
    isplitl [B2]; · iexact B2
    isplitl [B3]; · iexact B3
    isplitl [B4]; · iexact B4
    isplitl [B5]; · iexact B5
    isplitl [HS]; · iexact HS
    isplitl [B6]; · iexact B6
    isplitl [B7]; · iexact B7
    isplitl [B8]; · iexact B8
    isplitl [B9]; · iexact B9
    isplitl [B10]; · iexact B10
    isplitl [B11]; · iexact B11
    isplitl [B12]; · iexact B12
    iexact B13

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's current buffer holds its block at every point, fetched there or not — a block not fetched anew has
    the index it had at the point before —, for any proof data whose array is the entry contents and whose body
    leaves the block in place: the windows' blocks tile their arrays, and no input is ever idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The cases' hypotheses from the point's residue -/

theorem hc1_z0 (t : Fin cfg1.N) (h0 : t.val % 8 = 0) : cond1_0 (grid1.coords t) := (hcond1_0 t).mpr h0
theorem hc1_z1 (t : Fin cfg1.N) (h0 : t.val % 8 = 0) : ¬cond1_1 (grid1.coords t) := fun h => by
  have := (hcond1_1 t).mp h; omega
theorem hc1_n0 (t : Fin cfg1.N) (h0 : ¬t.val % 8 = 0) : ¬cond1_0 (grid1.coords t) := fun h => h0 ((hcond1_0 t).mp h)
theorem hc1_n1 (t : Fin cfg1.N) (h1 : ¬t.val % 8 = 7) : ¬cond1_1 (grid1.coords t) := fun h => h1 ((hcond1_1 t).mp h)
theorem hc1_s0 (t : Fin cfg1.N) (h1 : t.val % 8 = 7) : ¬cond1_0 (grid1.coords t) := fun h => by
  have := (hcond1_0 t).mp h; omega
theorem hc1_s1 (t : Fin cfg1.N) (h1 : t.val % 8 = 7) : cond1_1 (grid1.coords t) := (hcond1_1 t).mpr h1

/-! ## What each kind of point leaves, at the point's own buffers and blocks -/

/-- A point with `k = 0`: the accumulator afterwards. -/
def accA1 (c : Dev nD) (t : Fin cfg1.N) (h0 : t.val % 8 = 0) : Vec F S1280x1024 .f32 :=
  sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) (hc1_z0 t h0) (hc1_z1 t h0) (iblk1 V c 0 t) (iblk1 V c 1 t)

/-- A point with `0 < k < 7`, the accumulator found at `xs0`: the accumulator afterwards. -/
def accB1 (c : Dev nD) (t : Fin cfg1.N) (h0 : ¬t.val % 8 = 0) (h1 : ¬t.val % 8 = 7) (xs0 : Vec F S1280x1024 .f32) : Vec F S1280x1024 .f32 :=
  sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (hc1_n0 t h0) (hc1_n1 t h1) (iblk1 V c 0 t) (iblk1 V c 1 t) xs0

/-- A point with `k = 7`, the accumulator found at `xs0`: the accumulator afterwards, -/
def accC1 (c : Dev nD) (t : Fin cfg1.N) (h1 : t.val % 8 = 7) (xs0 : Vec F S1280x1024 .f32) : Vec F S1280x1024 .f32 :=
  sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (hc1_s0 t h1) (hc1_s1 t h1) (iblk1 V c 0 t) (iblk1 V c 1 t) (iblk1 V c 2 t) (iblk1 V c 3 t) xs0

/-- and the output's buffer. -/
def outC1 (c : Dev nD) (t : Fin cfg1.N) (h1 : t.val % 8 = 7) (xs0 : Vec F S1280x1024 .f32) : Vec F S1280x512 .bf16 :=
  out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (hc1_s0 t h1) (hc1_s1 t h1) (iblk1 V c 0 t) (iblk1 V c 1 t) (iblk1 V c 2 t) (iblk1 V c 3 t) xs0

/-! ## The accumulation, point by point -/

/-- What the output's current buffer and the accumulator hold after the body at position `n`: the kind of point
    `n mod 8` selects, run over what position `n - 1` left in the accumulator (over nothing where `k = 0`: there the
    accumulator is zeroed first). -/
def outsAt1 (c : Dev nD) : (n : ℕ) → n < cfg1.N → Vec F S1280x512 .bf16 × Vec F S1280x1024 .f32
  | 0, hn => (idleOut1, accA1 V c ⟨0, hn⟩ (Nat.zero_mod _))
  | n + 1, hn =>
    if h0 : (n + 1) % 8 = 0 then
      (idleOut1, accA1 V c ⟨n + 1, hn⟩ h0)
    else
      if h1 : (n + 1) % 8 = 7 then
        (outC1 V c ⟨n + 1, hn⟩ h1 (outsAt1 c n (Nat.lt_of_succ_lt hn)).2, accC1 V c ⟨n + 1, hn⟩ h1 (outsAt1 c n (Nat.lt_of_succ_lt hn)).2)
      else
        (idleOut1, accB1 V c ⟨n + 1, hn⟩ h0 h1 (outsAt1 c n (Nat.lt_of_succ_lt hn)).2)

/-- At a point with `k = 0`. -/
theorem outsAt1_A (c : Dev nD) (t : Fin cfg1.N) (h0 : t.val % 8 = 0) :
    outsAt1 V c t.val t.isLt = (idleOut1, accA1 V c t h0) := by
  obtain ⟨n, hn⟩ := t
  cases n with
  | zero => exact rfl
  | succ n => exact (dif_pos h0).trans rfl

/-- At a point with `0 < k < 7`: over what the point before left. -/
theorem outsAt1_B (c : Dev nD) (t : Fin cfg1.N) (h0 : ¬t.val % 8 = 0) (h1 : ¬t.val % 8 = 7) :
    outsAt1 V c t.val t.isLt = (idleOut1, accB1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point with `k = 7`: over what the point before left. -/
theorem outsAt1_C (c : Dev nD) (t : Fin cfg1.N) (h0 : ¬t.val % 8 = 0) (h1 : t.val % 8 = 7) :
    outsAt1 V c t.val t.isLt = (outC1 V c t h1 (outsAt1 V c (t.val - 1) (Nat.lt_of_le_of_lt (Nat.sub_le _ _) t.isLt)).2, accC1 V c t h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant that carries the accumulator -/

/-- Before position `n`: at the first point what the launch hands the region (the accumulator at anything); later
    the accumulator at what the point before left in it, beside the rest the body does not touch. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ Rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2) ∗ Rest1 c) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ Rest1 c) := by
  cases n with
  | zero => exact absurd rfl hz
  | succ n => rfl

/-! ## The proof data -/

/-- The arrays as the region finds them; after the body each input's buffer at its block, the output's at what
    `outsAt1` says; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body's obligation, at any point -/

/-- What the body is called with at point `t`: the invariant, what the core owes, and each window's current buffer at
    what it then holds; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the point's residue mod 8 says which of the three
    runs applies; the invariant hands the body the accumulator (at anything at the very first point, else at what the
    point before left) and takes it back at this point's contents, the pieces covering it; where `k ≠ 7` the output's
    buffer goes back as it came, where `k = 7` at the one piece that covers it; the rest and what the core owes pass
    through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 64 := lt_of_lt_of_eq t.isLt (show cfg1.N = 64 from N_1)
  by_cases h0 : t.val % 8 = 0
  · rw [Dat.leavesExact_idle (dat1 V c) 4 t (idleAt1_4 t (hc1_z1 t h0)) (noFlush1_4 t (hc1_z1 t h0))]
    rw [outsAt1_A V c t h0]
    unfold accA1 sout1_A_0; (try dsimp only)
    by_cases hz : t.val = 0
    · rw [PhiS1_castSucc V c t, PhiS1_zero V c _ _ hz, PhiA1_eq]
      iintro ⟨⟨HS0, HR⟩, Ho, ⟨%d0, H0⟩, ⟨%d1, H1⟩, ⟨%d2, H2⟩, ⟨%d3, H3⟩, H4⟩
      iapply ((kernelRun1_A c (grid1.coords t) _ _ _ _ _ _ _ _ _ _ _ _ (hc1_z0 t h0) (hc1_z1 t h0) (iblk1 V c 0 t) (iblk1 V c 1 t)).2 Set.univ _)
      isplitl [H0]; · iexact H0
      isplitl [H1]; · iexact H1
      isplitl [HS0]; · iexact HS0
      iintro ⟨H0, H1, ⟨%es0, HS0⟩⟩
      isplitl [HS0 HR]
      · isplitl [HS0]
        · unfold owns; iexists _; isplitr
          swap; · iexact HS0
          ipureintro; exact View.read_writes_of_cover _ _ _ _ _ (scover1_A_0 c _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexact H4
    · rw [PhiS1_castSucc V c t, PhiS1_pos V c _ _ hz]
      iintro ⟨⟨HS0, HR⟩, Ho, ⟨%d0, H0⟩, ⟨%d1, H1⟩, ⟨%d2, H2⟩, ⟨%d3, H3⟩, H4⟩
      iapply ((kernelRun1_A c (grid1.coords t) _ _ _ _ _ _ _ _ _ _ _ _ (hc1_z0 t h0) (hc1_z1 t h0) (iblk1 V c 0 t) (iblk1 V c 1 t)).2 Set.univ _)
      isplitl [H0]; · iexact H0
      isplitl [H1]; · iexact H1
      isplitl [HS0]; · iexists _; iexact HS0
      iintro ⟨H0, H1, ⟨%es0, HS0⟩⟩
      isplitl [HS0 HR]
      · isplitl [HS0]
        · unfold owns; iexists _; isplitr
          swap; · iexact HS0
          ipureintro; exact View.read_writes_of_cover _ _ _ _ _ (scover1_A_0 c _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexact H4
  · have hz : t.val ≠ 0 := fun e => h0 (by rw [e])
    by_cases h1 : t.val % 8 = 7
    · rw [show (dat1 V c).leavesExact 4 t = owns (c : Thread nD τ) (ms1_4 t) fullShare ((dat1 V c).after 4 t) from by
        unfold Dat.leavesExact; rw [liveAt1_4 t (hc1_s1 t h1)], after1_4]
      rw [outsAt1_C V c t h0 h1]
      unfold outC1 accC1 out1_C_4 sout1_C_0; (try dsimp only)
      rw [PhiS1_castSucc V c t, PhiS1_pos V c _ _ hz]
      iintro ⟨⟨HS0, HR⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (hc1_s0 t h1) (hc1_s1 t h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR]
      · isplitl [HS0]
        · unfold owns; iexists _; isplitr
          swap; · iexact HS0
          ipureintro; exact View.read_writes_of_cover _ _ _ _ _ (scover1_C_0 c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4 t (hc1_n1 t h1)) (noFlush1_4 t (hc1_n1 t h1))]
      rw [outsAt1_B V c t h0 h1]
      unfold accB1 sout1_B_0; (try dsimp only)
      rw [PhiS1_castSucc V c t, PhiS1_pos V c _ _ hz]
      iintro ⟨⟨HS0, HR⟩, Ho, ⟨%d0, H0⟩, ⟨%d1, H1⟩, ⟨%d2, H2⟩, ⟨%d3, H3⟩, H4⟩
      iapply ((kernelRun1_B c (grid1.coords t) _ _ _ _ _ _ _ _ _ _ _ _ (hc1_n0 t h0) (hc1_n1 t h1) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HS0 HR]
      · isplitl [HS0]
        · unfold owns; iexists _; isplitr
          swap; · iexact HS0
          ipureintro; exact View.read_writes_of_cover _ _ _ _ _ (scover1_B_0 c _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS0, HR⟩
  isplitl [HS0]
  · iexists _; iexact HS0
  iexact HR

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region

end Cert.KernelIdeal.Hand

end
-- ==== Proof.KI.Region2.lean ====
/- Region 2 of the program (its third TensorCore call, the kernel `cc2__gemm_kernel` on the grid (8, 1, 8)),
   stated at the buffer contents `V` the region is entered with.

   The kernel multiplies a 1280x1280 block of its first operand with a 1280x512 block of its second and adds the
   product into an accumulator it keeps in a scratch buffer across the eight points of the contraction axis: at the
   first of the eight the accumulator is reset to zero, at every point the product is added, and at the last the
   accumulator plus the bias row, clamped below at zero, is stored into the output block.  So a point is in one of
   three cases, by k = (the point's number) mod 8: k = 0 (reset, then add), 0 < k < 7 (add), k = 7 (add, then store the
   output).  The output window is written back only at k = 7 and is idle elsewhere.

   This file gives, for every core, the contents of the output's staging buffer and of the accumulator after every
   point (by recursion on the point), the pipeline's proof data over them, the body obligation, and the two
   entailments that tie the region's invariant to the class's at the region's ends; then the equations that read the
   recursion's steps as the kernel's three payloads. -/
import proofs.«411933_j790273982476_2_alg».proof.Proof.Gen.KernelIdeal.Launch
import proofs.«411933_j790273982476_2_alg».proof.Proof.Gen.KernelIdeal.Skeleton
import proofs.«411933_j790273982476_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- The first conditional's test: the contraction coordinate is 0. -/
abbrev cond2_0 (i : grid2.Coords) : Prop :=
  (Scalar.cmpi .ne (Scalar.extui (Scalar.cmpi .eq (BitVec.ofNat 32 (i 2).val) 0#32)) 0#32) = 1#1
/-- It holds exactly at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional's test: the contraction coordinate is 7. -/
abbrev cond2_1 (i : grid2.Coords) : Prop := k2_cond2 i = 1#1
/-- It holds exactly at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where the second conditional is not taken the output window is idle and is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- Where it is taken the output window is live. -/
theorem liveAt2_3 : ∀ t : Fin cfg2.N, cond2_1 (grid2.coords t) → cfg2.idle 3 (grid2.coords t) = false := by decide +kernel

/-! ## The memrefs the body is called with -/

abbrev ms2_0 (t : Fin cfg2.N) : Memref sig .tc .vmem S1280x1280 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1280x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1280x512 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S1280x512 .f32 := Memref.whole cc2_scratch0
/-- The accumulator as a view: what it holds is stated through it. -/
abbrev VS2_0 : View sig .tc .vmem S1280x512 .f32 := scM2_0.view
/-- One staging buffer of the output window, through which its contents are stated (the choice does not matter). -/
abbrev VO2_3 : View sig .tc .vmem S1280x512 .f32 := (Memref.whole cc2_stg3_0 : Memref sig .tc .vmem S1280x512 .f32).view

/-! ## The core's other scoped buffers

Besides the accumulator the core's scoped memory holds the staging buffers and accumulators of the program's other two
calls; this region never touches them.  They travel through the invariant as one conjunct. -/

/-- The other calls' scoped buffers, each whole at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The same chain with one more conjunct at its end (the form the scoped rest is listed in). -/
def chain2 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ P)

theorem chain2_open (c : Dev nD) (P : sProp 𝕄) : chain2 (F := F) c P ⊢ iprop(others2 (F := F) c ∗ P) := by
  unfold chain2 others2
  iintro ⟨HR0, HR1, HR2, HR3, HR4, HR5, HR6, HR7, HR8, HR9, HR10, HR11, HR12, HR13, HR14, HP⟩
  isplitr [HP]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    iexact HR14
  iexact HP

theorem chain2_close (c : Dev nD) (P : sProp 𝕄) : iprop(others2 (F := F) c ∗ P) ⊢ chain2 (F := F) c P := by
  unfold chain2 others2
  iintro ⟨⟨HR0, HR1, HR2, HR3, HR4, HR5, HR6, HR7, HR8, HR9, HR10, HR11, HR12, HR13, HR14⟩, HP⟩
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  iexact HP

/-- The class's invariant with the accumulator as a memref owned at some contents, last in the chain. -/
theorem PhiA2_eq (c : Dev nD) :
    (Pipeline.ΦA spec2 c : sProp 𝕄)
      = iprop(chain2 (F := F) c iprop(∃ d, owns (c : Thread nD τ) scM2_0 fullShare d) ∗ (∃ r, prngReg c r)) := by
  unfold Pipeline.ΦA chain2; rw [scopedRest2_eq]; simp only [scM2_0, owns_whole]; try rfl

/-! ## The body's run, case by case

Each run is stated on ANY whole memrefs: the three inputs' at given contents, handed back as they were; the pieces the
stores leave in the accumulator (and, in the last case, in the output's buffer) are found by running the body. -/

set_option maxHeartbeats 1000000 in
/-- Case k = 0 (reset, then add; no output store).  The accumulator comes at anything; the output's buffer at
    `xi3`, handed back untouched. -/
noncomputable def kernelRun2_A (c : Dev nD) (i : grid2.Coords) (arg3 : Memref sig .tc .vmem S1280x1280 .bf16) (harg3 : arg3.IsWhole) (arg4 : Memref sig .tc .vmem S1280x512 .bf16) (harg4 : arg4.IsWhole) (arg5 : Memref sig .tc .vmem S1x512 .f32) (harg5 : arg5.IsWhole) (arg6 : Memref sig .tc .vmem S1280x512 .f32) (harg6 : arg6.IsWhole) (arg7 : Memref sig .tc .vmem S1280x512 .f32) (harg7 : arg7.IsWhole) (hc0 : cond2_0 i) (hc1 : ¬cond2_1 i)
    (x0 : Vec F S1280x1280 .bf16) (x1 : Vec F S1280x512 .bf16) (x2 : Vec F S1x512 .f32) :
    { LS0 : List (View.Piece (Elt F) S1280x512 .f32) //
      ∀ (xi3 : Vec F S1280x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__gemm_kernel i arg3 harg3 arg4 harg4 arg5 harg5 arg6 harg6 arg7 harg7) K } := by
  refine ⟨?_, fun xi3 E K => ?run⟩
  case run =>
    simp only [cc2__gemm_kernel_eq_skeleton]; unfold cc2__gemm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case 0 < k < 7 (add only).  The accumulator comes at `xs0`, what the point before left; the output's buffer at
    `xi3`, handed back untouched. -/
noncomputable def kernelRun2_B (c : Dev nD) (i : grid2.Coords) (arg3 : Memref sig .tc .vmem S1280x1280 .bf16) (harg3 : arg3.IsWhole) (arg4 : Memref sig .tc .vmem S1280x512 .bf16) (harg4 : arg4.IsWhole) (arg5 : Memref sig .tc .vmem S1x512 .f32) (harg5 : arg5.IsWhole) (arg6 : Memref sig .tc .vmem S1280x512 .f32) (harg6 : arg6.IsWhole) (arg7 : Memref sig .tc .vmem S1280x512 .f32) (harg7 : arg7.IsWhole) (hc0 : ¬cond2_0 i) (hc1 : ¬cond2_1 i)
    (x0 : Vec F S1280x1280 .bf16) (x1 : Vec F S1280x512 .bf16) (x2 : Vec F S1x512 .f32) (xs0 : Vec F S1280x512 .f32) :
    { LS0 : List (View.Piece (Elt F) S1280x512 .f32) //
      ∀ (xi3 : Vec F S1280x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__gemm_kernel i arg3 harg3 arg4 harg4 arg5 harg5 arg6 harg6 arg7 harg7) K } := by
  refine ⟨?_, fun xi3 E K => ?run⟩
  case run =>
    simp only [cc2__gemm_kernel_eq_skeleton]; unfold cc2__gemm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case k = 7 (add, then store the output).  The accumulator comes at `xs0`; the output's buffer at anything, and is
    left with the pieces `L3` written. -/
noncomputable def kernelRun2_C (c : Dev nD) (i : grid2.Coords) (arg3 : Memref sig .tc .vmem S1280x1280 .bf16) (harg3 : arg3.IsWhole) (arg4 : Memref sig .tc .vmem S1280x512 .bf16) (harg4 : arg4.IsWhole) (arg5 : Memref sig .tc .vmem S1x512 .f32) (harg5 : arg5.IsWhole) (arg6 : Memref sig .tc .vmem S1280x512 .f32) (harg6 : arg6.IsWhole) (arg7 : Memref sig .tc .vmem S1280x512 .f32) (harg7 : arg7.IsWhole) (hc0 : ¬cond2_0 i) (hc1 : cond2_1 i)
    (x0 : Vec F S1280x1280 .bf16) (x1 : Vec F S1280x512 .bf16) (x2 : Vec F S1x512 .f32) (xs0 : Vec F S1280x512 .f32) :
    Σ' (L3 : List (View.Piece (Elt F) S1280x512 .f32)), { LS0 : List (View.Piece (Elt F) S1280x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__gemm_kernel i arg3 harg3 arg4 harg4 arg5 harg5 arg6 harg6 arg7 harg7) K } := by
  refine ⟨?_, ?_, fun E K => ?run⟩
  case run =>
    simp only [cc2__gemm_kernel_eq_skeleton]; unfold cc2__gemm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves

The pieces a run found are read back over arbitrary contents: since they cover the buffer, nothing of those contents
shows. -/

/-- Case k = 0: the pieces stored into the accumulator (the reset and the update) cover it. -/
theorem scover2_A_0 (c : Dev nD) (i : grid2.Coords) (arg3 : Memref sig .tc .vmem S1280x1280 .bf16) (harg3 : arg3.IsWhole) (arg4 : Memref sig .tc .vmem S1280x512 .bf16) (harg4 : arg4.IsWhole) (arg5 : Memref sig .tc .vmem S1x512 .f32) (harg5 : arg5.IsWhole) (arg6 : Memref sig .tc .vmem S1280x512 .f32) (harg6 : arg6.IsWhole) (arg7 : Memref sig .tc .vmem S1280x512 .f32) (harg7 : arg7.IsWhole) (hc0 : cond2_0 i) (hc1 : ¬cond2_1 i)
    (x0 : Vec F S1280x1280 .bf16) (x1 : Vec F S1280x512 .bf16) (x2 : Vec F S1x512 .f32) (y : S1280x512.Idx) :
    ∃ pc ∈ (kernelRun2_A c i arg3 harg3 arg4 harg4 arg5 harg5 arg6 harg6 arg7 harg7 hc0 hc1 x0 x1 x2).1, y ∈ pc.1.set :=
  View.cover_of_tiledL (kernelRun2_A c i arg3 harg3 arg4 harg4 arg5 harg5 arg6 harg6 arg7 harg7 hc0 hc1 x0 x1 x2).1 S1280x512.size (by sl_kernel_rfl) y

/-- What case k = 0 leaves in the accumulator. -/
def sout2_A_0 (c : Dev nD) (i : grid2.Coords) (arg3 : Memref sig .tc .vmem S1280x1280 .bf16) (harg3 : arg3.IsWhole) (arg4 : Memref sig .tc .vmem S1280x512 .bf16) (harg4 : arg4.IsWhole) (arg5 : Memref sig .tc .vmem S1x512 .f32) (harg5 : arg5.IsWhole) (arg6 : Memref sig .tc .vmem S1280x512 .f32) (harg6 : arg6.IsWhole) (arg7 : Memref sig .tc .vmem S1280x512 .f32) (harg7 : arg7.IsWhole) (hc0 : cond2_0 i) (hc1 : ¬cond2_1 i)
    (x0 : Vec F S1280x1280 .bf16) (x1 : Vec F S1280x512 .bf16) (x2 : Vec F S1x512 .f32) : Vec F S1280x512 .f32 :=
  VS2_0.read (Elt F) (VS2_0.writes (Elt F) VS2_0.junk (kernelRun2_A c i arg3 harg3 arg4 harg4 arg5 harg5 arg6 harg6 arg7 harg7 hc0 hc1 x0 x1 x2).1)

/-- Case 0 < k < 7: the one piece stored into the accumulator covers it. -/
theorem scover2_B_0 (c : Dev nD) (i : grid2.Coords) (arg3 : Memref sig .tc .vmem S1280x1280 .bf16) (harg3 : arg3.IsWhole) (arg4 : Memref sig .tc .vmem S1280x512 .bf16) (harg4 : arg4.IsWhole) (arg5 : Memref sig .tc .vmem S1x512 .f32) (harg5 : arg5.IsWhole) (arg6 : Memref sig .tc .vmem S1280x512 .f32) (harg6 : arg6.IsWhole) (arg7 : Memref sig .tc .vmem S1280x512 .f32) (harg7 : arg7.IsWhole) (hc0 : ¬cond2_0 i) (hc1 : ¬cond2_1 i)
    (x0 : Vec F S1280x1280 .bf16) (x1 : Vec F S1280x512 .bf16) (x2 : Vec F S1x512 .f32) (xs0 : Vec F S1280x512 .f32) (y : S1280x512.Idx) :
    ∃ pc ∈ (kernelRun2_B c i arg3 harg3 arg4 harg4 arg5 harg5 arg6 harg6 arg7 harg7 hc0 hc1 x0 x1 x2 xs0).1, y ∈ pc.1.set :=
  View.cover_of_tiledL (kernelRun2_B c i arg3 harg3 arg4 harg4 arg5 harg5 arg6 harg6 arg7 harg7 hc0 hc1 x0 x1 x2 xs0).1 S1280x512.size (by sl_kernel_rfl) y

/-- What case 0 < k < 7 leaves in the accumulator. -/
def sout2_B_0 (c : Dev nD) (i : grid2.Coords) (arg3 : Memref sig .tc .vmem S1280x1280 .bf16) (harg3 : arg3.IsWhole) (arg4 : Memref sig .tc .vmem S1280x512 .bf16) (harg4 : arg4.IsWhole) (arg5 : Memref sig .tc .vmem S1x512 .f32) (harg5 : arg5.IsWhole) (arg6 : Memref sig .tc .vmem S1280x512 .f32) (harg6 : arg6.IsWhole) (arg7 : Memref sig .tc .vmem S1280x512 .f32) (harg7 : arg7.IsWhole) (hc0 : ¬cond2_0 i) (hc1 : ¬cond2_1 i)
    (x0 : Vec F S1280x1280 .bf16) (x1 : Vec F S1280x512 .bf16) (x2 : Vec F S1x512 .f32) (xs0 : Vec F S1280x512 .f32) : Vec F S1280x512 .f32 :=
  VS2_0.read (Elt F) (VS2_0.writes (Elt F) VS2_0.junk (kernelRun2_B c i arg3 harg3 arg4 harg4 arg5 harg5 arg6 harg6 arg7 harg7 hc0 hc1 x0 x1 x2 xs0).1)

/-- Case k = 7: the one piece stored into the output's buffer covers it, -/
theorem cover2_C_3 (c : Dev nD) (i : grid2.Coords) (arg3 : Memref sig .tc .vmem S1280x1280 .bf16) (harg3 : arg3.IsWhole) (arg4 : Memref sig .tc .vmem S1280x512 .bf16) (harg4 : arg4.IsWhole) (arg5 : Memref sig .tc .vmem S1x512 .f32) (harg5 : arg5.IsWhole) (arg6 : Memref sig .tc .vmem S1280x512 .f32) (harg6 : arg6.IsWhole) (arg7 : Memref sig .tc .vmem S1280x512 .f32) (harg7 : arg7.IsWhole) (hc0 : ¬cond2_0 i) (hc1 : cond2_1 i)
    (x0 : Vec F S1280x1280 .bf16) (x1 : Vec F S1280x512 .bf16) (x2 : Vec F S1x512 .f32) (xs0 : Vec F S1280x512 .f32) (y : S1280x512.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1280x512.size (by sl_kernel_rfl) y

/-- and this is what the case leaves there. -/
def out2_C_3 (c : Dev nD) (i : grid2.Coords) (arg3 : Memref sig .tc .vmem S1280x1280 .bf16) (harg3 : arg3.IsWhole) (arg4 : Memref sig .tc .vmem S1280x512 .bf16) (harg4 : arg4.IsWhole) (arg5 : Memref sig .tc .vmem S1x512 .f32) (harg5 : arg5.IsWhole) (arg6 : Memref sig .tc .vmem S1280x512 .f32) (harg6 : arg6.IsWhole) (arg7 : Memref sig .tc .vmem S1280x512 .f32) (harg7 : arg7.IsWhole) (hc0 : ¬cond2_0 i) (hc1 : cond2_1 i)
    (x0 : Vec F S1280x1280 .bf16) (x1 : Vec F S1280x512 .bf16) (x2 : Vec F S1x512 .f32) (xs0 : Vec F S1280x512 .f32) : Vec F S1280x512 .f32 :=
  VO2_3.read (Elt F) (VO2_3.writes (Elt F) VO2_3.junk (kernelRun2_C c i arg3 harg3 arg4 harg4 arg5 harg5 arg6 harg6 arg7 harg7 hc0 hc1 x0 x1 x2 xs0).1)

/-- Case k = 7: the one piece stored into the accumulator covers it. -/
theorem scover2_C_0 (c : Dev nD) (i : grid2.Coords) (arg3 : Memref sig .tc .vmem S1280x1280 .bf16) (harg3 : arg3.IsWhole) (arg4 : Memref sig .tc .vmem S1280x512 .bf16) (harg4 : arg4.IsWhole) (arg5 : Memref sig .tc .vmem S1x512 .f32) (harg5 : arg5.IsWhole) (arg6 : Memref sig .tc .vmem S1280x512 .f32) (harg6 : arg6.IsWhole) (arg7 : Memref sig .tc .vmem S1280x512 .f32) (harg7 : arg7.IsWhole) (hc0 : ¬cond2_0 i) (hc1 : cond2_1 i)
    (x0 : Vec F S1280x1280 .bf16) (x1 : Vec F S1280x512 .bf16) (x2 : Vec F S1x512 .f32) (xs0 : Vec F S1280x512 .f32) (y : S1280x512.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S1280x512.size (by sl_kernel_rfl) y

/-- What case k = 7 leaves in the accumulator. -/
def sout2_C_0 (c : Dev nD) (i : grid2.Coords) (arg3 : Memref sig .tc .vmem S1280x1280 .bf16) (harg3 : arg3.IsWhole) (arg4 : Memref sig .tc .vmem S1280x512 .bf16) (harg4 : arg4.IsWhole) (arg5 : Memref sig .tc .vmem S1x512 .f32) (harg5 : arg5.IsWhole) (arg6 : Memref sig .tc .vmem S1280x512 .f32) (harg6 : arg6.IsWhole) (arg7 : Memref sig .tc .vmem S1280x512 .f32) (harg7 : arg7.IsWhole) (hc0 : ¬cond2_0 i) (hc1 : cond2_1 i)
    (x0 : Vec F S1280x1280 .bf16) (x1 : Vec F S1280x512 .bf16) (x2 : Vec F S1x512 .f32) (xs0 : Vec F S1280x512 .f32) : Vec F S1280x512 .f32 :=
  VS2_0.read (Elt F) (VS2_0.writes (Elt F) VS2_0.junk (kernelRun2_C c i arg3 harg3 arg4 harg4 arg5 harg5 arg6 harg6 arg7 harg7 hc0 hc1 x0 x1 x2 xs0).2.1)

/-- The output component at a point that stores no output: the window is idle there, neither written back nor read at
    the next point, so nothing consults this value. -/
def idleOut2 : Vec F S1280x512 .f32 := VO2_3.read (Elt F) VO2_3.junk

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The cases' hypotheses from k = (the point's number) mod 8 -/

theorem c0_of2 (t : Fin cfg2.N) (h0 : t.val % 8 = 0) : cond2_0 (grid2.coords t) := (hcond2_0 t).mpr h0
theorem nc0_of2 (t : Fin cfg2.N) (h0 : ¬t.val % 8 = 0) : ¬cond2_0 (grid2.coords t) := fun h => h0 ((hcond2_0 t).mp h)
theorem c1_of2 (t : Fin cfg2.N) (h1 : t.val % 8 = 7) : cond2_1 (grid2.coords t) := (hcond2_1 t).mpr h1
theorem nc1_of2 (t : Fin cfg2.N) (h1 : ¬t.val % 8 = 7) : ¬cond2_1 (grid2.coords t) := fun h => h1 ((hcond2_1 t).mp h)
theorem n7_of_02 {n : ℕ} (h0 : n % 8 = 0) : ¬n % 8 = 7 := by omega
theorem n0_of_72 {n : ℕ} (h1 : n % 8 = 7) : ¬n % 8 = 0 := by omega

/-! ## The cases at a point of the grid, on the point's own memrefs and blocks -/

/-- The accumulator after a point with k = 0. -/
def accA2 (c : Dev nD) (t : Fin cfg2.N) (h0 : t.val % 8 = 0) : Vec F S1280x512 .f32 :=
  sout2_A_0 c (grid2.coords t) (ms2_0 t) (hs2_0 t) (ms2_1 t) (hs2_1 t) (ms2_2 t) (hs2_2 t) (ms2_3 t) (hs2_3 t) scM2_0 (Memref.isWhole_whole _) (c0_of2 t h0) (nc1_of2 t (n7_of_02 h0)) (iblk2 V c 0 t) (iblk2 V c 1 t) (iblk2 V c 2 t)

/-- The accumulator after a point with 0 < k < 7, from what the point before left. -/
def accB2 (c : Dev nD) (t : Fin cfg2.N) (h0 : ¬t.val % 8 = 0) (h1 : ¬t.val % 8 = 7) (xs0 : Vec F S1280x512 .f32) : Vec F S1280x512 .f32 :=
  sout2_B_0 c (grid2.coords t) (ms2_0 t) (hs2_0 t) (ms2_1 t) (hs2_1 t) (ms2_2 t) (hs2_2 t) (ms2_3 t) (hs2_3 t) scM2_0 (Memref.isWhole_whole _) (nc0_of2 t h0) (nc1_of2 t h1) (iblk2 V c 0 t) (iblk2 V c 1 t) (iblk2 V c 2 t) xs0

/-- The accumulator after a point with k = 7, from what the point before left. -/
def accC2 (c : Dev nD) (t : Fin cfg2.N) (h1 : t.val % 8 = 7) (xs0 : Vec F S1280x512 .f32) : Vec F S1280x512 .f32 :=
  sout2_C_0 c (grid2.coords t) (ms2_0 t) (hs2_0 t) (ms2_1 t) (hs2_1 t) (ms2_2 t) (hs2_2 t) (ms2_3 t) (hs2_3 t) scM2_0 (Memref.isWhole_whole _) (nc0_of2 t (n0_of_72 h1)) (c1_of2 t h1) (iblk2 V c 0 t) (iblk2 V c 1 t) (iblk2 V c 2 t) xs0

/-- The output's buffer after a point with k = 7. -/
def outC2 (c : Dev nD) (t : Fin cfg2.N) (h1 : t.val % 8 = 7) (xs0 : Vec F S1280x512 .f32) : Vec F S1280x512 .f32 :=
  out2_C_3 c (grid2.coords t) (ms2_0 t) (hs2_0 t) (ms2_1 t) (hs2_1 t) (ms2_2 t) (hs2_2 t) (ms2_3 t) (hs2_3 t) scM2_0 (Memref.isWhole_whole _) (nc0_of2 t (n0_of_72 h1)) (c1_of2 t h1) (iblk2 V c 0 t) (iblk2 V c 1 t) (iblk2 V c 2 t) xs0

/-! ## What the output's buffer and the accumulator hold after each point -/

/-- THE ACCUMULATION, by recursion on the point: (the output's staging buffer, the accumulator) after the body at
    position `n` — the case k = n mod 8 selects, run on the point's blocks, the accumulator where it is read taken
    from position `n - 1`. -/
def outsAt2 (c : Dev nD) : (n : ℕ) → n < cfg2.N → Vec F S1280x512 .f32 × Vec F S1280x512 .f32
  | 0, hn => (idleOut2, accA2 V c ⟨0, hn⟩ (Nat.zero_mod _))
  | n + 1, hn =>
    if h0 : (n + 1) % 8 = 0 then (idleOut2, accA2 V c ⟨n + 1, hn⟩ h0)
    else if h1 : (n + 1) % 8 = 7 then
      (outC2 V c ⟨n + 1, hn⟩ h1 (outsAt2 c n (Nat.lt_of_succ_lt hn)).2, accC2 V c ⟨n + 1, hn⟩ h1 (outsAt2 c n (Nat.lt_of_succ_lt hn)).2)
    else (idleOut2, accB2 V c ⟨n + 1, hn⟩ h0 h1 (outsAt2 c n (Nat.lt_of_succ_lt hn)).2)

/-- At a point with k = 0. -/
theorem outsAt2_A (c : Dev nD) (t : Fin cfg2.N) (h0 : t.val % 8 = 0) :
    outsAt2 V c t.val t.isLt = (idleOut2, accA2 V c t h0) := by
  obtain ⟨n, hn⟩ := t
  cases n with
  | zero => exact rfl
  | succ n => exact (dif_pos h0).trans rfl

/-- At a point with 0 < k < 7. -/
theorem outsAt2_B (c : Dev nD) (t : Fin cfg2.N) (h0 : ¬t.val % 8 = 0) (h1 : ¬t.val % 8 = 7) :
    outsAt2 V c t.val t.isLt = (idleOut2, accB2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point with k = 7. -/
theorem outsAt2_C (c : Dev nD) (t : Fin cfg2.N) (h1 : t.val % 8 = 7) :
    outsAt2 V c t.val t.isLt = (outC2 V c t h1 (outsAt2 V c (t.val - 1) (Nat.lt_of_le_of_lt (Nat.sub_le _ _) t.isLt)).2, accC2 V c t h1 (outsAt2 V c (t.val - 1) (Nat.lt_of_le_of_lt (Nat.sub_le _ _) t.isLt)).2) := by
  obtain ⟨n, hn⟩ := t
  cases n with
  | zero => exact absurd (show (0 : ℕ) % 8 = 7 from h1) (by decide)
  | succ n => exact (dif_neg (n0_of_72 h1)).trans ((dif_pos h1).trans rfl)

/-! ## The region's invariant -/

/-- Before position `n`: at the region's entry the class's invariant (every scoped buffer at anything); afterwards the
    other scoped buffers at anything, the accumulator at what position `n - 1` left in it, and the random-number register
    at some state. -/
def PhiS2 (c : Dev nD) : (n : ℕ) → n ≤ cfg2.N → sProp 𝕄
  | 0, _ => Pipeline.ΦA spec2 c
  | n + 1, hn => iprop(chain2 (F := F) c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(chain2 (F := F) c (owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(chain2 (F := F) c (owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of the region's pipeline on core `c`: the arrays as the region finds them; after the body at point
    `t` each input's buffer at its block and the output's at `outsAt2`'s first component; the invariant above; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not: unfetched, the block's
    index has not moved since the fetch; the windows are uncut and never idle. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point.  The inputs' memrefs hold their blocks; k = (the point's number) mod 8 says which case the
    point is in, so that case's run applies.  The invariant hands the body the accumulator — at anything at the region's
    first point, else at what the point before left — and takes it back at this point's contents (the pieces stored
    cover it); the other scoped buffers, the random-number register and what the core owes pass through untouched.  Where
    the output is not stored its buffer is handed back as it came. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 64 := lt_of_lt_of_eq t.isLt (show cfg2.N = 64 from N_2)
  by_cases h0 : t.val % 8 = 0
  · rw [Dat.leavesExact_idle (dat2 V c) 3 t (idleAt2_3 t (nc1_of2 t (n7_of_02 h0))) (noFlush2_3 t (nc1_of2 t (n7_of_02 h0)))]
    rw [outsAt2_A V c t h0]
    unfold accA2 sout2_A_0; (try dsimp only)
    by_cases hz : t.val = 0
    · rw [PhiS2_castSucc V c t, PhiS2_zero V c _ _ hz, PhiA2_eq]
      iintro ⟨⟨HC, Hg⟩, Ho, ⟨%d0, H0⟩, ⟨%d1, H1⟩, ⟨%d2, H2⟩, ⟨%d3, H3⟩⟩
      ihave HC' := (chain2_open c _) $$ HC
      icases HC' with ⟨HR, HS0⟩
      iapply ((kernelRun2_A c (grid2.coords t) _ _ _ _ _ _ _ _ _ _ (c0_of2 t h0) (nc1_of2 t (n7_of_02 h0)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR HS0 Hg]
      · isplitl [HR HS0]
        · iapply (chain2_close c _)
          isplitl [HR]; · iexact HR
          unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨HC, Hg⟩, Ho, ⟨%d0, H0⟩, ⟨%d1, H1⟩, ⟨%d2, H2⟩, ⟨%d3, H3⟩⟩
      ihave HC' := (chain2_open c _) $$ HC
      icases HC' with ⟨HR, HS0⟩
      iapply ((kernelRun2_A c (grid2.coords t) _ _ _ _ _ _ _ _ _ _ (c0_of2 t h0) (nc1_of2 t (n7_of_02 h0)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HR HS0 Hg]
      · isplitl [HR HS0]
        · iapply (chain2_close c _)
          isplitl [HR]; · iexact HR
          unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat2 V c).leavesExact 3 t = owns (c : Thread nD τ) (ms2_3 t) fullShare ((dat2 V c).after 3 t) from by
        unfold Dat.leavesExact; rw [liveAt2_3 t (c1_of2 t h1)], after2_3]
      rw [outsAt2_C V c t h1]
      unfold accC2 outC2 sout2_C_0 out2_C_3; (try dsimp only)
      rw [PhiS2_castSucc V c t, PhiS2_pos V c _ _ hz]
      iintro ⟨⟨HC, Hg⟩, Ho, ⟨%d0, H0⟩, ⟨%d1, H1⟩, ⟨%d2, H2⟩, ⟨%d3, H3⟩⟩
      ihave HC' := (chain2_open c _) $$ HC
      icases HC' with ⟨HR, HS0⟩
      iapply ((kernelRun2_C c (grid2.coords t) _ _ _ _ _ _ _ _ _ _ (nc0_of2 t h0) (c1_of2 t h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR HS0 Hg]
      · isplitl [HR HS0]
        · iapply (chain2_close c _)
          isplitl [HR]; · iexact HR
          unfold owns; iexists _; isplitr
          swap; · iexact HS0
          ipureintro; exact View.read_writes_of_cover _ _ _ _ _ (scover2_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3 t (nc1_of2 t h1)) (noFlush2_3 t (nc1_of2 t h1))]
      rw [outsAt2_B V c t h0 h1]
      unfold accB2 sout2_B_0; (try dsimp only)
      rw [PhiS2_castSucc V c t, PhiS2_pos V c _ _ hz]
      iintro ⟨⟨HC, Hg⟩, Ho, ⟨%d0, H0⟩, ⟨%d1, H1⟩, ⟨%d2, H2⟩, ⟨%d3, H3⟩⟩
      ihave HC' := (chain2_open c _) $$ HC
      icases HC' with ⟨HR, HS0⟩
      iapply ((kernelRun2_B c (grid2.coords t) _ _ _ _ _ _ _ _ _ _ (nc0_of2 t h0) (nc1_of2 t h1) (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR HS0 Hg]
      · isplitl [HR HS0]
        · iapply (chain2_close c _)
          isplitl [HR]; · iexact HR
          unfold owns; iexists _; isplitr
          swap; · iexact HS0
          ipureintro; exact View.read_writes_of_cover _ _ _ _ _ (scover2_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with (the class's invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class's back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HC, Hg⟩
  isplitl [HC]
  · ihave HC' := (chain2_open c _) $$ HC
    icases HC' with ⟨HR, HS0⟩
    iapply (chain2_close c _)
    isplitl [HR]; · iexact HR
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Region

end Cert.KernelIdeal.Hand

end
-- ==== Proof.KI.Run.lean ====
/-
  The whole run of the program on a core: nine stretches of host operations, the three matrix-product regions, and the
  closing slice.

  Between two items the core holds every unscoped buffer whole at a known valuation: the launch memory, then what each
  host stretch computes (`V1` … `V9`), then, after each region, the same valuation with the region's arrays at what
  its write-backs leave (`X0`, `X1`, `X2`), then the closing slice applied (`X3`). Each region is entered from the
  valuation before it and left at the one after it; beside the buffers ride the generator register at some state and
  the fact that the core owes nothing. The launch theorem of the several-regions kit then says: every weakly fair
  execution terminates, and at the end every unscoped buffer holds what `X3` says. From that both the frame (the
  argument arrays end as launched: no host operation writes one and no region stages one) and the value of the result
  are read.
-/
import proofs.«411933_j790273982476_2_alg».proof.Proof.Gen.KernelIdeal.Regions
import proofs.«411933_j790273982476_2_alg».proof.Proof.KI.Region0
import proofs.«411933_j790273982476_2_alg».proof.Proof.KI.Region1
import proofs.«411933_j790273982476_2_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- What region 0 is entered from, read at the TensorCore's references: the launch memory after the nine host stretches. -/
abbrev E0 : (c : Dev nD) → (b : Ref sig .tc) → Buf (Elt F) ((c : Thread nD τ).loc b) := fun c b => V9 m c b

/-- At region 0's exit: its arrays at what the write-backs leave (an input's as entered, the output's write-backs
    folded), every other buffer as entered. -/
def X0 (c : Dev nD) : Valuation τ sig (Elt F) :=
  Pipeline.withArrays spec0 c (V9 m c) fun w => (dat0 (E0 m) c).arrAt w cfg0.N
theorem X0_arr (c : Dev nD) (w : Fin cfg0.W) :
    X0 m c (Proc.devRef .tc (Pipeline.arrRef spec0 w)) = (dat0 (E0 m) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m c (Proc.devRef .tc b) = V9 m c (Proc.devRef .tc b) := by
  unfold X0; exact Pipeline.withArrays_of_ne spec0 c _ _ b hb
/-- The same read at the TensorCore's references. -/
abbrev F0 : (c : Dev nD) → (b : Ref sig .tc) → Buf (Elt F) ((c : Thread nD τ).loc b) := fun c b => X0 m c b
theorem hF0 (c : Dev nD) (w : Fin cfg0.W) : (dat0 (E0 m) c).arrAt w cfg0.N = F0 m c (Pipeline.arrRef spec0 w) :=
  (X0_arr m c w).symm
theorem hrest0 (c : Dev nD) : ∀ b, b ∉ Finset.univ.image (Pipeline.arrRef spec0) → F0 m c b = E0 m c b :=
  fun b hb => X0_of_ne m c b fun w e => hb (Finset.mem_image.mpr ⟨w, Finset.mem_univ _, e⟩)

/-- What region 1 is entered from. -/
abbrev E1 : (c : Dev nD) → (b : Ref sig .tc) → Buf (Elt F) ((c : Thread nD τ).loc b) := fun c b => X0 m c b

/-- At region 1's exit: its arrays at what the write-backs leave (an input's as entered, the output's write-backs
    folded), every other buffer as entered. -/
def X1 (c : Dev nD) : Valuation τ sig (Elt F) :=
  Pipeline.withArrays spec1 c (X0 m c) fun w => (dat1 (E1 m) c).arrAt w cfg1.N
theorem X1_arr (c : Dev nD) (w : Fin cfg1.W) :
    X1 m c (Proc.devRef .tc (Pipeline.arrRef spec1 w)) = (dat1 (E1 m) c).arrAt w cfg1.N := by
  unfold X1; exact Pipeline.withArrays_arr spec1 launch1.win.arr_inj c _ _ w
theorem X1_of_ne (c : Dev nD) (b : Ref sig .tc) (hb : ∀ w, Pipeline.arrRef spec1 w ≠ b) :
    X1 m c (Proc.devRef .tc b) = X0 m c (Proc.devRef .tc b) := by
  unfold X1; exact Pipeline.withArrays_of_ne spec1 c _ _ b hb
/-- The same read at the TensorCore's references. -/
abbrev F1 : (c : Dev nD) → (b : Ref sig .tc) → Buf (Elt F) ((c : Thread nD τ).loc b) := fun c b => X1 m c b
theorem hF1 (c : Dev nD) (w : Fin cfg1.W) : (dat1 (E1 m) c).arrAt w cfg1.N = F1 m c (Pipeline.arrRef spec1 w) :=
  (X1_arr m c w).symm
theorem hrest1 (c : Dev nD) : ∀ b, b ∉ Finset.univ.image (Pipeline.arrRef spec1) → F1 m c b = E1 m c b :=
  fun b hb => X1_of_ne m c b fun w e => hb (Finset.mem_image.mpr ⟨w, Finset.mem_univ _, e⟩)

/-- What region 2 is entered from. -/
abbrev E2 : (c : Dev nD) → (b : Ref sig .tc) → Buf (Elt F) ((c : Thread nD τ).loc b) := fun c b => X1 m c b

/-- At region 2's exit: its arrays at what the write-backs leave (an input's as entered, the output's write-backs
    folded), every other buffer as entered. -/
def X2 (c : Dev nD) : Valuation τ sig (Elt F) :=
  Pipeline.withArrays spec2 c (X1 m c) fun w => (dat2 (E2 m) c).arrAt w cfg2.N
theorem X2_arr (c : Dev nD) (w : Fin cfg2.W) :
    X2 m c (Proc.devRef .tc (Pipeline.arrRef spec2 w)) = (dat2 (E2 m) c).arrAt w cfg2.N := by
  unfold X2; exact Pipeline.withArrays_arr spec2 launch2.win.arr_inj c _ _ w
theorem X2_of_ne (c : Dev nD) (b : Ref sig .tc) (hb : ∀ w, Pipeline.arrRef spec2 w ≠ b) :
    X2 m c (Proc.devRef .tc b) = X1 m c (Proc.devRef .tc b) := by
  unfold X2; exact Pipeline.withArrays_of_ne spec2 c _ _ b hb
/-- The same read at the TensorCore's references. -/
abbrev F2 : (c : Dev nD) → (b : Ref sig .tc) → Buf (Elt F) ((c : Thread nD τ).loc b) := fun c b => X2 m c b
theorem hF2 (c : Dev nD) (w : Fin cfg2.W) : (dat2 (E2 m) c).arrAt w cfg2.N = F2 m c (Pipeline.arrRef spec2 w) :=
  (X2_arr m c w).symm
theorem hrest2 (c : Dev nD) : ∀ b, b ∉ Finset.univ.image (Pipeline.arrRef spec2) → F2 m c b = E2 m c b :=
  fun b hb => X2_of_ne m c b fun w e => hb (Finset.mem_image.mpr ⟨w, Finset.mem_univ _, e⟩)

/-- After the closing slice. -/
abbrev X3 (c : Dev nD) : Valuation τ sig (Elt F) := StableHlo.after hostOps3 (X2 m c)

/-! ### The arguments end as launched -/

theorem X3_main_arg0 (c : Dev nD) : X3 m c (Proc.devRef .tc main_arg0) = m ((c : Thread nD τ).loc main_arg0) :=
  calc X3 m c (Proc.devRef .tc main_arg0)
    _ = X2 m c (Proc.devRef .tc main_arg0) := StableHlo.after_of_writes_sub hostOps3 _ hostOps3_writes (show main_arg0 ∉ hostOps3_W by decide)
    _ = X1 m c (Proc.devRef .tc main_arg0) := X2_of_ne m c main_arg0 (by decide)
    _ = X0 m c (Proc.devRef .tc main_arg0) := X1_of_ne m c main_arg0 (by decide)
    _ = V9 m c (Proc.devRef .tc main_arg0) := X0_of_ne m c main_arg0 (by decide)
    _ = m ((c : Thread nD τ).loc main_arg0) :=
        (V9_of m c main_arg0 (by decide)).trans <| (V8_of m c main_arg0 (by decide)).trans <| (V7_of m c main_arg0 (by decide)).trans <|
        (V6_of m c main_arg0 (by decide)).trans <| (V5_of m c main_arg0 (by decide)).trans <| (V4_of m c main_arg0 (by decide)).trans <|
        (V3_of m c main_arg0 (by decide)).trans <| (V2_of m c main_arg0 (by decide)).trans <| (V1_of m c main_arg0 (by decide))

theorem X3_main_arg1 (c : Dev nD) : X3 m c (Proc.devRef .tc main_arg1) = m ((c : Thread nD τ).loc main_arg1) :=
  calc X3 m c (Proc.devRef .tc main_arg1)
    _ = X2 m c (Proc.devRef .tc main_arg1) := StableHlo.after_of_writes_sub hostOps3 _ hostOps3_writes (show main_arg1 ∉ hostOps3_W by decide)
    _ = X1 m c (Proc.devRef .tc main_arg1) := X2_of_ne m c main_arg1 (by decide)
    _ = X0 m c (Proc.devRef .tc main_arg1) := X1_of_ne m c main_arg1 (by decide)
    _ = V9 m c (Proc.devRef .tc main_arg1) := X0_of_ne m c main_arg1 (by decide)
    _ = m ((c : Thread nD τ).loc main_arg1) :=
        (V9_of m c main_arg1 (by decide)).trans <| (V8_of m c main_arg1 (by decide)).trans <| (V7_of m c main_arg1 (by decide)).trans <|
        (V6_of m c main_arg1 (by decide)).trans <| (V5_of m c main_arg1 (by decide)).trans <| (V4_of m c main_arg1 (by decide)).trans <|
        (V3_of m c main_arg1 (by decide)).trans <| (V2_of m c main_arg1 (by decide)).trans <| (V1_of m c main_arg1 (by decide))

theorem X3_main_arg2 (c : Dev nD) : X3 m c (Proc.devRef .tc main_arg2) = m ((c : Thread nD τ).loc main_arg2) :=
  calc X3 m c (Proc.devRef .tc main_arg2)
    _ = X2 m c (Proc.devRef .tc main_arg2) := StableHlo.after_of_writes_sub hostOps3 _ hostOps3_writes (show main_arg2 ∉ hostOps3_W by decide)
    _ = X1 m c (Proc.devRef .tc main_arg2) := X2_of_ne m c main_arg2 (by decide)
    _ = X0 m c (Proc.devRef .tc main_arg2) := X1_of_ne m c main_arg2 (by decide)
    _ = V9 m c (Proc.devRef .tc main_arg2) := X0_of_ne m c main_arg2 (by decide)
    _ = m ((c : Thread nD τ).loc main_arg2) :=
        (V9_of m c main_arg2 (by decide)).trans <| (V8_of m c main_arg2 (by decide)).trans <| (V7_of m c main_arg2 (by decide)).trans <|
        (V6_of m c main_arg2 (by decide)).trans <| (V5_of m c main_arg2 (by decide)).trans <| (V4_of m c main_arg2 (by decide)).trans <|
        (V3_of m c main_arg2 (by decide)).trans <| (V2_of m c main_arg2 (by decide)).trans <| (V1_of m c main_arg2 (by decide))

theorem X3_main_arg3 (c : Dev nD) : X3 m c (Proc.devRef .tc main_arg3) = m ((c : Thread nD τ).loc main_arg3) :=
  calc X3 m c (Proc.devRef .tc main_arg3)
    _ = X2 m c (Proc.devRef .tc main_arg3) := StableHlo.after_of_writes_sub hostOps3 _ hostOps3_writes (show main_arg3 ∉ hostOps3_W by decide)
    _ = X1 m c (Proc.devRef .tc main_arg3) := X2_of_ne m c main_arg3 (by decide)
    _ = X0 m c (Proc.devRef .tc main_arg3) := X1_of_ne m c main_arg3 (by decide)
    _ = V9 m c (Proc.devRef .tc main_arg3) := X0_of_ne m c main_arg3 (by decide)
    _ = m ((c : Thread nD τ).loc main_arg3) :=
        (V9_of m c main_arg3 (by decide)).trans <| (V8_of m c main_arg3 (by decide)).trans <| (V7_of m c main_arg3 (by decide)).trans <|
        (V6_of m c main_arg3 (by decide)).trans <| (V5_of m c main_arg3 (by decide)).trans <| (V4_of m c main_arg3 (by decide)).trans <|
        (V3_of m c main_arg3 (by decide)).trans <| (V2_of m c main_arg3 (by decide)).trans <| (V1_of m c main_arg3 (by decide))

theorem X3_main_arg4 (c : Dev nD) : X3 m c (Proc.devRef .tc main_arg4) = m ((c : Thread nD τ).loc main_arg4) :=
  calc X3 m c (Proc.devRef .tc main_arg4)
    _ = X2 m c (Proc.devRef .tc main_arg4) := StableHlo.after_of_writes_sub hostOps3 _ hostOps3_writes (show main_arg4 ∉ hostOps3_W by decide)
    _ = X1 m c (Proc.devRef .tc main_arg4) := X2_of_ne m c main_arg4 (by decide)
    _ = X0 m c (Proc.devRef .tc main_arg4) := X1_of_ne m c main_arg4 (by decide)
    _ = V9 m c (Proc.devRef .tc main_arg4) := X0_of_ne m c main_arg4 (by decide)
    _ = m ((c : Thread nD τ).loc main_arg4) :=
        (V9_of m c main_arg4 (by decide)).trans <| (V8_of m c main_arg4 (by decide)).trans <| (V7_of m c main_arg4 (by decide)).trans <|
        (V6_of m c main_arg4 (by decide)).trans <| (V5_of m c main_arg4 (by decide)).trans <| (V4_of m c main_arg4 (by decide)).trans <|
        (V3_of m c main_arg4 (by decide)).trans <| (V2_of m c main_arg4 (by decide)).trans <| (V1_of m c main_arg4 (by decide))

theorem X3_main_arg5 (c : Dev nD) : X3 m c (Proc.devRef .tc main_arg5) = m ((c : Thread nD τ).loc main_arg5) :=
  calc X3 m c (Proc.devRef .tc main_arg5)
    _ = X2 m c (Proc.devRef .tc main_arg5) := StableHlo.after_of_writes_sub hostOps3 _ hostOps3_writes (show main_arg5 ∉ hostOps3_W by decide)
    _ = X1 m c (Proc.devRef .tc main_arg5) := X2_of_ne m c main_arg5 (by decide)
    _ = X0 m c (Proc.devRef .tc main_arg5) := X1_of_ne m c main_arg5 (by decide)
    _ = V9 m c (Proc.devRef .tc main_arg5) := X0_of_ne m c main_arg5 (by decide)
    _ = m ((c : Thread nD τ).loc main_arg5) :=
        (V9_of m c main_arg5 (by decide)).trans <| (V8_of m c main_arg5 (by decide)).trans <| (V7_of m c main_arg5 (by decide)).trans <|
        (V6_of m c main_arg5 (by decide)).trans <| (V5_of m c main_arg5 (by decide)).trans <| (V4_of m c main_arg5 (by decide)).trans <|
        (V3_of m c main_arg5 (by decide)).trans <| (V2_of m c main_arg5 (by decide)).trans <| (V1_of m c main_arg5 (by decide))

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as an item of the run: the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What rides along ends owing nothing (the generator register is dropped). -/
theorem R_owes (c : Dev nD) : (R (F := F) c) ⊢ (iprop(∃ W, owes (c : Thread nD τ) (0 : CellTallies nD τ sig Unit) W) : sProp 𝕄) := by
  iintro ⟨-, HO⟩
  iexact HO
/-- The last thread state without the `owes`: every unscoped buffer at the last boundary's contents but one (before the
    closing slice), the generator register at some state. -/
abbrev Tl (c : Dev nD) : sProp 𝕄 := iprop(StableHlo.held (c : Thread nD τ) (Pipeline.ucRefs τ sig) (X2 m c) ∗ ∃ r, prngReg c r)

/-! ## The regions as items of the run -/

-- a library lemma stated over the pinned configuration unifies with the printed one only when unification may unfold
-- plain definitions in a metavariable's type
set_option backward.isDefEq.respectTransparency.types false in
/-- Region 0 over the thread state: entered from every unscoped buffer at `V9`, left at `X0`. Its arrays are
    split out of the unscoped buffers and put back at what the write-backs leave; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (X0 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (adm (F := F) 0).1
        ∗ Pipeline.scopedRest spec0 c) : sProp 𝕄) ⊢ Pipeline.ΦA spec0 c := by
      unfold Pipeline.ΦA
      iintro ⟨Hp, -, Hr⟩
      isplitl [Hr]; · iexact Hr
      iexact Hp
    exact h1.trans (hin0 (E0 m) c)
  hout c := by
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    rw [Pipeline.ownSems0_none]
    exact (hout0 (E0 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (F0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `X0`, left at `X1`. Its arrays are
    split out of the unscoped buffers and put back at what the write-backs leave; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (X0 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1
        ∗ Pipeline.scopedRest spec1 c) : sProp 𝕄) ⊢ Pipeline.ΦA spec1 c := by
      unfold Pipeline.ΦA
      iintro ⟨Hp, -, Hr⟩
      isplitl [Hr]; · iexact Hr
      iexact Hp
    exact h1.trans (hin1 (E1 m) c)
  hout c := by
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    rw [Pipeline.ownSems0_none]
    exact (hout1 (E1 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (F1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `X1`, left at `X2`. Its arrays are
    split out of the unscoped buffers and put back at what the write-backs leave; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 2).pre c (fun _ => fullShare) (adm (F := F) 2).1
        ∗ Pipeline.scopedRest spec2 c) : sProp 𝕄) ⊢ Pipeline.ΦA spec2 c := by
      unfold Pipeline.ΦA
      iintro ⟨Hp, -, Hr⟩
      isplitl [Hr]; · iexact Hr
      iexact Hp
    exact h1.trans (hin2 (E2 m) c)
  hout c := by
    have h2 : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    rw [Pipeline.ownSems0_none]
    exact (hout2 (E2 m) c).trans h2
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (F2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's 13 items in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .region (reg0 m),
    .region (reg1 m),
    .region (reg2 m),
    .host (hseg hostOps3 hostOps3_sub hostOps3_fresh (X2 m)) ]

/-- The program IS the run of its items. -/
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- From any memory with zero counters, every weakly fair execution of the program on the TensorCores terminates,
    nothing faulting, and every final state has every unscoped buffer at what `X3` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (X3 m c))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X3 m c b)
    (hfin := fun c s' => by
      unfold StableHlo.held
      iintro ⟨Hh, HSI⟩
      imodintro
      iapply (pointsTo_read_all (Pipeline.ucRefs τ sig) (fun b => (((c : Thread nD τ)).1, b)) (X3 m c) s')
      isplitl [Hh] <;> iassumption)
    (hQ := fun s h c => h c)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (X3_main_arg0 m c),
     (h c _ (mem_uc main_arg1 (by decide))).trans (X3_main_arg1 m c),
     (h c _ (mem_uc main_arg2 (by decide))).trans (X3_main_arg2 m c),
     (h c _ (mem_uc main_arg3 (by decide))).trans (X3_main_arg3 m c),
     (h c _ (mem_uc main_arg4 (by decide))).trans (X3_main_arg4 m c),
     (h c _ (mem_uc main_arg5 (by decide))).trans (X3_main_arg5 m c)⟩) (run_all m ρ)

end Cert.KernelIdeal.Hand

end
-- ==== Proof.KI.Region0Value.lean ====
/- Region 0 of the program (the first matrix product): what the buffers hold after each grid
   point, as values of the kernel's three pure payloads.

   At every point the accumulator is first stored the zero block, then read back and stored the
   zero block plus the product of the point's 1280x512 input block with the 512x1024 weight matrix;
   the output block is that accumulator read back once more and rounded to the output's format.
   Every load and store is of a whole buffer, so a load after a store reads the store's payload,
   and the last store alone decides what a buffer ends with. -/
import proofs.«411933_j790273982476_2_alg».proof.Proof.KI.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-! ## Whole-buffer loads and stores -/

theorem hz0 : (![0, 0] : Fin 2 → Nat) = fun _ => 0 := funext fun a => by fin_cases a <;> rfl

/-- A load of the whole buffer after a list of stores whose LAST is of the whole buffer reads that
    store's payload, whatever the earlier stores were. -/
theorem readCov_cons_whole0 {Val : EltTy → Type} [∀ e, Nonempty (Val e)] {S : Shape} {e : EltTy}
    {sig' : RefSig} {κ : Kind} {sp : Space} (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The accumulator after the body: the reset stores the zero block, the update reads it back and
    adds the product of the two input blocks. -/
theorem sout0_A_0_eq (c : Dev nD) (i : grid0.Coords)
    (arg3 : Memref sig .tc .vmem S1280x512 .bf16) (harg3 : arg3.IsWhole)
    (arg4 : Memref sig .tc .vmem S512x1024 .bf16) (harg4 : arg4.IsWhole)
    (arg5 : Memref sig .tc .vmem S1280x1024 .bf16) (harg5 : arg5.IsWhole)
    (arg6 : Memref sig .tc .vmem S1280x1024 .f32) (harg6 : arg6.IsWhole)
    (hc0 : cond0_0 i) (hc1 : cond0_1 i)
    (x0 : Vec F S1280x512 .bf16) (x1 : Vec F S512x1024 .bf16) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1280x1024) hz0, View.readCov_unit_zero (S := S1280x1024) _ hz0]
  simp only [View.readAt_eq_ld, harg3.read_unread, harg4.read_unread, View.ld_unit_zero (S := S1280x512) hz0, View.ld_unit_zero (S := S512x1024) hz0]

/-- The output's staging buffer after the body: the accumulator, read back after its two stores, rounded. -/
theorem out0_A_2_eq (c : Dev nD) (i : grid0.Coords)
    (arg3 : Memref sig .tc .vmem S1280x512 .bf16) (harg3 : arg3.IsWhole)
    (arg4 : Memref sig .tc .vmem S512x1024 .bf16) (harg4 : arg4.IsWhole)
    (arg5 : Memref sig .tc .vmem S1280x1024 .bf16) (harg5 : arg5.IsWhole)
    (arg6 : Memref sig .tc .vmem S1280x1024 .f32) (harg6 : arg6.IsWhole)
    (hc0 : cond0_0 i) (hc1 : cond0_1 i)
    (x0 : Vec F S1280x512 .bf16) (x1 : Vec F S512x1024 .bf16) :
    out0_A_2 c i arg3 harg3 arg4 harg4 arg5 harg5 arg6 harg6 hc0 hc1 x0 x1 = k0_pay3 (k0_pay2 x0 x1 (k0_pay1 (F := F))) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero (S := S1280x1024) hz0, readCov_cons_whole0 (S := S1280x1024) _ hz0, View.readCov_unit_zero (S := S1280x1024) _ hz0]
  simp only [View.readAt_eq_ld, harg3.read_unread, harg4.read_unread, View.ld_unit_zero (S := S1280x512) hz0, View.ld_unit_zero (S := S512x1024) hz0]

/-- The two input blocks at a point, at their literal shapes. -/
abbrev xblk0 (c : Dev nD) (t : Fin cfg0.N) : Vec F S1280x512 .bf16 := iblk0 V c 0 t
abbrev wblk0 (c : Dev nD) (t : Fin cfg0.N) : Vec F S512x1024 .bf16 := iblk0 V c 1 t

/-- The accumulator after point `t`: the product of the point's two blocks added to the zero block. -/
theorem acc0_eq (c : Dev nD) (t : Fin cfg0.N) :
    (outsAt0 V c t.val t.isLt).2 = k0_pay2 (iblk0 V c 0 t) (iblk0 V c 1 t) (k0_pay1 (F := F)) := by
  rw [outsAt0_eq]; unfold outs0; dsimp only
  exact sout0_A_0_eq c (grid0.coords t) (ms0_0 t) (hs0_0 t) (ms0_1 t) (hs0_1 t) (ms0_2 t) (hs0_2 t) scM0_0 (Memref.isWhole_whole _) (hcond0_0 t) (hcond0_1 t) (xblk0 V c t) (wblk0 V c t)

/-- The output block after point `t`: that accumulator, rounded to the output's format. -/
theorem out0_eq (c : Dev nD) (t : Fin cfg0.N) :
    (outsAt0 V c t.val t.isLt).1 = k0_pay3 (outsAt0 V c t.val t.isLt).2 := by
  rw [acc0_eq, outsAt0_eq]; unfold outs0; dsimp only
  exact out0_A_2_eq c (grid0.coords t) (ms0_0 t) (hs0_0 t) (ms0_1 t) (hs0_1 t) (ms0_2 t) (hs0_2 t) scM0_0 (Memref.isWhole_whole _) (hcond0_0 t) (hcond0_1 t) (xblk0 V c t) (wblk0 V c t)

end Cert.KernelIdeal.Hand

end
-- ==== Proof.KV.Payloads.lean ====
/-
  The values the three matrix-product kernels store, read one entry at a time at the extended reals.

  Each kernel keeps a running total in an accumulator block: the first grid step along the contraction
  axis clears it, every step adds the product of the current left and right blocks to it, and the last
  step writes the result out. At the extended reals a change of float format is the identity and a
  matrix product into a zero accumulator is the plain contraction, so:
    * the clearing store writes 0 everywhere;
    * the accumulating store writes, at row p and column q, the old total plus Σ_j a[p,j] · b[j,q];
    * the closing store of the first kernel writes the total unchanged; that of the second adds the bias
      row, clamps below at 0 and multiplies by a second matrix, Σ_j max(acc[p,j] + bias[0,j], 0) · w[j,q];
      that of the third adds the bias row and clamps below at 0.
  Every statement is over variables of the literal block shapes, with indices given by their two coordinates.
-/
import proofs.«411933_j790273982476_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payloads

open Cert.KernelIdeal Cert.KernelIdeal.Gen Idealize.ShloMosaic Idealize.ShloMosaic.ValueIdx

/-! ## The product [1280,512] · [512,1024]

With left axis 1 contracted against right axis 0 and no batch axes, output entry (p, q) and contraction
position k read the left operand at (p, k) and the right operand at (k, q): one lemma per operand axis. -/

theorem lhsA_0 (i : S1280x1024.Idx) (q : Cert.KernelIdeal.dot_S1280x512_S512x1024_S1280x1024_1_0_0_1_n_n.contr.Idx) :
    (Cert.KernelIdeal.dot_S1280x512_S512x1024_S1280x1024_1_0_0_1_n_n.lhsIdx i q 0).val = (i 0).val := by
  unfold DotDims.lhsIdx
  rw [dif_neg (show ¬(0 : Fin S1280x512.rank) ∈ Cert.KernelIdeal.dot_S1280x512_S512x1024_S1280x1024_1_0_0_1_n_n.lhsBatch by decide), dif_pos (show (0 : Fin S1280x512.rank) ∈ Cert.KernelIdeal.dot_S1280x512_S512x1024_S1280x1024_1_0_0_1_n_n.lhsNonContracting by decide)]
  rfl
theorem lhsA_1 (i : S1280x1024.Idx) (q : Cert.KernelIdeal.dot_S1280x512_S512x1024_S1280x1024_1_0_0_1_n_n.contr.Idx) :
    (Cert.KernelIdeal.dot_S1280x512_S512x1024_S1280x1024_1_0_0_1_n_n.lhsIdx i q 1).val = (q ⟨0, by decide⟩).val :=
  Cert.KernelIdeal.dot_S1280x512_S512x1024_S1280x1024_1_0_0_1_n_n.lhsIdx_val_of_single rfl i q
theorem rhsA_0 (i : S1280x1024.Idx) (q : Cert.KernelIdeal.dot_S1280x512_S512x1024_S1280x1024_1_0_0_1_n_n.contr.Idx) :
    (Cert.KernelIdeal.dot_S1280x512_S512x1024_S1280x1024_1_0_0_1_n_n.rhsIdx i q 0).val = (q ⟨0, by decide⟩).val :=
  Cert.KernelIdeal.dot_S1280x512_S512x1024_S1280x1024_1_0_0_1_n_n.rhsIdx_val_of_single rfl i q
theorem rhsA_1 (i : S1280x1024.Idx) (q : Cert.KernelIdeal.dot_S1280x512_S512x1024_S1280x1024_1_0_0_1_n_n.contr.Idx) :
    (Cert.KernelIdeal.dot_S1280x512_S512x1024_S1280x1024_1_0_0_1_n_n.rhsIdx i q 1).val = (i 1).val := by
  unfold DotDims.rhsIdx
  rw [dif_neg (show ¬(1 : Fin S512x1024.rank) ∈ Cert.KernelIdeal.dot_S1280x512_S512x1024_S1280x1024_1_0_0_1_n_n.rhsBatch by decide), dif_pos (show (1 : Fin S512x1024.rank) ∈ Cert.KernelIdeal.dot_S1280x512_S512x1024_S1280x1024_1_0_0_1_n_n.rhsNonContracting by decide)]
  rfl

/-- Into a zero accumulator the product's entry (p, q) is Σ_j a[p,j] · b[j,q], j over the 512 contracted positions. -/
theorem mmA (a : FVec Ideal S1280x512 .bf16) (b : FVec Ideal S512x1024 .bf16) (p : Fin 1280) (q : Fin 1024) :
    FloatOps.matmul Cert.KernelIdeal.dot_S1280x512_S512x1024_S1280x1024_1_0_0_1_n_n none a b (constant (F := Ideal) S1280x1024 .f32 0x00000000#32) (ix2 p q)
      = ∑ j : Fin 512, a (ix2 p j) * b (ix2 j q) := by
  rw [Ideal.matmul_constant_zero_apply, ← Equiv.sum_comp (contrEquiv1 Cert.KernelIdeal.dot_S1280x512_S512x1024_S1280x1024_1_0_0_1_n_n 512 rfl rfl).symm]
  refine Finset.sum_congr rfl fun k _ => ?_
  have hk := contrEquiv1_symm_val Cert.KernelIdeal.dot_S1280x512_S512x1024_S1280x1024_1_0_0_1_n_n 512 rfl rfl k
  have el : Cert.KernelIdeal.dot_S1280x512_S512x1024_S1280x1024_1_0_0_1_n_n.lhsIdx (ix2 p q) ((contrEquiv1 Cert.KernelIdeal.dot_S1280x512_S512x1024_S1280x1024_1_0_0_1_n_n 512 rfl rfl).symm k) = ix2 p k := funext fun a => Fin.ext (by
    match a with
    | ⟨0, _⟩ => exact lhsA_0 _ _
    | ⟨1, _⟩ => exact (lhsA_1 _ _).trans hk)
  have er : Cert.KernelIdeal.dot_S1280x512_S512x1024_S1280x1024_1_0_0_1_n_n.rhsIdx (ix2 p q) ((contrEquiv1 Cert.KernelIdeal.dot_S1280x512_S512x1024_S1280x1024_1_0_0_1_n_n 512 rfl rfl).symm k) = ix2 k q := funext fun a => Fin.ext (by
    match a with
    | ⟨0, _⟩ => exact (rhsA_0 _ _).trans hk
    | ⟨1, _⟩ => exact rhsA_1 _ _)
  rw [el, er]

/-! ## The product [1280,1280] · [1280,1024] -/

theorem lhsB_0 (i : S1280x1024.Idx) (q : Cert.KernelIdeal.dot_S1280x1280_S1280x1024_S1280x1024_1_0_0_1_n_n.contr.Idx) :
    (Cert.KernelIdeal.dot_S1280x1280_S1280x1024_S1280x1024_1_0_0_1_n_n.lhsIdx i q 0).val = (i 0).val := by
  unfold DotDims.lhsIdx
  rw [dif_neg (show ¬(0 : Fin S1280x1280.rank) ∈ Cert.KernelIdeal.dot_S1280x1280_S1280x1024_S1280x1024_1_0_0_1_n_n.lhsBatch by decide), dif_pos (show (0 : Fin S1280x1280.rank) ∈ Cert.KernelIdeal.dot_S1280x1280_S1280x1024_S1280x1024_1_0_0_1_n_n.lhsNonContracting by decide)]
  rfl
theorem lhsB_1 (i : S1280x1024.Idx) (q : Cert.KernelIdeal.dot_S1280x1280_S1280x1024_S1280x1024_1_0_0_1_n_n.contr.Idx) :
    (Cert.KernelIdeal.dot_S1280x1280_S1280x1024_S1280x1024_1_0_0_1_n_n.lhsIdx i q 1).val = (q ⟨0, by decide⟩).val :=
  Cert.KernelIdeal.dot_S1280x1280_S1280x1024_S1280x1024_1_0_0_1_n_n.lhsIdx_val_of_single rfl i q
theorem rhsB_0 (i : S1280x1024.Idx) (q : Cert.KernelIdeal.dot_S1280x1280_S1280x1024_S1280x1024_1_0_0_1_n_n.contr.Idx) :
    (Cert.KernelIdeal.dot_S1280x1280_S1280x1024_S1280x1024_1_0_0_1_n_n.rhsIdx i q 0).val = (q ⟨0, by decide⟩).val :=
  Cert.KernelIdeal.dot_S1280x1280_S1280x1024_S1280x1024_1_0_0_1_n_n.rhsIdx_val_of_single rfl i q
theorem rhsB_1 (i : S1280x1024.Idx) (q : Cert.KernelIdeal.dot_S1280x1280_S1280x1024_S1280x1024_1_0_0_1_n_n.contr.Idx) :
    (Cert.KernelIdeal.dot_S1280x1280_S1280x1024_S1280x1024_1_0_0_1_n_n.rhsIdx i q 1).val = (i 1).val := by
  unfold DotDims.rhsIdx
  rw [dif_neg (show ¬(1 : Fin S1280x1024.rank) ∈ Cert.KernelIdeal.dot_S1280x1280_S1280x1024_S1280x1024_1_0_0_1_n_n.rhsBatch by decide), dif_pos (show (1 : Fin S1280x1024.rank) ∈ Cert.KernelIdeal.dot_S1280x1280_S1280x1024_S1280x1024_1_0_0_1_n_n.rhsNonContracting by decide)]
  rfl

/-- Into a zero accumulator the product's entry (p, q) is Σ_j a[p,j] · b[j,q], j over the 1280 contracted positions. -/
theorem mmB (a : FVec Ideal S1280x1280 .bf16) (b : FVec Ideal S1280x1024 .bf16) (p : Fin 1280) (q : Fin 1024) :
    FloatOps.matmul Cert.KernelIdeal.dot_S1280x1280_S1280x1024_S1280x1024_1_0_0_1_n_n none a b (constant (F := Ideal) S1280x1024 .f32 0x00000000#32) (ix2 p q)
      = ∑ j : Fin 1280, a (ix2 p j) * b (ix2 j q) := by
  rw [Ideal.matmul_constant_zero_apply, ← Equiv.sum_comp (contrEquiv1 Cert.KernelIdeal.dot_S1280x1280_S1280x1024_S1280x1024_1_0_0_1_n_n 1280 rfl rfl).symm]
  refine Finset.sum_congr rfl fun k _ => ?_
  have hk := contrEquiv1_symm_val Cert.KernelIdeal.dot_S1280x1280_S1280x1024_S1280x1024_1_0_0_1_n_n 1280 rfl rfl k
  have el : Cert.KernelIdeal.dot_S1280x1280_S1280x1024_S1280x1024_1_0_0_1_n_n.lhsIdx (ix2 p q) ((contrEquiv1 Cert.KernelIdeal.dot_S1280x1280_S1280x1024_S1280x1024_1_0_0_1_n_n 1280 rfl rfl).symm k) = ix2 p k := funext fun a => Fin.ext (by
    match a with
    | ⟨0, _⟩ => exact lhsB_0 _ _
    | ⟨1, _⟩ => exact (lhsB_1 _ _).trans hk)
  have er : Cert.KernelIdeal.dot_S1280x1280_S1280x1024_S1280x1024_1_0_0_1_n_n.rhsIdx (ix2 p q) ((contrEquiv1 Cert.KernelIdeal.dot_S1280x1280_S1280x1024_S1280x1024_1_0_0_1_n_n 1280 rfl rfl).symm k) = ix2 k q := funext fun a => Fin.ext (by
    match a with
    | ⟨0, _⟩ => exact (rhsB_0 _ _).trans hk
    | ⟨1, _⟩ => exact rhsB_1 _ _)
  rw [el, er]

/-! ## The product [1280,1024] · [1024,512] -/

theorem lhsC_0 (i : S1280x512.Idx) (q : Cert.KernelIdeal.dot_S1280x1024_S1024x512_S1280x512_1_0_0_1_n_n.contr.Idx) :
    (Cert.KernelIdeal.dot_S1280x1024_S1024x512_S1280x512_1_0_0_1_n_n.lhsIdx i q 0).val = (i 0).val := by
  unfold DotDims.lhsIdx
  rw [dif_neg (show ¬(0 : Fin S1280x1024.rank) ∈ Cert.KernelIdeal.dot_S1280x1024_S1024x512_S1280x512_1_0_0_1_n_n.lhsBatch by decide), dif_pos (show (0 : Fin S1280x1024.rank) ∈ Cert.KernelIdeal.dot_S1280x1024_S1024x512_S1280x512_1_0_0_1_n_n.lhsNonContracting by decide)]
  rfl
theorem lhsC_1 (i : S1280x512.Idx) (q : Cert.KernelIdeal.dot_S1280x1024_S1024x512_S1280x512_1_0_0_1_n_n.contr.Idx) :
    (Cert.KernelIdeal.dot_S1280x1024_S1024x512_S1280x512_1_0_0_1_n_n.lhsIdx i q 1).val = (q ⟨0, by decide⟩).val :=
  Cert.KernelIdeal.dot_S1280x1024_S1024x512_S1280x512_1_0_0_1_n_n.lhsIdx_val_of_single rfl i q
theorem rhsC_0 (i : S1280x512.Idx) (q : Cert.KernelIdeal.dot_S1280x1024_S1024x512_S1280x512_1_0_0_1_n_n.contr.Idx) :
    (Cert.KernelIdeal.dot_S1280x1024_S1024x512_S1280x512_1_0_0_1_n_n.rhsIdx i q 0).val = (q ⟨0, by decide⟩).val :=
  Cert.KernelIdeal.dot_S1280x1024_S1024x512_S1280x512_1_0_0_1_n_n.rhsIdx_val_of_single rfl i q
theorem rhsC_1 (i : S1280x512.Idx) (q : Cert.KernelIdeal.dot_S1280x1024_S1024x512_S1280x512_1_0_0_1_n_n.contr.Idx) :
    (Cert.KernelIdeal.dot_S1280x1024_S1024x512_S1280x512_1_0_0_1_n_n.rhsIdx i q 1).val = (i 1).val := by
  unfold DotDims.rhsIdx
  rw [dif_neg (show ¬(1 : Fin S1024x512.rank) ∈ Cert.KernelIdeal.dot_S1280x1024_S1024x512_S1280x512_1_0_0_1_n_n.rhsBatch by decide), dif_pos (show (1 : Fin S1024x512.rank) ∈ Cert.KernelIdeal.dot_S1280x1024_S1024x512_S1280x512_1_0_0_1_n_n.rhsNonContracting by decide)]
  rfl

/-- Into a zero accumulator the product's entry (p, q) is Σ_j a[p,j] · b[j,q], j over the 1024 contracted positions. -/
theorem mmC (a : FVec Ideal S1280x1024 .bf16) (b : FVec Ideal S1024x512 .bf16) (p : Fin 1280) (q : Fin 512) :
    FloatOps.matmul Cert.KernelIdeal.dot_S1280x1024_S1024x512_S1280x512_1_0_0_1_n_n none a b (constant (F := Ideal) S1280x512 .f32 0x00000000#32) (ix2 p q)
      = ∑ j : Fin 1024, a (ix2 p j) * b (ix2 j q) := by
  rw [Ideal.matmul_constant_zero_apply, ← Equiv.sum_comp (contrEquiv1 Cert.KernelIdeal.dot_S1280x1024_S1024x512_S1280x512_1_0_0_1_n_n 1024 rfl rfl).symm]
  refine Finset.sum_congr rfl fun k _ => ?_
  have hk := contrEquiv1_symm_val Cert.KernelIdeal.dot_S1280x1024_S1024x512_S1280x512_1_0_0_1_n_n 1024 rfl rfl k
  have el : Cert.KernelIdeal.dot_S1280x1024_S1024x512_S1280x512_1_0_0_1_n_n.lhsIdx (ix2 p q) ((contrEquiv1 Cert.KernelIdeal.dot_S1280x1024_S1024x512_S1280x512_1_0_0_1_n_n 1024 rfl rfl).symm k) = ix2 p k := funext fun a => Fin.ext (by
    match a with
    | ⟨0, _⟩ => exact lhsC_0 _ _
    | ⟨1, _⟩ => exact (lhsC_1 _ _).trans hk)
  have er : Cert.KernelIdeal.dot_S1280x1024_S1024x512_S1280x512_1_0_0_1_n_n.rhsIdx (ix2 p q) ((contrEquiv1 Cert.KernelIdeal.dot_S1280x1024_S1024x512_S1280x512_1_0_0_1_n_n 1024 rfl rfl).symm k) = ix2 k q := funext fun a => Fin.ext (by
    match a with
    | ⟨0, _⟩ => exact (rhsC_0 _ _).trans hk
    | ⟨1, _⟩ => exact rhsC_1 _ _)
  rw [el, er]

/-! ## The product [1280,1280] · [1280,512] -/

theorem lhsD_0 (i : S1280x512.Idx) (q : Cert.KernelIdeal.dot_S1280x1280_S1280x512_S1280x512_1_0_0_1_n_n.contr.Idx) :
    (Cert.KernelIdeal.dot_S1280x1280_S1280x512_S1280x512_1_0_0_1_n_n.lhsIdx i q 0).val = (i 0).val := by
  unfold DotDims.lhsIdx
  rw [dif_neg (show ¬(0 : Fin S1280x1280.rank) ∈ Cert.KernelIdeal.dot_S1280x1280_S1280x512_S1280x512_1_0_0_1_n_n.lhsBatch by decide), dif_pos (show (0 : Fin S1280x1280.rank) ∈ Cert.KernelIdeal.dot_S1280x1280_S1280x512_S1280x512_1_0_0_1_n_n.lhsNonContracting by decide)]
  rfl
theorem lhsD_1 (i : S1280x512.Idx) (q : Cert.KernelIdeal.dot_S1280x1280_S1280x512_S1280x512_1_0_0_1_n_n.contr.Idx) :
    (Cert.KernelIdeal.dot_S1280x1280_S1280x512_S1280x512_1_0_0_1_n_n.lhsIdx i q 1).val = (q ⟨0, by decide⟩).val :=
  Cert.KernelIdeal.dot_S1280x1280_S1280x512_S1280x512_1_0_0_1_n_n.lhsIdx_val_of_single rfl i q
theorem rhsD_0 (i : S1280x512.Idx) (q : Cert.KernelIdeal.dot_S1280x1280_S1280x512_S1280x512_1_0_0_1_n_n.contr.Idx) :
    (Cert.KernelIdeal.dot_S1280x1280_S1280x512_S1280x512_1_0_0_1_n_n.rhsIdx i q 0).val = (q ⟨0, by decide⟩).val :=
  Cert.KernelIdeal.dot_S1280x1280_S1280x512_S1280x512_1_0_0_1_n_n.rhsIdx_val_of_single rfl i q
theorem rhsD_1 (i : S1280x512.Idx) (q : Cert.KernelIdeal.dot_S1280x1280_S1280x512_S1280x512_1_0_0_1_n_n.contr.Idx) :
    (Cert.KernelIdeal.dot_S1280x1280_S1280x512_S1280x512_1_0_0_1_n_n.rhsIdx i q 1).val = (i 1).val := by
  unfold DotDims.rhsIdx
  rw [dif_neg (show ¬(1 : Fin S1280x512.rank) ∈ Cert.KernelIdeal.dot_S1280x1280_S1280x512_S1280x512_1_0_0_1_n_n.rhsBatch by decide), dif_pos (show (1 : Fin S1280x512.rank) ∈ Cert.KernelIdeal.dot_S1280x1280_S1280x512_S1280x512_1_0_0_1_n_n.rhsNonContracting by decide)]
  rfl

/-- Into a zero accumulator the product's entry (p, q) is Σ_j a[p,j] · b[j,q], j over the 1280 contracted positions. -/
theorem mmD (a : FVec Ideal S1280x1280 .bf16) (b : FVec Ideal S1280x512 .bf16) (p : Fin 1280) (q : Fin 512) :
    FloatOps.matmul Cert.KernelIdeal.dot_S1280x1280_S1280x512_S1280x512_1_0_0_1_n_n none a b (constant (F := Ideal) S1280x512 .f32 0x00000000#32) (ix2 p q)
      = ∑ j : Fin 1280, a (ix2 p j) * b (ix2 j q) := by
  rw [Ideal.matmul_constant_zero_apply, ← Equiv.sum_comp (contrEquiv1 Cert.KernelIdeal.dot_S1280x1280_S1280x512_S1280x512_1_0_0_1_n_n 1280 rfl rfl).symm]
  refine Finset.sum_congr rfl fun k _ => ?_
  have hk := contrEquiv1_symm_val Cert.KernelIdeal.dot_S1280x1280_S1280x512_S1280x512_1_0_0_1_n_n 1280 rfl rfl k
  have el : Cert.KernelIdeal.dot_S1280x1280_S1280x512_S1280x512_1_0_0_1_n_n.lhsIdx (ix2 p q) ((contrEquiv1 Cert.KernelIdeal.dot_S1280x1280_S1280x512_S1280x512_1_0_0_1_n_n 1280 rfl rfl).symm k) = ix2 p k := funext fun a => Fin.ext (by
    match a with
    | ⟨0, _⟩ => exact lhsD_0 _ _
    | ⟨1, _⟩ => exact (lhsD_1 _ _).trans hk)
  have er : Cert.KernelIdeal.dot_S1280x1280_S1280x512_S1280x512_1_0_0_1_n_n.rhsIdx (ix2 p q) ((contrEquiv1 Cert.KernelIdeal.dot_S1280x1280_S1280x512_S1280x512_1_0_0_1_n_n 1280 rfl rfl).symm k) = ix2 k q := funext fun a => Fin.ext (by
    match a with
    | ⟨0, _⟩ => exact (rhsD_0 _ _).trans hk
    | ⟨1, _⟩ => exact rhsD_1 _ _)
  rw [el, er]

/-! ## The first kernel: acc ← acc + a · b, written out unchanged at the end -/

/-- The clearing store writes 0 at every entry. -/
theorem pay1_0 (p : Fin 1280) (q : Fin 1024) : k0_pay1 (F := Ideal) (ix2 p q) = 0 := by
  unfold k0_pay1
  rw [shapeCast_self, broadcast_apply]
  exact Ideal.ofBits_zero_f32

/-- The accumulating store writes the old total plus the row-by-column product of the two blocks. -/
theorem pay2_0 (a : Vec Ideal S1280x512 .bf16) (b : Vec Ideal S512x1024 .bf16) (acc : Vec Ideal S1280x1024 .f32) (p : Fin 1280) (q : Fin 1024) :
    k0_pay2 (F := Ideal) a b acc (ix2 p q) = acc (ix2 p q) + ∑ j : Fin 512, a (ix2 p j) * b (ix2 j q) := by
  unfold k0_pay2
  rw [shapeCast_self, shapeCast_self, shapeCast_self, addf_apply]
  exact congrArg (acc (ix2 p q) + ·) (mmA a b p q)

/-- The closing store narrows the format only: the entry is unchanged. -/
theorem pay3_0 (acc : Vec Ideal S1280x1024 .f32) (p : Fin 1280) (q : Fin 1024) : k0_pay3 (F := Ideal) acc (ix2 p q) = acc (ix2 p q) := by
  unfold k0_pay3
  rfl

/-! ## The second kernel: acc ← acc + a · b, then max(acc + bias, 0) · w at the end -/

/-- The clearing store writes 0 at every entry. -/
theorem pay1_1 (p : Fin 1280) (q : Fin 1024) : k1_pay1 (F := Ideal) (ix2 p q) = 0 := by
  unfold k1_pay1
  rw [shapeCast_self, broadcast_apply]
  exact Ideal.ofBits_zero_f32

/-- The accumulating store writes the old total plus the row-by-column product of the two blocks. -/
theorem pay2_1 (a : Vec Ideal S1280x1280 .bf16) (b : Vec Ideal S1280x1024 .bf16) (acc : Vec Ideal S1280x1024 .f32) (p : Fin 1280) (q : Fin 1024) :
    k1_pay2 (F := Ideal) a b acc (ix2 p q) = acc (ix2 p q) + ∑ j : Fin 1280, a (ix2 p j) * b (ix2 j q) := by
  unfold k1_pay2
  rw [shapeCast_self, shapeCast_self, shapeCast_self, addf_apply]
  exact congrArg (acc (ix2 p q) + ·) (mmB a b p q)

/-- The closing store: the bias row is added along every row, the result clamped below at 0, and that
    matrix multiplied by w; the second product starts from a zero accumulator, so it is the bare sum. -/
theorem pay3_1 (acc : Vec Ideal S1280x1024 .f32) (bias : Vec Ideal S1x1024 .f32) (w : Vec Ideal S1024x512 .bf16) (p : Fin 1280) (q : Fin 512) :
    k1_pay3 (F := Ideal) acc bias w (ix2 p q) = ∑ j : Fin 1024, max (acc (ix2 p j) + bias (ix2 0 j)) 0 * w (ix2 j q) := by
  unfold k1_pay3
  rw [truncf_apply, shapeCast_self, shapeCast_self]
  refine (mmC _ _ p q).trans ?_
  refine Finset.sum_congr rfl fun j _ => ?_
  rw [truncf_apply, maximumf_apply, addf_apply, broadcast_apply, broadcastTo_1b_ab_apply]
  exact congrArg (fun z => max (acc (ix2 p j) + bias (ix2 0 j)) z * w (ix2 j q)) Ideal.ofBits_zero_f32

/-! ## The third kernel: acc ← acc + a · b, then max(acc + bias, 0) at the end -/

/-- The clearing store writes 0 at every entry. -/
theorem pay1_2 (p : Fin 1280) (q : Fin 512) : k2_pay1 (F := Ideal) (ix2 p q) = 0 := by
  unfold k2_pay1
  rw [shapeCast_self, broadcast_apply]
  exact Ideal.ofBits_zero_f32

/-- The accumulating store writes the old total plus the row-by-column product of the two blocks. -/
theorem pay2_2 (a : Vec Ideal S1280x1280 .bf16) (b : Vec Ideal S1280x512 .bf16) (acc : Vec Ideal S1280x512 .f32) (p : Fin 1280) (q : Fin 512) :
    k2_pay2 (F := Ideal) a b acc (ix2 p q) = acc (ix2 p q) + ∑ j : Fin 1280, a (ix2 p j) * b (ix2 j q) := by
  unfold k2_pay2
  rw [shapeCast_self, shapeCast_self, shapeCast_self, addf_apply]
  exact congrArg (acc (ix2 p q) + ·) (mmD a b p q)

/-- The closing store: the bias row is added along every row and the result clamped below at 0. -/
theorem pay3_2 (acc : Vec Ideal S1280x512 .f32) (bias : Vec Ideal S1x512 .f32) (p : Fin 1280) (q : Fin 512) :
    k2_pay3 (F := Ideal) acc bias (ix2 p q) = max (acc (ix2 p q) + bias (ix2 0 q)) 0 := by
  unfold k2_pay3
  rw [maximumf_apply, addf_apply, broadcast_apply, shapeCast_self, broadcastTo_1b_ab_apply]
  exact congrArg (fun z => max (acc (ix2 p q) + bias (ix2 0 q)) z) Ideal.ofBits_zero_f32

end Cert.KernelIdeal.Payloads
-- ==== Proof.KV.Array0.lean ====
/- Region 0 of the program (the first matrix product): its output array after the region, entry by
   entry, at the extended reals.

   The output array (10240 x 1024) is written in eight row blocks of 1280 rows, one per grid point,
   each written back at its point; the blocks tile the array, so every entry is written exactly by
   the point its row lies in.  Entry (p, q) of the block of point t is the zero the accumulator is
   reset to plus the sum over the 512 contracted positions j of the left block's entry (p, j) times
   the right block's entry (j, q); the left block is rows 1280 t … 1280 t + 1279 of the padded
   input and the right block is the whole weight matrix.  Hence entry (r, q) of the array is
   Σ_j x[r, j] · w[j, q]. -/
import proofs.«411933_j790273982476_2_alg».proof.Proof.KI.Region0Value
import proofs.«411933_j790273982476_2_alg».proof.Proof.KV.Payloads
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

open Idealize.ShloMosaic.ValueIdx Cert.KernelIdeal.Payloads

-- the TensorCore's buffer contents when the region is entered, at the extended reals
variable (V : (c : Dev nD) → (b : Ref sig .tc) → Buf (Elt Ideal) ((c : Thread nD τ).loc b))

/-! ## The product, entry by entry -/

/-- The two factors as the region finds them, at their literal shapes: the padded input (10240 x 512)
    and the weight matrix (512 x 1024). -/
abbrev xarr0 (c : Dev nD) : Vec Ideal S10240x512 .bf16 := V c main_v46
abbrev warr0 (c : Dev nD) : Vec Ideal S512x1024 .bf16 := V c main_v47

/-- Entry (r, q) of their product. -/
def gemm0 (c : Dev nD) (r : Fin 10240) (q : Fin 1024) : Elt Ideal .bf16 :=
  ∑ j : Fin 512, xarr0 V c (ix2 r j) * warr0 V c (ix2 j q)

/-- The whole product as contents of the region's output array. -/
def G0 (c : Dev nD) : Vec Ideal S10240x1024 .bf16 :=
  fun i => gemm0 V c ⟨(i 0).val, (i 0).isLt⟩ ⟨(i 1).val, (i 1).isLt⟩

theorem G0_apply (c : Dev nD) (r : Fin 10240) (q : Fin 1024) : G0 V c (ix2 r q) = gemm0 V c r q := rfl

/-! ## Where the blocks sit in their arrays -/

/-- The printed index maps over the grid: at point `t` the left factor's block and the output's block
    are the `t`-th row block of their arrays, and the right factor's block is its whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the left factor's block at point `t` is row `1280 t + p` of the padded input. -/
theorem xblk0_apply (c : Dev nD) (t : Fin cfg0.N) (p : Fin 1280) (j : Fin 512) (r : Fin 10240)
    (hr : r.val = t.val * 1280 + p.val) :
    (iblk0 V c 0 t : Vec Ideal S1280x512 .bf16) (ix2 p j) = xarr0 V c (ix2 r j) := by
  obtain ⟨e0, e1, -⟩ := idx_facts0 t
  unfold iblk0
  rw [View.read_apply]
  show V c main_v46 _ = V c main_v46 _
  refine congrArg (V c main_v46) ?_
  funext a
  apply Fin.ext
  match a with
  | ⟨0, _⟩ => show win0_0.index t (0 : Fin 2) * 1280 + 1 * p.val = r.val; rw [e0, hr]; omega
  | ⟨1, _⟩ => show win0_0.index t (1 : Fin 2) * 512 + 1 * j.val = j.val; rw [e1]; omega

/-- The right factor's block at every point is the weight matrix. -/
theorem wblk0_apply (c : Dev nD) (t : Fin cfg0.N) (j : Fin 512) (q : Fin 1024) :
    (iblk0 V c 1 t : Vec Ideal S512x1024 .bf16) (ix2 j q) = warr0 V c (ix2 j q) := by
  obtain ⟨-, -, e2, e3, -⟩ := idx_facts0 t
  unfold iblk0
  rw [View.read_apply]
  show V c main_v47 _ = V c main_v47 _
  refine congrArg (V c main_v47) ?_
  funext a
  apply Fin.ext
  match a with
  | ⟨0, _⟩ => show win0_1.index t (0 : Fin 2) * 512 + 1 * j.val = j.val; rw [e2]; omega
  | ⟨1, _⟩ => show win0_1.index t (1 : Fin 2) * 1024 + 1 * q.val = q.val; rw [e3]; omega

/-! ## What each point writes back -/

/-- Entry (p, q) of the output block after point `t`: the zero block plus the product of the point's
    blocks, the rounding the identity at the extended reals — entry (1280 t + p, q) of the product. -/
theorem blk0_apply (c : Dev nD) (t : Fin cfg0.N) (p : Fin 1280) (q : Fin 1024) (r : Fin 10240)
    (hr : r.val = t.val * 1280 + p.val) :
    (outsAt0 V c t.val t.isLt).1 (ix2 p q) = gemm0 V c r q := by
  rw [out0_eq, acc0_eq]
  refine (pay3_0 _ p q).trans ?_
  refine (pay2_0 (iblk0 V c 0 t) (iblk0 V c 1 t) (k0_pay1 (F := Ideal)) p q).trans ?_
  rw [pay1_0, zero_add]
  unfold gemm0
  refine Finset.sum_congr rfl fun j _ => ?_
  rw [xblk0_apply V c t p j r hr, wblk0_apply V c t j q]

/-- What point `t` writes back is block `t` of the product. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  obtain ⟨-, -, -, -, e4, e5⟩ := idx_facts0 t
  have hN : cfg0.N = 8 := N_0
  funext y
  obtain ⟨p, q, rfl⟩ : ∃ (p : Fin 1280) (q : Fin 1024), y = ix2 p q := ⟨y 0, y 1, eq_ix2 y⟩
  have ht : t.val < 8 := hN ▸ t.isLt
  rw [View.read_apply]
  show (outsAt0 V c t.val t.isLt).1 (ix2 p q) = G0 V c (((cfg0.win 2).blk t).view.emb (ix2 p q))
  have hemb : ((cfg0.win 2).blk t).view.emb (ix2 p q) = ix2 (⟨t.val * 1280 + p.val, by omega⟩ : Fin 10240) q := by
    funext a
    apply Fin.ext
    match a with
    | ⟨0, _⟩ => show win0_2.index t (0 : Fin 2) * 1280 + 1 * p.val = t.val * 1280 + p.val; rw [e4]; omega
    | ⟨1, _⟩ => show win0_2.index t (1 : Fin 2) * 1024 + 1 * q.val = q.val; rw [e5]; omega
  rw [hemb, G0_apply]
  exact blk0_apply V c t p q _ rfl

/-! ## The cover, and the array -/

/-- An index of the output array is in point `t`'s block iff each coordinate is in the block's range. -/
theorem mem_blk0 (t : Fin cfg0.N) (i : S10240x1024.Idx) :
    i ∈ ((cfg0.win 2).blk t).view.set ↔ ∀ a : Fin 2, win0_2.index t a * S1280x1024.size a ≤ (i a).val ∧ (i a).val < win0_2.index t a * S1280x1024.size a + S1280x1024.size a := by
  show i ∈ ((View.whole main_v51).slice (win0_2.rect t)).set ↔ _
  rw [View.set_slice_whole, Rect.mem_set_unit]
  exact Iff.rfl

/-- Row `r` of the output array lies in the block of point `r / 1280`, which is written back. -/
theorem cover0 (i : S10240x1024.Idx) :
    ∃ t : Fin cfg0.N, (cfg0.win 2).flush t = true ∧ i ∈ ((cfg0.win 2).blk t).view.set := by
  have hi0 : (i 0).val < 10240 := (i 0).isLt
  have hi1 : (i 1).val < 1024 := (i 1).isLt
  have hN : cfg0.N = 8 := N_0
  have ht : (i 0).val / 1280 < cfg0.N := by rw [hN]; omega
  obtain ⟨-, -, -, -, e4, e5⟩ := idx_facts0 ⟨(i 0).val / 1280, ht⟩
  refine ⟨⟨(i 0).val / 1280, ht⟩, flush0_2 _, ?_⟩
  rw [mem_blk0]
  intro a
  match a with
  | ⟨0, _⟩ =>
    show win0_2.index ⟨(i 0).val / 1280, ht⟩ (0 : Fin 2) * 1280 ≤ (i 0).val ∧ (i 0).val < win0_2.index ⟨(i 0).val / 1280, ht⟩ (0 : Fin 2) * 1280 + 1280
    rw [e4]; dsimp only; omega
  | ⟨1, _⟩ =>
    show win0_2.index ⟨(i 0).val / 1280, ht⟩ (1 : Fin 2) * 1024 ≤ (i 1).val ∧ (i 1).val < win0_2.index ⟨(i 0).val / 1280, ht⟩ (1 : Fin 2) * 1024 + 1024
    rw [e5]; omega

/-- After the region the output array holds the product. -/
theorem arr0_eq (c : Dev nD) : (dat0 (F := Ideal) V c).arrAt 2 cfg0.N = G0 V c :=
  (dat0 V c).arrAt_eq_of_cover 2 (G0 V c) (fun t _ => flushed0_eq V c t) cover0

/-- The same at an index: entry (r, q) is the row-by-column sum over the 512 contracted positions. -/
theorem arr0_apply (c : Dev nD) (r : Fin 10240) (q : Fin 1024) :
    (dat0 (F := Ideal) V c).arrAt 2 cfg0.N (ix2 r q) = ∑ j : Fin 512, xarr0 V c (ix2 r j) * warr0 V c (ix2 j q) :=
  (congrFun (arr0_eq V c) (ix2 r q)).trans (G0_apply V c r q)

end Cert.KernelIdeal.Hand

end
-- ==== Proof.KI.Region1Value.lean ====
import proofs.«411933_j790273982476_2_alg».proof.Proof.KI.Region1
import Idealize.ShloMosaic.Lib.Pipeline.Value

/-! # Region 1: the buffers' contents as values of the three payloads

Every load and store of the body is of a whole buffer. So a load that follows a store reads that store's payload,
and the last store alone decides what a buffer ends with. Read this way the pieces the body's runs found are:
where `k = 0` the accumulator ends at the blocks' product added to zeros; at every other point at the product
added to what it held; and where `k = 7` the output's buffer ends at the closing payload of that sum, the bias
row and the second weight matrix. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the found pieces are: the three payloads

Every load and store of the body is of a whole buffer, through the rectangle at zero offsets of the buffer's own
extents: such a load reads the contents, one such store leaves its payload, and a later such store hides an earlier. -/

/-- The zero offsets. -/
theorem hz1 : (![0, 0] : Fin 2 → Nat) = fun _ => 0 := funext fun a => by fin_cases a <;> rfl

/-- Where `k = 0` the accumulator ends at the product added to ZEROS: the zeroing store is read back by the sum. -/
theorem sout1_A_0_eq (c : Dev nD) (i : grid1.Coords) (arg3 : Memref sig .tc .vmem S1280x1280 .bf16) (harg3 : arg3.IsWhole) (arg4 : Memref sig .tc .vmem S1280x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1280x512 .bf16) (harg7 : arg7.IsWhole) (arg8 : Memref sig .tc .vmem S1280x1024 .f32) (harg8 : arg8.IsWhole) (hc0 : cond1_0 i) (hc1 : ¬cond1_1 i)
    (x0 : Vec F S1280x1280 .bf16) (x1 : Vec F S1280x1024 .bf16) :
    sout1_A_0 c i arg3 harg3 arg4 harg4 arg5 harg5 arg6 harg6 arg7 harg7 arg8 harg8 hc0 hc1 x0 x1 = k1_pay2 x0 x1 (k1_pay1 (F := F)) := by
  unfold sout1_A_0
  rw [View.read_writes_eq_canon _ _ _ (scover1_A_0 c i arg3 harg3 arg4 harg4 arg5 harg5 arg6 harg6 arg7 harg7 arg8 harg8 hc0 hc1 x0 x1)]
  unfold kernelRun1_A
  dsimp only
  sl_unfold_words
  rw [View.canon_cons_unit_zero (S := S1280x1024) hz1, View.readCov_unit_zero (S := S1280x1024) _ hz1]
  simp only [View.readAt_eq_ld, harg3.read_unread, harg4.read_unread, View.ld_unit_zero (S := S1280x1280) hz1, View.ld_unit_zero (S := S1280x1024) hz1]

/-- Where `0 < k < 7` it ends at the product added to what it held. -/
theorem sout1_B_0_eq (c : Dev nD) (i : grid1.Coords) (arg3 : Memref sig .tc .vmem S1280x1280 .bf16) (harg3 : arg3.IsWhole) (arg4 : Memref sig .tc .vmem S1280x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1280x512 .bf16) (harg7 : arg7.IsWhole) (arg8 : Memref sig .tc .vmem S1280x1024 .f32) (harg8 : arg8.IsWhole) (hc0 : ¬cond1_0 i) (hc1 : ¬cond1_1 i)
    (x0 : Vec F S1280x1280 .bf16) (x1 : Vec F S1280x1024 .bf16) (xs0 : Vec F S1280x1024 .f32) :
    sout1_B_0 c i arg3 harg3 arg4 harg4 arg5 harg5 arg6 harg6 arg7 harg7 arg8 harg8 hc0 hc1 x0 x1 xs0 = k1_pay2 x0 x1 xs0 := by
  unfold sout1_B_0
  rw [View.read_writes_eq_canon _ _ _ (scover1_B_0 c i arg3 harg3 arg4 harg4 arg5 harg5 arg6 harg6 arg7 harg7 arg8 harg8 hc0 hc1 x0 x1 xs0)]
  unfold kernelRun1_B
  dsimp only
  sl_unfold_words
  rw [View.canon_unit_zero (S := S1280x1024) hz1]
  simp only [View.readAt_eq_ld, harg3.read_unread, harg4.read_unread, harg8.read_unread, View.ld_unit_zero (S := S1280x1280) hz1, View.ld_unit_zero (S := S1280x1024) hz1]

/-- Where `k = 7` likewise; -/
theorem sout1_C_0_eq (c : Dev nD) (i : grid1.Coords) (arg3 : Memref sig .tc .vmem S1280x1280 .bf16) (harg3 : arg3.IsWhole) (arg4 : Memref sig .tc .vmem S1280x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1280x512 .bf16) (harg7 : arg7.IsWhole) (arg8 : Memref sig .tc .vmem S1280x1024 .f32) (harg8 : arg8.IsWhole) (hc0 : ¬cond1_0 i) (hc1 : cond1_1 i)
    (x0 : Vec F S1280x1280 .bf16) (x1 : Vec F S1280x1024 .bf16) (x2 : Vec F S1x1024 .f32) (x3 : Vec F S1024x512 .bf16) (xs0 : Vec F S1280x1024 .f32) :
    sout1_C_0 c i arg3 harg3 arg4 harg4 arg5 harg5 arg6 harg6 arg7 harg7 arg8 harg8 hc0 hc1 x0 x1 x2 x3 xs0 = k1_pay2 x0 x1 xs0 := by
  unfold sout1_C_0
  rw [View.read_writes_eq_canon _ _ _ (scover1_C_0 c i arg3 harg3 arg4 harg4 arg5 harg5 arg6 harg6 arg7 harg7 arg8 harg8 hc0 hc1 x0 x1 x2 x3 xs0)]
  unfold kernelRun1_C
  dsimp only
  sl_unfold_words
  rw [View.canon_unit_zero (S := S1280x1024) hz1]
  simp only [View.readAt_eq_ld, harg3.read_unread, harg4.read_unread, harg8.read_unread, View.ld_unit_zero (S := S1280x1280) hz1, View.ld_unit_zero (S := S1280x1024) hz1]

/-- and the output's buffer ends at the third payload of that sum (read back from the accumulator), the bias row
    and the second weight matrix. -/
theorem out1_C_4_eq (c : Dev nD) (i : grid1.Coords) (arg3 : Memref sig .tc .vmem S1280x1280 .bf16) (harg3 : arg3.IsWhole) (arg4 : Memref sig .tc .vmem S1280x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1280x512 .bf16) (harg7 : arg7.IsWhole) (arg8 : Memref sig .tc .vmem S1280x1024 .f32) (harg8 : arg8.IsWhole) (hc0 : ¬cond1_0 i) (hc1 : cond1_1 i)
    (x0 : Vec F S1280x1280 .bf16) (x1 : Vec F S1280x1024 .bf16) (x2 : Vec F S1x1024 .f32) (x3 : Vec F S1024x512 .bf16) (xs0 : Vec F S1280x1024 .f32) :
    out1_C_4 c i arg3 harg3 arg4 harg4 arg5 harg5 arg6 harg6 arg7 harg7 arg8 harg8 hc0 hc1 x0 x1 x2 x3 xs0 = k1_pay3 (sout1_C_0 c i arg3 harg3 arg4 harg4 arg5 harg5 arg6 harg6 arg7 harg7 arg8 harg8 hc0 hc1 x0 x1 x2 x3 xs0) x2 x3 := by
  rw [sout1_C_0_eq c i arg3 harg3 arg4 harg4 arg5 harg5 arg6 harg6 arg7 harg7 arg8 harg8 hc0 hc1 x0 x1 x2 x3 xs0]
  unfold out1_C_4
  rw [View.read_writes_eq_canon _ _ _ (cover1_C_4 c i arg3 harg3 arg4 harg4 arg5 harg5 arg6 harg6 arg7 harg7 arg8 harg8 hc0 hc1 x0 x1 x2 x3 xs0)]
  unfold kernelRun1_C
  dsimp only
  sl_unfold_words
  rw [View.canon_unit_zero (S := S1280x512) hz1, View.readCov_unit_zero (S := S1280x1024) _ hz1]
  simp only [View.readAt_eq_ld, harg3.read_unread, harg4.read_unread, harg5.read_unread, harg6.read_unread, harg8.read_unread, View.ld_unit_zero (S := S1280x1280) hz1, View.ld_unit_zero (S := S1280x1024) hz1, View.ld_unit_zero (S := S1x1024) hz1, View.ld_unit_zero (S := S1024x512) hz1]

section Region

-- the TensorCore's buffer contents when the region is entered
variable (V : (c : Dev nD) → (b : Ref sig .tc) → Buf (Elt F) ((c : Thread nD τ).loc b))

/-! ## The accumulation in terms of the payloads -/

/-- At a point with `k = 0` the accumulator ends at the blocks' product added to zeros. -/
theorem acc1_first (c : Dev nD) (t : Fin cfg1.N) (h : t.val % 8 = 0) :
    (outsAt1 V c t.val t.isLt).2 = k1_pay2 (iblk1 V c 0 t) (iblk1 V c 1 t) (k1_pay1 (F := F)) := by
  rw [outsAt1_A V c t h]; dsimp only
  unfold accA1
  exact sout1_A_0_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (hc1_z0 t h) (hc1_z1 t h) (iblk1 V c 0 t) (iblk1 V c 1 t)

/-- At any other point it ends at the blocks' product added to what the point before left. -/
theorem acc1_next (c : Dev nD) (t : Fin cfg1.N) (h : ¬t.val % 8 = 0) :
    (outsAt1 V c t.val t.isLt).2 = k1_pay2 (iblk1 V c 0 t) (iblk1 V c 1 t) (outsAt1 V c (t.val - 1) (Nat.lt_of_le_of_lt (Nat.sub_le _ _) t.isLt)).2 := by
  by_cases h1 : t.val % 8 = 7
  · rw [outsAt1_C V c t h h1]; dsimp only
    unfold accC1
    exact sout1_C_0_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (hc1_s0 t h1) (hc1_s1 t h1) (iblk1 V c 0 t) (iblk1 V c 1 t) (iblk1 V c 2 t) (iblk1 V c 3 t) (outsAt1 V c (t.val - 1) (Nat.lt_of_le_of_lt (Nat.sub_le _ _) t.isLt)).2
  · rw [outsAt1_B V c t h h1]; dsimp only
    unfold accB1
    exact sout1_B_0_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (hc1_n0 t h) (hc1_n1 t h1) (iblk1 V c 0 t) (iblk1 V c 1 t) (outsAt1 V c (t.val - 1) (Nat.lt_of_le_of_lt (Nat.sub_le _ _) t.isLt)).2

/-- At a point with `k = 7` the output's buffer ends at the third payload of the accumulator as the point leaves it,
    the bias row and the second weight matrix. -/
theorem out1_last (c : Dev nD) (t : Fin cfg1.N) (h : t.val % 8 = 7) :
    (outsAt1 V c t.val t.isLt).1 = k1_pay3 (outsAt1 V c t.val t.isLt).2 (iblk1 V c 2 t) (iblk1 V c 3 t) := by
  have h0 : ¬t.val % 8 = 0 := by omega
  rw [outsAt1_C V c t h0 h]; dsimp only
  unfold outC1 accC1
  exact out1_C_4_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (hc1_s0 t h) (hc1_s1 t h) (iblk1 V c 0 t) (iblk1 V c 1 t) (iblk1 V c 2 t) (iblk1 V c 3 t) (outsAt1 V c (t.val - 1) (Nat.lt_of_le_of_lt (Nat.sub_le _ _) t.isLt)).2

end Region

end Cert.KernelIdeal.Hand

end
-- ==== Proof.LibBlockSum.lean ====
/- Two general facts about finite sums in a commutative additive monoid.

   A sum over an index range of length `K * B` is the sum over its `K` consecutive blocks of
   length `B` of the sums within the blocks; and a sequence of partial sums that starts from a
   given element `z` at its first step is `z` plus the sum of the terms so far. -/
import Mathlib.Algebra.BigOperators.Fin
import Mathlib.Algebra.BigOperators.Group.Finset.Sigma
import Mathlib.Data.Fintype.Prod
import Mathlib.Logic.Equiv.Fin.Basic
import Mathlib.Tactic.Ring

namespace Cert.LibBlockSum

open Finset

/-- The `j`-th position of the `k`-th block of length `B`, among `K` blocks, is a position below `K * B`. -/
theorem blockIdx_lt {K B : ℕ} (k : Fin K) (j : Fin B) : k.val * B + j.val < K * B :=
  calc k.val * B + j.val < k.val * B + B := Nat.add_lt_add_left j.isLt _
    _ = (k.val + 1) * B := (Nat.succ_mul _ _).symm
    _ ≤ K * B := Nat.mul_le_mul_right _ k.isLt

/-- A sum over `K * B` consecutive positions, block by block: position `k * B + j` is the `j`-th of
    block `k`, and every position is met exactly once. -/
theorem sum_blocks {M : Type*} [AddCommMonoid M] (K B : ℕ) (f : Fin (K * B) → M) :
    ∑ s : Fin (K * B), f s = ∑ k : Fin K, ∑ j : Fin B, f ⟨k.val * B + j.val, blockIdx_lt k j⟩ := by
  rw [← Finset.sum_product' (Finset.univ : Finset (Fin K)) (Finset.univ : Finset (Fin B))
    (fun k j => f ⟨k.val * B + j.val, blockIdx_lt k j⟩), Finset.univ_product_univ]
  exact (Fintype.sum_equiv finProdFinEquiv
    (fun p : Fin K × Fin B => f ⟨p.1.val * B + p.2.val, blockIdx_lt p.1 p.2⟩) f
    (fun p => congrArg f (Fin.ext (by
      show p.1.val * B + p.2.val = p.2.val + B * p.1.val
      ring)))).symm

/-- The same for a function of a natural number read at the positions' values. -/
theorem sum_blocks_val {M : Type*} [AddCommMonoid M] (K B : ℕ) (f : ℕ → M) :
    ∑ s : Fin (K * B), f s.val = ∑ k : Fin K, ∑ j : Fin B, f (k.val * B + j.val) :=
  sum_blocks K B fun s => f s.val

/-- A running sum that is RESET at its first step — it starts as `z + g 0` and each later step adds
    the step's term — is, after step `n`, `z` plus the sum of the terms of the steps `0, …, n`. -/
theorem fold_reset {M : Type*} [AddCommMonoid M] (z : M) (g a : ℕ → M) (h0 : a 0 = z + g 0)
    (hs : ∀ n, a (n + 1) = a n + g (n + 1)) (n : ℕ) :
    a n = z + ∑ k ∈ Finset.range (n + 1), g k := by
  induction n with
  | zero => rw [h0, Finset.sum_range_one]
  | succ n ih => rw [hs, ih, Finset.sum_range_succ _ (n + 1), add_assoc]

/-- The same for a running sum that only has `N` steps: the recurrence is asked below `N` only. -/
theorem fold_reset_lt {M : Type*} [AddCommMonoid M] (N : ℕ) (z : M) (g a : ℕ → M) (h0 : a 0 = z + g 0)
    (hs : ∀ n, n + 1 < N → a (n + 1) = a n + g (n + 1)) (n : ℕ) (hn : n < N) :
    a n = z + ∑ k ∈ Finset.range (n + 1), g k := by
  induction n with
  | zero => rw [h0, Finset.sum_range_one]
  | succ n ih => rw [hs n hn, ih (Nat.lt_of_succ_lt hn), Finset.sum_range_succ _ (n + 1), add_assoc]

/-- The sum of the first `n + 1` terms, over the steps as a finite type. -/
theorem sum_range_eq_sum_fin {M : Type*} [AddCommMonoid M] (g : ℕ → M) (n : ℕ) :
    ∑ k ∈ Finset.range n, g k = ∑ k : Fin n, g k.val :=
  (Fin.sum_univ_eq_sum_range g n).symm

/-- The reset running sum after its last step `N - 1` of `N ≥ 1`: `z` plus the sum over all `N` steps. -/
theorem fold_reset_last {M : Type*} [AddCommMonoid M] (N : ℕ) (z : M) (g a : ℕ → M) (h0 : a 0 = z + g 0)
    (hs : ∀ n, n + 1 < N + 1 → a (n + 1) = a n + g (n + 1)) :
    a N = z + ∑ k : Fin (N + 1), g k.val := by
  rw [fold_reset_lt (N + 1) z g a h0 hs N (Nat.lt_succ_self N), sum_range_eq_sum_fin]

end Cert.LibBlockSum
-- ==== Proof.KV.Array1.lean ====
import proofs.«411933_j790273982476_2_alg».proof.Proof.KI.Region1Value
import proofs.«411933_j790273982476_2_alg».proof.Proof.KV.Payloads
import proofs.«411933_j790273982476_2_alg».proof.Proof.LibBlockSum
import Idealize.ShloMosaic.Lib.ValueIdx
import Idealize.ShloMosaic.Lib.Pipeline.Value

/-! # Region 1 at the extended reals: the output array, entry by entry

The region reads four arrays: the normalized adjacency `A` (10240 × 10240), the first layer's pre-activation `H`
(10240 × 1024), a bias row `b` (1 × 1024) and the second weight matrix `W` (1024 × 512). Its grid has eight rows of
eight points; point `8 i + k` reads block `(i, k)` of `A` and row block `k` of `H`.

Along a row of the grid the accumulator runs through the partial sums of a block product: after point `8 i + n` its
entry `(p, j)` is `Σ_{k ≤ n} Σ_{s < 1280} A (1280 i + p, 1280 k + s) · H (1280 k + s, j)` — the first point starts from
zeros, each later one adds its block's share. At `n = 7` the eight blocks of 1280 columns are the 10240 columns, and
the point writes back, as row block `i` of the output,
`Σ_j max ((A H) (1280 i + p, j) + b (0, j), 0) · W (j, q)`.
The eight row blocks fill the output, so that is what every entry of the output array holds after the region. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

-- the TensorCore's buffer contents when the region is entered
variable (V : (c : Dev nD) → (b : Ref sig .tc) → Buf (Elt Ideal) ((c : Thread nD τ).loc b))

/-! ## The arrays and the blocks, at their literal shapes -/

/-- The four arrays the region reads, as it finds them: the normalized adjacency (10240 × 10240), the first
    layer's pre-activation (10240 × 1024), the bias row (1 × 1024), the second weight matrix (1024 × 512). -/
abbrev adjArr1 (c : Dev nD) : Vec Ideal S10240x10240 .bf16 := V c main_v44
abbrev hidArr1 (c : Dev nD) : Vec Ideal S10240x1024 .bf16 := V c main_v51
abbrev biasArr1 (c : Dev nD) : Vec Ideal S1x1024 .f32 := V c main_v49
abbrev w2Arr1 (c : Dev nD) : Vec Ideal S1024x512 .bf16 := V c main_v48
/-- Their blocks at a point. -/
abbrev adjBlk1 (c : Dev nD) (t : Fin cfg1.N) : Vec Ideal S1280x1280 .bf16 := iblk1 V c 0 t
abbrev hidBlk1 (c : Dev nD) (t : Fin cfg1.N) : Vec Ideal S1280x1024 .bf16 := iblk1 V c 1 t
abbrev biasBlk1 (c : Dev nD) (t : Fin cfg1.N) : Vec Ideal S1x1024 .f32 := iblk1 V c 2 t
abbrev w2Blk1 (c : Dev nD) (t : Fin cfg1.N) : Vec Ideal S1024x512 .bf16 := iblk1 V c 3 t

/-- The adjacency and the pre-activation read at natural-number coordinates (zero outside): sums over blocks of
    columns are then sums over ranges of naturals. -/
def adjN1 (c : Dev nD) (r s : ℕ) : EReal := if h : r < 10240 ∧ s < 10240 then adjArr1 V c (ix2 ⟨r, h.1⟩ ⟨s, h.2⟩) else 0
def hidN1 (c : Dev nD) (s j : ℕ) : EReal := if h : s < 10240 ∧ j < 1024 then hidArr1 V c (ix2 ⟨s, h.1⟩ ⟨j, h.2⟩) else 0

/-! ## Where the blocks sit: the index maps, decided over the grid

Point `t` is `(i, k) = (t / 8, t mod 8)`: the adjacency's block is `(i, k)`, the pre-activation's `(k, 0)`, the bias
row and the weight matrix are whole, and the output's block is `(i, 0)`. -/
theorem idx_facts1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 8 ∧ win1_4.index t (1 : Fin 2) = 0 :=
  (by decide +kernel : ∀ t : Fin grid1.N, _)

/-- An entry of the adjacency's block at a point is the array's entry at the block's offsets. -/
theorem adjBlk1_apply (c : Dev nD) (t : Fin cfg1.N) (p s : Fin 1280) :
    adjBlk1 V c t (ix2 p s) = adjN1 V c (t.val / 8 * 1280 + p.val) (t.val % 8 * 1280 + s.val) := by
  obtain ⟨e0, e1, -⟩ := idx_facts1 t
  have hN : t.val < 64 := lt_of_lt_of_eq t.isLt N_1
  have hp := p.isLt
  have hs := s.isLt
  have hr : t.val / 8 * 1280 + p.val < 10240 := by omega
  have hc : t.val % 8 * 1280 + s.val < 10240 := by omega
  unfold adjN1; rw [dif_pos ⟨hr, hc⟩]
  show V c main_v44 (((cfg1.win 0).blk t).view.emb (ix2 p s)) = V c main_v44 (ix2 ⟨_, hr⟩ ⟨_, hc⟩)
  refine congrArg (V c main_v44) ?_
  funext a; apply Fin.ext
  match a with
  | ⟨0, _⟩ => show win1_0.index t (0 : Fin 2) * 1280 + 1 * p.val = t.val / 8 * 1280 + p.val; rw [e0]; omega
  | ⟨1, _⟩ => show win1_0.index t (1 : Fin 2) * 1280 + 1 * s.val = t.val % 8 * 1280 + s.val; rw [e1]; omega

/-- The same with the point's row block `i` and column block `k` named. -/
theorem adjBlk1_at (c : Dev nD) (t : Fin cfg1.N) (i k : ℕ) (hi : t.val / 8 = i) (hk : t.val % 8 = k) (p s : Fin 1280) :
    adjBlk1 V c t (ix2 p s) = adjN1 V c (i * 1280 + p.val) (k * 1280 + s.val) := by
  subst hi hk; exact adjBlk1_apply V c t p s

/-- An entry of the pre-activation's block: row block `k`, all 1024 columns. -/
theorem hidBlk1_at (c : Dev nD) (t : Fin cfg1.N) (k : ℕ) (hk : t.val % 8 = k) (s : Fin 1280) (j : Fin 1024) :
    hidBlk1 V c t (ix2 s j) = hidN1 V c (k * 1280 + s.val) j.val := by
  subst hk
  obtain ⟨-, -, e2, e3, -⟩ := idx_facts1 t
  have hN : t.val < 64 := lt_of_lt_of_eq t.isLt N_1
  have hs := s.isLt
  have hj := j.isLt
  have hr : t.val % 8 * 1280 + s.val < 10240 := by omega
  unfold hidN1; rw [dif_pos ⟨hr, hj⟩]
  show V c main_v51 (((cfg1.win 1).blk t).view.emb (ix2 s j)) = V c main_v51 (ix2 ⟨_, hr⟩ ⟨_, hj⟩)
  refine congrArg (V c main_v51) ?_
  funext a; apply Fin.ext
  match a with
  | ⟨0, _⟩ => show win1_1.index t (0 : Fin 2) * 1280 + 1 * s.val = t.val % 8 * 1280 + s.val; rw [e2]; omega
  | ⟨1, _⟩ => show win1_1.index t (1 : Fin 2) * 1024 + 1 * j.val = j.val; rw [e3]; omega

/-- The bias row's block is the row. -/
theorem biasBlk1_apply (c : Dev nD) (t : Fin cfg1.N) (j : Fin 1024) :
    biasBlk1 V c t (ix2 (0 : Fin 1) j) = biasArr1 V c (ix2 (0 : Fin 1) j) := by
  obtain ⟨-, -, -, -, e4, e5, -⟩ := idx_facts1 t
  show V c main_v49 (((cfg1.win 2).blk t).view.emb (ix2 (0 : Fin 1) j)) = V c main_v49 (ix2 (0 : Fin 1) j)
  refine congrArg (V c main_v49) ?_
  funext a; apply Fin.ext
  match a with
  | ⟨0, _⟩ => show win1_2.index t (0 : Fin 2) * 1 + 1 * 0 = 0; rw [e4]
  | ⟨1, _⟩ => show win1_2.index t (1 : Fin 2) * 1024 + 1 * j.val = j.val; rw [e5]; omega

/-- The weight matrix's block is the matrix. -/
theorem w2Blk1_apply (c : Dev nD) (t : Fin cfg1.N) (j : Fin 1024) (q : Fin 512) :
    w2Blk1 V c t (ix2 j q) = w2Arr1 V c (ix2 j q) := by
  obtain ⟨-, -, -, -, -, -, e6, e7, -⟩ := idx_facts1 t
  show V c main_v48 (((cfg1.win 3).blk t).view.emb (ix2 j q)) = V c main_v48 (ix2 j q)
  refine congrArg (V c main_v48) ?_
  funext a; apply Fin.ext
  match a with
  | ⟨0, _⟩ => show win1_3.index t (0 : Fin 2) * 1024 + 1 * j.val = j.val; rw [e6]; omega
  | ⟨1, _⟩ => show win1_3.index t (1 : Fin 2) * 512 + 1 * q.val = q.val; rw [e7]; omega

/-! ## The accumulator along a row of eight points

After point `8 i + n` the accumulator's entry `(p, j)` is the sum, over the first `n + 1` column blocks `k`, of the
products along the block: the entry `(1280 i + p, j)` of the product of the adjacency's first `1280 (n + 1)` columns
with the pre-activation's first `1280 (n + 1)` rows. The zeros the first point starts from add nothing. -/

/-- Point `8 i + n` of the grid. -/
theorem pt1_lt (i : Fin 8) (n : ℕ) (hn : n < 8) : 8 * i.val + n < cfg1.N := by
  have hN : cfg1.N = 64 := N_1
  have := i.isLt
  omega

/-- Column block `k`'s share of entry `(r, j)` of the product. -/
def term1 (c : Dev nD) (r j k : ℕ) : EReal := ∑ s : Fin 1280, adjN1 V c r (k * 1280 + s.val) * hidN1 V c (k * 1280 + s.val) j

theorem outsAt1_congr (c : Dev nD) {n n' : ℕ} (e : n = n') (h : n < cfg1.N) (h' : n' < cfg1.N) :
    outsAt1 V c n h = outsAt1 V c n' h' := by subst e; rfl

theorem acc1_apply (c : Dev nD) (i : Fin 8) (p : Fin 1280) (j : Fin 1024) : ∀ (n : ℕ) (hn : n < 8),
    (outsAt1 V c (8 * i.val + n) (pt1_lt i n hn)).2 (ix2 p j)
      = ∑ k ∈ Finset.range (n + 1), term1 V c (i.val * 1280 + p.val) j.val k
  | 0, hn => by
    have hi := i.isLt
    have h0 : (8 * i.val + 0) % 8 = 0 := by omega
    have hq : (8 * i.val + 0) / 8 = i.val := by omega
    refine (congrFun (acc1_first V c ⟨8 * i.val + 0, pt1_lt i 0 hn⟩ h0) (ix2 p j)).trans ?_
    refine (Payloads.pay2_1 (adjBlk1 V c ⟨8 * i.val + 0, pt1_lt i 0 hn⟩) (hidBlk1 V c ⟨8 * i.val + 0, pt1_lt i 0 hn⟩) (k1_pay1 (F := Ideal)) p j).trans ?_
    rw [Payloads.pay1_1, zero_add, Finset.sum_range_one]
    unfold term1
    exact Finset.sum_congr rfl fun s _ => congrArg₂ (· * ·)
      (adjBlk1_at V c ⟨8 * i.val + 0, pt1_lt i 0 hn⟩ i.val 0 hq h0 p s)
      (hidBlk1_at V c ⟨8 * i.val + 0, pt1_lt i 0 hn⟩ 0 h0 s j)
  | n + 1, hn => by
    have hi := i.isLt
    have h0 : ¬(8 * i.val + (n + 1)) % 8 = 0 := by omega
    have hk : (8 * i.val + (n + 1)) % 8 = n + 1 := by omega
    have hq : (8 * i.val + (n + 1)) / 8 = i.val := by omega
    have hprev : (outsAt1 V c (8 * i.val + (n + 1) - 1) (Nat.lt_of_le_of_lt (Nat.sub_le _ _) (pt1_lt i (n + 1) hn))).2
        = (outsAt1 V c (8 * i.val + n) (pt1_lt i n (Nat.lt_of_succ_lt hn))).2 :=
      congrArg Prod.snd (outsAt1_congr V c (by omega) _ _)
    refine (congrFun (acc1_next V c ⟨8 * i.val + (n + 1), pt1_lt i (n + 1) hn⟩ h0) (ix2 p j)).trans ?_
    refine (Payloads.pay2_1 (adjBlk1 V c ⟨8 * i.val + (n + 1), pt1_lt i (n + 1) hn⟩) (hidBlk1 V c ⟨8 * i.val + (n + 1), pt1_lt i (n + 1) hn⟩)
      (outsAt1 V c (8 * i.val + (n + 1) - 1) (Nat.lt_of_le_of_lt (Nat.sub_le _ _) (pt1_lt i (n + 1) hn))).2 p j).trans ?_
    rw [Finset.sum_range_succ _ (n + 1)]
    refine congrArg₂ (· + ·) ((congrFun hprev (ix2 p j)).trans (acc1_apply c i p j n (Nat.lt_of_succ_lt hn))) ?_
    unfold term1
    exact Finset.sum_congr rfl fun s _ => congrArg₂ (· * ·)
      (adjBlk1_at V c ⟨8 * i.val + (n + 1), pt1_lt i (n + 1) hn⟩ i.val (n + 1) hq hk p s)
      (hidBlk1_at V c ⟨8 * i.val + (n + 1), pt1_lt i (n + 1) hn⟩ (n + 1) hk s j)

/-! ## The row block that is written back

At the last point of a row the eight column blocks are all in: the accumulator's entry is the full product's. -/

theorem acc1_last (c : Dev nD) (i : Fin 8) (p : Fin 1280) (j : Fin 1024) (hr : i.val * 1280 + p.val < 10240) :
    (outsAt1 V c (8 * i.val + 7) (pt1_lt i 7 (by omega))).2 (ix2 p j)
      = ∑ s : Fin 10240, adjArr1 V c (ix2 ⟨i.val * 1280 + p.val, hr⟩ s) * hidArr1 V c (ix2 s j) := by
  rw [acc1_apply V c i p j 7 (by omega), Cert.LibBlockSum.sum_range_eq_sum_fin]
  unfold term1
  refine (Cert.LibBlockSum.sum_blocks_val 8 1280
    (fun x => adjN1 V c (i.val * 1280 + p.val) x * hidN1 V c x j.val)).symm.trans ?_
  refine Finset.sum_congr rfl fun s _ => ?_
  have hs : s.val < 10240 := s.isLt
  unfold adjN1 hidN1
  rw [dif_pos ⟨hr, hs⟩, dif_pos ⟨hs, j.isLt⟩]

/-- Entry `(r, q)` of what the region computes: the row of the product plus the bias, cut below at zero, times the
    second weight matrix's column. -/
def out1 (c : Dev nD) (r : Fin 10240) (q : Fin 512) : EReal :=
  ∑ j : Fin 1024, max ((∑ s : Fin 10240, adjArr1 V c (ix2 r s) * hidArr1 V c (ix2 s j)) + biasArr1 V c (ix2 (0 : Fin 1) j)) 0 * w2Arr1 V c (ix2 j q)

/-- The whole output array as one function of the four arrays. -/
abbrev G1 (c : Dev nD) : Vec Ideal S10240x512 .bf16 := fun i => out1 V c ⟨(i 0).val, idx2_lt0 i⟩ ⟨(i 1).val, idx2_lt1 i⟩

/-- What a point with `k = 7` leaves in the output's buffer, entry by entry. -/
theorem outBlk1_apply (c : Dev nD) (t : Fin cfg1.N) (h : t.val % 8 = 7) (p : Fin 1280) (q : Fin 512)
    (hr : t.val / 8 * 1280 + p.val < 10240) :
    (outsAt1 V c t.val t.isLt).1 (ix2 p q) = out1 V c ⟨t.val / 8 * 1280 + p.val, hr⟩ q := by
  have hN : t.val < 64 := lt_of_lt_of_eq t.isLt N_1
  have hi : t.val / 8 < 8 := by omega
  have ht : 8 * (t.val / 8) + 7 = t.val := by omega
  refine (congrFun (out1_last V c t h) (ix2 p q)).trans ?_
  refine (Payloads.pay3_1 (outsAt1 V c t.val t.isLt).2 (biasBlk1 V c t) (w2Blk1 V c t) p q).trans ?_
  unfold out1
  refine Finset.sum_congr rfl fun j _ => ?_
  have hacc : (outsAt1 V c t.val t.isLt).2 (ix2 p j)
      = ∑ s : Fin 10240, adjArr1 V c (ix2 ⟨t.val / 8 * 1280 + p.val, hr⟩ s) * hidArr1 V c (ix2 s j) :=
    (congrFun (congrArg Prod.snd (outsAt1_congr V c ht.symm t.isLt (pt1_lt ⟨t.val / 8, hi⟩ 7 (by omega)))) (ix2 p j)).trans
      (acc1_last V c ⟨t.val / 8, hi⟩ p j hr)
  rw [hacc, biasBlk1_apply V c t j, w2Blk1_apply V c t j q]

/-- What such a point writes back is its block of that function. -/
theorem flushed1_eq (c : Dev nD) (t : Fin cfg1.N) (h : t.val % 8 = 7) :
    (dat1 (F := Ideal) V c).flushed 4 t = ((cfg1.win 4).blk t).view.read (Elt Ideal) (G1 V c) := by
  show (cfg1.win 4).cut (grid1.coords t) ((dat1 (F := Ideal) V c).after 4 t) = _
  rw [after1_4]
  obtain ⟨-, -, -, -, -, -, -, -, e8, e9⟩ := idx_facts1 t
  have hN : t.val < 64 := lt_of_lt_of_eq t.isLt N_1
  funext y
  obtain ⟨p, q, rfl⟩ : ∃ (p : Fin 1280) (q : Fin 512), y = ix2 p q := ⟨y 0, y 1, eq_ix2 y⟩
  have hp := p.isLt
  have hr : t.val / 8 * 1280 + p.val < 10240 := by omega
  show (outsAt1 V c t.val t.isLt).1 (ix2 p q) = G1 V c (((cfg1.win 4).blk t).view.emb (ix2 p q))
  refine (outBlk1_apply V c t h p q hr).trans ?_
  exact congrArg₂ (out1 V c)
    (Fin.ext (by show t.val / 8 * 1280 + p.val = win1_4.index t (0 : Fin 2) * 1280 + 1 * p.val; rw [e8]; omega))
    (Fin.ext (by show q.val = win1_4.index t (1 : Fin 2) * 512 + 1 * q.val; rw [e9]; omega))

/-! ## The eight row blocks fill the array -/

/-- An index is in a point's block iff each coordinate is in the block's range on its axis. -/
theorem mem_blk1 (t : Fin cfg1.N) (i : S10240x512.Idx) :
    i ∈ ((cfg1.win 4).blk t).view.set ↔ ∀ a : Fin 2, win1_4.index t a * S1280x512.size a ≤ (i a).val ∧ (i a).val < win1_4.index t a * S1280x512.size a + S1280x512.size a := by
  show i ∈ ((View.whole main_v52).slice (win1_4.rect t)).set ↔ _
  rw [View.set_slice_whole, Rect.mem_set_unit]
  exact Iff.rfl

/-- Row `r` lies in row block `r / 1280`, written back at the last point of that block's row of the grid. -/
theorem cover1 (i : S10240x512.Idx) :
    ∃ t : Fin cfg1.N, (cfg1.win 4).flush t = true ∧ i ∈ ((cfg1.win 4).blk t).view.set := by
  have hi0 : (i 0).val < 10240 := idx2_lt0 i
  have hi1 : (i 1).val < 512 := idx2_lt1 i
  have hN : cfg1.N = 64 := N_1
  have htlt : 8 * ((i 0).val / 1280) + 7 < cfg1.N := by omega
  refine ⟨⟨8 * ((i 0).val / 1280) + 7, htlt⟩, (flush1_4 _).mpr (by show (8 * ((i 0).val / 1280) + 7) % 8 = 7; omega), ?_⟩
  obtain ⟨-, -, -, -, -, -, -, -, e8, e9⟩ := idx_facts1 ⟨8 * ((i 0).val / 1280) + 7, htlt⟩
  have e8' : win1_4.index ⟨8 * ((i 0).val / 1280) + 7, htlt⟩ (0 : Fin 2) = (8 * ((i 0).val / 1280) + 7) / 8 := e8
  rw [mem_blk1]
  intro a
  match a with
  | ⟨0, _⟩ =>
    show win1_4.index ⟨8 * ((i 0).val / 1280) + 7, htlt⟩ (0 : Fin 2) * 1280 ≤ (i 0).val ∧ (i 0).val < win1_4.index ⟨8 * ((i 0).val / 1280) + 7, htlt⟩ (0 : Fin 2) * 1280 + 1280
    rw [e8']; omega
  | ⟨1, _⟩ =>
    show win1_4.index ⟨8 * ((i 0).val / 1280) + 7, htlt⟩ (1 : Fin 2) * 512 ≤ (i 1).val ∧ (i 1).val < win1_4.index ⟨8 * ((i 0).val / 1280) + 7, htlt⟩ (1 : Fin 2) * 512 + 512
    rw [e9]; omega

/-! ## The array after the region -/

/-- The output array, as the region leaves it, at its literal shape. -/
abbrev outArr1 (c : Dev nD) : Vec Ideal S10240x512 .bf16 := (dat1 (F := Ideal) V c).arrAt 4 cfg1.N

theorem arr1_eq (c : Dev nD) : (dat1 (F := Ideal) V c).arrAt 4 cfg1.N = G1 V c :=
  (dat1 (F := Ideal) V c).arrAt_eq_of_cover 4 (G1 V c) (fun t hf => flushed1_eq V c t ((flush1_4 t).mp hf)) cover1

/-- Entry `(r, q)` of the output array after the region. -/
theorem arr1_apply (c : Dev nD) (r : Fin 10240) (q : Fin 512) :
    outArr1 V c (ix2 r q)
      = ∑ j : Fin 1024, max ((∑ s : Fin 10240, adjArr1 V c (ix2 r s) * hidArr1 V c (ix2 s j)) + biasArr1 V c (ix2 (0 : Fin 1) j)) 0 * w2Arr1 V c (ix2 j q) :=
  congrFun (arr1_eq V c) (ix2 r q)

end Cert.KernelIdeal.Hand

end
-- ==== Proof.KI.Region2Value.lean ====
/- Region 2, continued: what the recursion `outsAt2` computes, in terms of the kernel's three payloads.

   Each case's run left pieces in the accumulator (and, at k = 7, in the output's buffer).  Every store of the kernel
   writes a whole buffer, so the last piece alone decides the contents: reading the pieces back gives the last store's
   payload, whose arguments are the loads before it — the two input blocks as they were, and the accumulator either as
   the reset just left it (k = 0), or as the point before left it (k > 0), or as this point's update left it (the
   output's store at k = 7).  So after a point the accumulator is the product of the point's two blocks added to zero
   (k = 0) or to the accumulator of the point before (k > 0), and at k = 7 the output's buffer is the accumulator plus
   the bias row, clamped below at zero. -/
import proofs.«411933_j790273982476_2_alg».proof.Proof.KI.Region2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each case's pieces, read back -/

/-- Every access of the kernel starts at the buffer's origin. -/
theorem hz2 : (![0, 0] : Fin 2 → Nat) = fun _ => 0 := funext fun a => by fin_cases a <;> rfl

/-- k = 0: the update stored last reads the accumulator the reset just cleared. -/
theorem sout2_A_0_eq (c : Dev nD) (i : grid2.Coords) (arg3 : Memref sig .tc .vmem S1280x1280 .bf16) (harg3 : arg3.IsWhole) (arg4 : Memref sig .tc .vmem S1280x512 .bf16) (harg4 : arg4.IsWhole) (arg5 : Memref sig .tc .vmem S1x512 .f32) (harg5 : arg5.IsWhole) (arg6 : Memref sig .tc .vmem S1280x512 .f32) (harg6 : arg6.IsWhole) (arg7 : Memref sig .tc .vmem S1280x512 .f32) (harg7 : arg7.IsWhole) (hc0 : cond2_0 i) (hc1 : ¬cond2_1 i)
    (x0 : Vec F S1280x1280 .bf16) (x1 : Vec F S1280x512 .bf16) (x2 : Vec F S1x512 .f32) :
    sout2_A_0 c i arg3 harg3 arg4 harg4 arg5 harg5 arg6 harg6 arg7 harg7 hc0 hc1 x0 x1 x2 = k2_pay2 x0 x1 (k2_pay1 (F := F)) := by
  unfold sout2_A_0
  rw [View.read_writes_eq_canon _ _ _ (scover2_A_0 c i arg3 harg3 arg4 harg4 arg5 harg5 arg6 harg6 arg7 harg7 hc0 hc1 x0 x1 x2)]
  unfold kernelRun2_A
  dsimp only
  sl_unfold_words
  rw [View.canon_cons_unit_zero (S := S1280x512) hz2]
  simp only [View.readAt_eq_ld, harg3.read_unread, harg4.read_unread, View.ld_unit_zero (S := S1280x1280) hz2, View.ld_unit_zero (S := S1280x512) hz2, View.readCov_unit_zero (S := S1280x512) _ hz2]

/-- 0 < k < 7: the update reads the accumulator as the point before left it. -/
theorem sout2_B_0_eq (c : Dev nD) (i : grid2.Coords) (arg3 : Memref sig .tc .vmem S1280x1280 .bf16) (harg3 : arg3.IsWhole) (arg4 : Memref sig .tc .vmem S1280x512 .bf16) (harg4 : arg4.IsWhole) (arg5 : Memref sig .tc .vmem S1x512 .f32) (harg5 : arg5.IsWhole) (arg6 : Memref sig .tc .vmem S1280x512 .f32) (harg6 : arg6.IsWhole) (arg7 : Memref sig .tc .vmem S1280x512 .f32) (harg7 : arg7.IsWhole) (hc0 : ¬cond2_0 i) (hc1 : ¬cond2_1 i)
    (x0 : Vec F S1280x1280 .bf16) (x1 : Vec F S1280x512 .bf16) (x2 : Vec F S1x512 .f32) (xs0 : Vec F S1280x512 .f32) :
    sout2_B_0 c i arg3 harg3 arg4 harg4 arg5 harg5 arg6 harg6 arg7 harg7 hc0 hc1 x0 x1 x2 xs0 = k2_pay2 x0 x1 xs0 := by
  unfold sout2_B_0
  rw [View.read_writes_eq_canon _ _ _ (scover2_B_0 c i arg3 harg3 arg4 harg4 arg5 harg5 arg6 harg6 arg7 harg7 hc0 hc1 x0 x1 x2 xs0)]
  unfold kernelRun2_B
  dsimp only
  sl_unfold_words
  rw [View.canon_unit_zero (S := S1280x512) hz2]
  simp only [View.readAt_eq_ld, harg3.read_unread, harg4.read_unread, harg7.read_unread, View.ld_unit_zero (S := S1280x1280) hz2, View.ld_unit_zero (S := S1280x512) hz2]

/-- k = 7: the same update, -/
theorem sout2_C_0_eq (c : Dev nD) (i : grid2.Coords) (arg3 : Memref sig .tc .vmem S1280x1280 .bf16) (harg3 : arg3.IsWhole) (arg4 : Memref sig .tc .vmem S1280x512 .bf16) (harg4 : arg4.IsWhole) (arg5 : Memref sig .tc .vmem S1x512 .f32) (harg5 : arg5.IsWhole) (arg6 : Memref sig .tc .vmem S1280x512 .f32) (harg6 : arg6.IsWhole) (arg7 : Memref sig .tc .vmem S1280x512 .f32) (harg7 : arg7.IsWhole) (hc0 : ¬cond2_0 i) (hc1 : cond2_1 i)
    (x0 : Vec F S1280x1280 .bf16) (x1 : Vec F S1280x512 .bf16) (x2 : Vec F S1x512 .f32) (xs0 : Vec F S1280x512 .f32) :
    sout2_C_0 c i arg3 harg3 arg4 harg4 arg5 harg5 arg6 harg6 arg7 harg7 hc0 hc1 x0 x1 x2 xs0 = k2_pay2 x0 x1 xs0 := by
  unfold sout2_C_0
  rw [View.read_writes_eq_canon _ _ _ (scover2_C_0 c i arg3 harg3 arg4 harg4 arg5 harg5 arg6 harg6 arg7 harg7 hc0 hc1 x0 x1 x2 xs0)]
  unfold kernelRun2_C
  dsimp only
  sl_unfold_words
  rw [View.canon_unit_zero (S := S1280x512) hz2]
  simp only [View.readAt_eq_ld, harg3.read_unread, harg4.read_unread, harg7.read_unread, View.ld_unit_zero (S := S1280x1280) hz2, View.ld_unit_zero (S := S1280x512) hz2]

/-- and the output's store reads the accumulator that update just left, and the bias row. -/
theorem out2_C_3_eq (c : Dev nD) (i : grid2.Coords) (arg3 : Memref sig .tc .vmem S1280x1280 .bf16) (harg3 : arg3.IsWhole) (arg4 : Memref sig .tc .vmem S1280x512 .bf16) (harg4 : arg4.IsWhole) (arg5 : Memref sig .tc .vmem S1x512 .f32) (harg5 : arg5.IsWhole) (arg6 : Memref sig .tc .vmem S1280x512 .f32) (harg6 : arg6.IsWhole) (arg7 : Memref sig .tc .vmem S1280x512 .f32) (harg7 : arg7.IsWhole) (hc0 : ¬cond2_0 i) (hc1 : cond2_1 i)
    (x0 : Vec F S1280x1280 .bf16) (x1 : Vec F S1280x512 .bf16) (x2 : Vec F S1x512 .f32) (xs0 : Vec F S1280x512 .f32) :
    out2_C_3 c i arg3 harg3 arg4 harg4 arg5 harg5 arg6 harg6 arg7 harg7 hc0 hc1 x0 x1 x2 xs0 = k2_pay3 (k2_pay2 x0 x1 xs0) x2 := by
  unfold out2_C_3
  rw [View.read_writes_eq_canon _ _ _ (cover2_C_3 c i arg3 harg3 arg4 harg4 arg5 harg5 arg6 harg6 arg7 harg7 hc0 hc1 x0 x1 x2 xs0)]
  unfold kernelRun2_C
  dsimp only
  sl_unfold_words
  rw [View.canon_unit_zero (S := S1280x512) hz2]
  simp only [View.readAt_eq_ld, harg3.read_unread, harg4.read_unread, harg5.read_unread, harg7.read_unread, View.ld_unit_zero (S := S1280x1280) hz2, View.ld_unit_zero (S := S1280x512) hz2, View.ld_unit_zero (S := S1x512) hz2, View.readCov_unit_zero (S := S1280x512) _ hz2]

section Region
-- the TensorCore's buffer contents when the region is entered
variable (V : (c : Dev nD) → (b : Ref sig .tc) → Buf (Elt F) ((c : Thread nD τ).loc b))

/-! ## The recursion's steps as the kernel's payloads -/

/-- At k = 0 the accumulator is the product of the point's blocks added to zero. -/
theorem acc2_first (c : Dev nD) (t : Fin cfg2.N) (h : t.val % 8 = 0) :
    (outsAt2 V c t.val t.isLt).2 = k2_pay2 (iblk2 V c 0 t) (iblk2 V c 1 t) (k2_pay1 (F := F)) := by
  rw [outsAt2_A V c t h]; dsimp only
  unfold accA2
  exact sout2_A_0_eq c (grid2.coords t) (ms2_0 t) (hs2_0 t) (ms2_1 t) (hs2_1 t) (ms2_2 t) (hs2_2 t) (ms2_3 t) (hs2_3 t) scM2_0 (Memref.isWhole_whole _) (c0_of2 t h) (nc1_of2 t (n7_of_02 h)) (iblk2 V c 0 t) (iblk2 V c 1 t) (iblk2 V c 2 t)

/-- At k > 0 it is the product added to what the point before left. -/
theorem acc2_next (c : Dev nD) (t : Fin cfg2.N) (h : ¬ t.val % 8 = 0) :
    (outsAt2 V c t.val t.isLt).2 = k2_pay2 (iblk2 V c 0 t) (iblk2 V c 1 t) (outsAt2 V c (t.val - 1) (Nat.lt_of_le_of_lt (Nat.sub_le _ _) t.isLt)).2 := by
  by_cases h1 : t.val % 8 = 7
  · rw [outsAt2_C V c t h1]; dsimp only
    unfold accC2
    exact sout2_C_0_eq c (grid2.coords t) (ms2_0 t) (hs2_0 t) (ms2_1 t) (hs2_1 t) (ms2_2 t) (hs2_2 t) (ms2_3 t) (hs2_3 t) scM2_0 (Memref.isWhole_whole _) (nc0_of2 t (n0_of_72 h1)) (c1_of2 t h1) (iblk2 V c 0 t) (iblk2 V c 1 t) (iblk2 V c 2 t) (outsAt2 V c (t.val - 1) (Nat.lt_of_le_of_lt (Nat.sub_le _ _) t.isLt)).2
  · rw [outsAt2_B V c t h h1]; dsimp only
    unfold accB2
    exact sout2_B_0_eq c (grid2.coords t) (ms2_0 t) (hs2_0 t) (ms2_1 t) (hs2_1 t) (ms2_2 t) (hs2_2 t) (ms2_3 t) (hs2_3 t) scM2_0 (Memref.isWhole_whole _) (nc0_of2 t h) (nc1_of2 t h1) (iblk2 V c 0 t) (iblk2 V c 1 t) (iblk2 V c 2 t) (outsAt2 V c (t.val - 1) (Nat.lt_of_le_of_lt (Nat.sub_le _ _) t.isLt)).2

/-- At k = 7 the output's buffer is the accumulator plus the bias row, clamped below at zero. -/
theorem out2_last (c : Dev nD) (t : Fin cfg2.N) (h : t.val % 8 = 7) :
    (outsAt2 V c t.val t.isLt).1 = k2_pay3 (outsAt2 V c t.val t.isLt).2 (iblk2 V c 2 t) := by
  rw [outsAt2_C V c t h]; dsimp only
  unfold outC2 accC2
  rw [sout2_C_0_eq c (grid2.coords t) (ms2_0 t) (hs2_0 t) (ms2_1 t) (hs2_1 t) (ms2_2 t) (hs2_2 t) (ms2_3 t) (hs2_3 t) scM2_0 (Memref.isWhole_whole _) (nc0_of2 t (n0_of_72 h)) (c1_of2 t h) (iblk2 V c 0 t) (iblk2 V c 1 t) (iblk2 V c 2 t) (outsAt2 V c (t.val - 1) (Nat.lt_of_le_of_lt (Nat.sub_le _ _) t.isLt)).2]
  exact out2_C_3_eq c (grid2.coords t) (ms2_0 t) (hs2_0 t) (ms2_1 t) (hs2_1 t) (ms2_2 t) (hs2_2 t) (ms2_3 t) (hs2_3 t) scM2_0 (Memref.isWhole_whole _) (nc0_of2 t (n0_of_72 h)) (c1_of2 t h) (iblk2 V c 0 t) (iblk2 V c 1 t) (iblk2 V c 2 t) (outsAt2 V c (t.val - 1) (Nat.lt_of_le_of_lt (Nat.sub_le _ _) t.isLt)).2

end Region

end Cert.KernelIdeal.Hand

end
-- ==== Proof.KV.Array2.lean ====
/- The array region 2 leaves: entry (r, q) of its output is max(Σ_s A[r,s] · H[s,q] + bias[q], 0), the sum over all
   10240 columns of the region's first operand A (10240 x 10240) against the rows of its second H (10240 x 512).

   The grid has 8 row blocks of 1280 rows and, inside each, 8 steps along the contraction axis, each taking 1280
   columns of A and the matching 1280 rows of H.  Point t = 8·i + k works on row block i and column block k.  Within a
   row block the accumulator is a running sum: cleared at k = 0, increased at every k by the partial product over
   column block k.  After k = 7 it holds the sum over all 8 column blocks, which, the blocks being consecutive, is the
   sum over all 10240 columns; that point stores max(accumulator + bias, 0) into row block i of the output, and these
   8 row blocks tile the output. -/
import proofs.«411933_j790273982476_2_alg».proof.Proof.KI.Region2Value
import proofs.«411933_j790273982476_2_alg».proof.Proof.KV.Payloads
import proofs.«411933_j790273982476_2_alg».proof.Proof.LibBlockSum
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

-- the TensorCore's buffer contents when the region is entered, at the extended reals
variable (V : (c : Dev nD) → (b : Ref sig .tc) → Buf (Elt Ideal) ((c : Thread nD τ).loc b))

/-! ## The region's arrays and blocks, by their literal types -/

/-- The first operand A, 10240 x 10240. -/
abbrev adj2 (c : Dev nD) : Vec Ideal S10240x10240 .bf16 := V c main_v44
/-- The second operand H, 10240 x 512. -/
abbrev hid2 (c : Dev nD) : Vec Ideal S10240x512 .bf16 := V c main_v52
/-- The bias row, 1 x 512. -/
abbrev bias2 (c : Dev nD) : Vec Ideal S1x512 .f32 := V c main_v50

/-- A's block at point `t`. -/
abbrev ablk2 (c : Dev nD) (t : Fin cfg2.N) : Vec Ideal S1280x1280 .bf16 := iblk2 V c 0 t
/-- H's block at point `t`. -/
abbrev hblk2 (c : Dev nD) (t : Fin cfg2.N) : Vec Ideal S1280x512 .bf16 := iblk2 V c 1 t
/-- The bias row as point `t` stages it. -/
abbrev bblk2 (c : Dev nD) (t : Fin cfg2.N) : Vec Ideal S1x512 .f32 := iblk2 V c 2 t

/-! ## Which block a point works on -/

/-- Point t = 8·i + k: A's block is (i, k), H's is (k, 0), the bias row's is (0, 0), the output's is (i, 0). -/
theorem idx_facts2 : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = 0 ∧ win2_2.index t (1 : Fin 2) = 0
    ∧ win2_3.index t (0 : Fin 2) = t.val / 8 ∧ win2_3.index t (1 : Fin 2) = 0 :=
  (by decide +kernel : ∀ t : Fin grid2.N, _)

/-- An entry of A's block at point `t` is A's entry at row (t / 8)·1280 + p, column (t mod 8)·1280 + s. -/
theorem ablk2_apply (c : Dev nD) (t : Fin cfg2.N) (p s : Fin 1280) (r s' : Fin 10240)
    (hr : r.val = t.val / 8 * 1280 + p.val) (hs : s'.val = t.val % 8 * 1280 + s.val) :
    ablk2 V c t (ix2 p s) = adj2 V c (ix2 r s') := by
  obtain ⟨e0, e1, -, -, -, -, -, -⟩ := idx_facts2 t
  show V c main_v44 (((cfg2.win 0).blk t).view.emb (ix2 p s)) = V c main_v44 (ix2 r s')
  refine congrArg (V c main_v44) (funext fun a => Fin.ext ?_)
  match a with
  | ⟨0, _⟩ => show win2_0.index t (0 : Fin 2) * 1280 + 1 * p.val = r.val; omega
  | ⟨1, _⟩ => show win2_0.index t (1 : Fin 2) * 1280 + 1 * s.val = s'.val; omega

/-- An entry of H's block at point `t` is H's entry at row (t mod 8)·1280 + s, the same column. -/
theorem hblk2_apply (c : Dev nD) (t : Fin cfg2.N) (s : Fin 1280) (q : Fin 512) (s' : Fin 10240)
    (hs : s'.val = t.val % 8 * 1280 + s.val) :
    hblk2 V c t (ix2 s q) = hid2 V c (ix2 s' q) := by
  obtain ⟨-, -, e2, e3, -, -, -, -⟩ := idx_facts2 t
  show V c main_v52 (((cfg2.win 1).blk t).view.emb (ix2 s q)) = V c main_v52 (ix2 s' q)
  refine congrArg (V c main_v52) (funext fun a => Fin.ext ?_)
  match a with
  | ⟨0, _⟩ => show win2_1.index t (0 : Fin 2) * 1280 + 1 * s.val = s'.val; omega
  | ⟨1, _⟩ => show win2_1.index t (1 : Fin 2) * 512 + 1 * q.val = q.val; omega

/-- The staged bias row is the bias row. -/
theorem bblk2_apply (c : Dev nD) (t : Fin cfg2.N) (q : Fin 512) :
    bblk2 V c t (ix2 (0 : Fin 1) q) = bias2 V c (ix2 (0 : Fin 1) q) := by
  obtain ⟨-, -, -, -, e4, e5, -, -⟩ := idx_facts2 t
  show V c main_v50 (((cfg2.win 2).blk t).view.emb (ix2 (0 : Fin 1) q)) = V c main_v50 (ix2 (0 : Fin 1) q)
  refine congrArg (V c main_v50) (funext fun a => Fin.ext ?_)
  match a with
  | ⟨0, _⟩ => show win2_2.index t (0 : Fin 2) * 1 + 1 * (0 : Fin 1).val = (0 : Fin 1).val; simp only [e4]; rfl
  | ⟨1, _⟩ => show win2_2.index t (1 : Fin 2) * 512 + 1 * q.val = q.val; omega

/-! ## Entries by natural-number coordinates

The sums below run over positions counted in natural numbers (block number times block length plus the position in
the block), so the arrays are also read at natural-number coordinates, with 0 outside their extents. -/

/-- A's entry at row `r`, column `s`. -/
def adjN (c : Dev nD) (r s : ℕ) : EReal :=
  if h : r < 10240 ∧ s < 10240 then adj2 V c (ix2 ⟨r, h.1⟩ ⟨s, h.2⟩) else 0
/-- H's entry at row `s`, column `q`. -/
def hidN (c : Dev nD) (s q : ℕ) : EReal :=
  if h : s < 10240 ∧ q < 512 then hid2 V c (ix2 ⟨s, h.1⟩ ⟨q, h.2⟩) else 0

theorem adjN_eq (c : Dev nD) (r s : Fin 10240) : adjN V c r.val s.val = adj2 V c (ix2 r s) := dif_pos ⟨r.isLt, s.isLt⟩
theorem hidN_eq (c : Dev nD) (s : Fin 10240) (q : Fin 512) : hidN V c s.val q.val = hid2 V c (ix2 s q) := dif_pos ⟨s.isLt, q.isLt⟩

/-- The partial product over column block `k`: row `r` of A against column `q` of H, over the block's 1280 positions. -/
def part2 (c : Dev nD) (r q k : ℕ) : EReal :=
  ∑ j : Fin 1280, adjN V c r (k * 1280 + j.val) * hidN V c (k * 1280 + j.val) q

/-- The product of a point's two blocks, at an entry, is the partial product over the point's column block. -/
theorem prod_blk2 (c : Dev nD) (t : Fin cfg2.N) (p : Fin 1280) (q : Fin 512) :
    ∑ j : Fin 1280, ablk2 V c t (ix2 p j) * hblk2 V c t (ix2 j q)
      = part2 V c (t.val / 8 * 1280 + p.val) q.val (t.val % 8) := by
  have hN : t.val < 64 := lt_of_lt_of_eq t.isLt (show cfg2.N = 64 from N_2)
  unfold part2
  refine Finset.sum_congr rfl fun j _ => ?_
  have e1 : ablk2 V c t (ix2 p j) = adjN V c (t.val / 8 * 1280 + p.val) (t.val % 8 * 1280 + j.val) :=
    (ablk2_apply V c t p j ⟨t.val / 8 * 1280 + p.val, by omega⟩ ⟨t.val % 8 * 1280 + j.val, by omega⟩ rfl rfl).trans
      (adjN_eq V c ⟨t.val / 8 * 1280 + p.val, by omega⟩ ⟨t.val % 8 * 1280 + j.val, by omega⟩).symm
  have e2 : hblk2 V c t (ix2 j q) = hidN V c (t.val % 8 * 1280 + j.val) q.val :=
    (hblk2_apply V c t j q ⟨t.val % 8 * 1280 + j.val, by omega⟩ rfl).trans
      (hidN_eq V c ⟨t.val % 8 * 1280 + j.val, by omega⟩ q).symm
  rw [e1, e2]

/-! ## The accumulator, point by point -/

/-- The accumulator after point number `n` (0 past the grid). -/
def accN (c : Dev nD) (n : ℕ) : Vec Ideal S1280x512 .f32 :=
  if h : n < cfg2.N then (outsAt2 V c n h).2 else fun _ => 0

theorem accN_eq (c : Dev nD) (t : Fin cfg2.N) : accN V c t.val = (outsAt2 V c t.val t.isLt).2 := dif_pos t.isLt

/-- At the first step of a row block the accumulator is the first partial product (added to zero). -/
theorem accN_first (c : Dev nD) (i : ℕ) (hi : i < 8) (p : Fin 1280) (q : Fin 512) :
    accN V c (8 * i) (ix2 p q) = 0 + part2 V c (i * 1280 + p.val) q.val 0 := by
  have hlt : 8 * i < cfg2.N := by rw [show cfg2.N = 64 from N_2]; omega
  have h0 : (⟨8 * i, hlt⟩ : Fin cfg2.N).val % 8 = 0 := by show 8 * i % 8 = 0; omega
  refine (congrFun (accN_eq V c ⟨8 * i, hlt⟩) (ix2 p q)).trans ?_
  refine (congrFun (acc2_first V c ⟨8 * i, hlt⟩ h0) (ix2 p q)).trans ?_
  refine (Payloads.pay2_2 (ablk2 V c ⟨8 * i, hlt⟩) (hblk2 V c ⟨8 * i, hlt⟩) (k2_pay1 (F := Ideal)) p q).trans ?_
  rw [Payloads.pay1_2 p q, prod_blk2 V c ⟨8 * i, hlt⟩ p q]
  show (0 : EReal) + part2 V c (8 * i / 8 * 1280 + p.val) q.val (8 * i % 8) = _
  rw [show 8 * i / 8 = i by omega, show 8 * i % 8 = 0 by omega]

/-- At a later step it is the step before's accumulator plus this step's partial product. -/
theorem accN_next (c : Dev nD) (i k : ℕ) (hi : i < 8) (hk : k + 1 < 8) (p : Fin 1280) (q : Fin 512) :
    accN V c (8 * i + (k + 1)) (ix2 p q) = accN V c (8 * i + k) (ix2 p q) + part2 V c (i * 1280 + p.val) q.val (k + 1) := by
  have hlt : 8 * i + (k + 1) < cfg2.N := by rw [show cfg2.N = 64 from N_2]; omega
  have hlt' : 8 * i + k < cfg2.N := by rw [show cfg2.N = 64 from N_2]; omega
  have h0 : ¬(⟨8 * i + (k + 1), hlt⟩ : Fin cfg2.N).val % 8 = 0 := by show ¬(8 * i + (k + 1)) % 8 = 0; omega
  refine (congrFun (accN_eq V c ⟨8 * i + (k + 1), hlt⟩) (ix2 p q)).trans ?_
  refine (congrFun (acc2_next V c ⟨8 * i + (k + 1), hlt⟩ h0) (ix2 p q)).trans ?_
  refine (Payloads.pay2_2 (ablk2 V c ⟨8 * i + (k + 1), hlt⟩) (hblk2 V c ⟨8 * i + (k + 1), hlt⟩)
    (outsAt2 V c ((⟨8 * i + (k + 1), hlt⟩ : Fin cfg2.N).val - 1) (Nat.lt_of_le_of_lt (Nat.sub_le _ _) hlt)).2 p q).trans ?_
  rw [prod_blk2 V c ⟨8 * i + (k + 1), hlt⟩ p q]
  show (outsAt2 V c (8 * i + (k + 1) - 1) _).2 (ix2 p q) + part2 V c ((8 * i + (k + 1)) / 8 * 1280 + p.val) q.val ((8 * i + (k + 1)) % 8) = _
  rw [show (8 * i + (k + 1)) / 8 = i by omega, show (8 * i + (k + 1)) % 8 = k + 1 by omega]
  refine congrArg (· + part2 V c (i * 1280 + p.val) q.val (k + 1)) ?_
  exact (congrFun (accN_eq V c ⟨8 * i + k, hlt'⟩) (ix2 p q)).symm

/-- After the last step of row block `i` the accumulator holds the sum of all 8 partial products. -/
theorem accN_last (c : Dev nD) (i : ℕ) (hi : i < 8) (p : Fin 1280) (q : Fin 512) :
    accN V c (8 * i + 7) (ix2 p q) = 0 + ∑ k : Fin 8, part2 V c (i * 1280 + p.val) q.val k.val :=
  Cert.LibBlockSum.fold_reset_last 7 0 (fun k => part2 V c (i * 1280 + p.val) q.val k)
    (fun n => accN V c (8 * i + n) (ix2 p q)) (accN_first V c i hi p q)
    (fun n hn => accN_next V c i n hi hn p q)

/-- The 8 column blocks are consecutive: their partial products add up to the sum over all 10240 columns. -/
theorem sum_part2 (c : Dev nD) (r : Fin 10240) (q : Fin 512) :
    ∑ k : Fin 8, part2 V c r.val q.val k.val = ∑ s : Fin 10240, adj2 V c (ix2 r s) * hid2 V c (ix2 s q) := by
  unfold part2
  refine (Cert.LibBlockSum.sum_blocks_val 8 1280 fun n => adjN V c r.val n * hidN V c n q.val).symm.trans ?_
  show ∑ s : Fin 10240, adjN V c r.val s.val * hidN V c s.val q.val = _
  refine Finset.sum_congr rfl fun s _ => ?_
  rw [adjN_eq, hidN_eq]

/-! ## The output array -/

/-- What the region leaves in its output: entry (r, q) is the full row-by-column product plus the bias, clamped
    below at zero. -/
def G2 (c : Dev nD) : Vec Ideal S10240x512 .f32 := fun i =>
  max ((∑ s : Fin 10240, adj2 V c (ix2 (i 0 : Fin 10240) s) * hid2 V c (ix2 s (i 1 : Fin 512))) + bias2 V c (ix2 (0 : Fin 1) (i 1 : Fin 512))) 0

/-- At the last step of row block t / 8 the output's buffer holds that row block of `G2`. -/
theorem out_entry2 (c : Dev nD) (t : Fin cfg2.N) (h7 : t.val % 8 = 7) (p : Fin 1280) (q : Fin 512) (r : Fin 10240)
    (hr : r.val = t.val / 8 * 1280 + p.val) :
    (outsAt2 V c t.val t.isLt).1 (ix2 p q) = G2 V c (ix2 r q) := by
  have hN : t.val < 64 := lt_of_lt_of_eq t.isLt (show cfg2.N = 64 from N_2)
  refine (congrFun (out2_last V c t h7) (ix2 p q)).trans ?_
  refine (Payloads.pay3_2 (outsAt2 V c t.val t.isLt).2 (bblk2 V c t) p q).trans ?_
  rw [bblk2_apply V c t q]
  have hacc : (outsAt2 V c t.val t.isLt).2 (ix2 p q) = ∑ s : Fin 10240, adj2 V c (ix2 r s) * hid2 V c (ix2 s q) := by
    have e := accN_last V c (t.val / 8) (by omega) p q
    rw [show 8 * (t.val / 8) + 7 = t.val by omega, accN_eq V c t, zero_add, ← hr, sum_part2 V c r q] at e
    exact e
  rw [hacc]
  rfl

/-- WHAT A FLUSHING POINT WRITES BACK is its block of `G2`. -/
theorem flushed2_eq (c : Dev nD) (t : Fin cfg2.N) (h7 : t.val % 8 = 7) :
    (dat2 V c).flushed 3 t = ((cfg2.win 3).blk t).view.read (Elt Ideal) (G2 V c) := by
  have hN : t.val < 64 := lt_of_lt_of_eq t.isLt (show cfg2.N = 64 from N_2)
  obtain ⟨-, -, -, -, -, -, e6, e7⟩ := idx_facts2 t
  show (cfg2.win 3).cut (grid2.coords t) ((dat2 V c).after 3 t) = _
  rw [after2_3]
  funext j
  have hj0 : (j 0).val < 1280 := (j 0).isLt
  have hj : j = ix2 (j 0) (j 1) := eq_ix2 j
  have hemb : ((cfg2.win 3).blk t).view.emb j = ix2 (⟨t.val / 8 * 1280 + (j 0).val, by omega⟩ : Fin 10240) (j 1 : Fin 512) :=
    funext fun a => Fin.ext (by
      match a with
      | ⟨0, _⟩ => show win2_3.index t (0 : Fin 2) * 1280 + 1 * (j 0).val = t.val / 8 * 1280 + (j 0).val; omega
      | ⟨1, _⟩ => show win2_3.index t (1 : Fin 2) * 512 + 1 * (j 1).val = (j 1).val; omega)
  show (outsAt2 V c t.val t.isLt).1 j = G2 V c (((cfg2.win 3).blk t).view.emb j)
  exact (congrArg (outsAt2 V c t.val t.isLt).1 hj).trans
    ((out_entry2 V c t h7 (j 0) (j 1) ⟨t.val / 8 * 1280 + (j 0).val, by omega⟩ rfl).trans (congrArg (G2 V c) hemb.symm))

/-- An index of the output array is in point `t`'s block iff each coordinate is in the block's range on its axis. -/
theorem mem_blk2_3 (t : Fin cfg2.N) (i : S10240x512.Idx) :
    i ∈ ((cfg2.win 3).blk t).view.set ↔ ∀ a : Fin 2, win2_3.index t a * S1280x512.size a ≤ (i a).val ∧ (i a).val < win2_3.index t a * S1280x512.size a + S1280x512.size a := by
  show i ∈ ((View.whole main_v53).slice (win2_3.rect t)).set ↔ _
  rw [View.set_slice_whole, Rect.mem_set_unit]
  exact Iff.rfl

/-- Row r lies in row block r / 1280, which the point 8·(r / 1280) + 7 writes back: the flushed blocks tile the output. -/
theorem cover2_3 (i : S10240x512.Idx) : ∃ t : Fin cfg2.N, (cfg2.win 3).flush t = true ∧ i ∈ ((cfg2.win 3).blk t).view.set := by
  have hi0 : (i 0).val < 10240 := (i 0).isLt
  have hi1 : (i 1).val < 512 := (i 1).isLt
  have hlt : 8 * ((i 0).val / 1280) + 7 < cfg2.N := by rw [show cfg2.N = 64 from N_2]; omega
  obtain ⟨-, -, -, -, -, -, e6, e7⟩ := idx_facts2 ⟨8 * ((i 0).val / 1280) + 7, hlt⟩
  have e6' : win2_3.index ⟨8 * ((i 0).val / 1280) + 7, hlt⟩ (0 : Fin 2) = (i 0).val / 1280 :=
    e6.trans (by show (8 * ((i 0).val / 1280) + 7) / 8 = (i 0).val / 1280; omega)
  refine ⟨⟨8 * ((i 0).val / 1280) + 7, hlt⟩, (flush2_3 _).mpr (by show (8 * ((i 0).val / 1280) + 7) % 8 = 7; omega), ?_⟩
  rw [mem_blk2_3]
  intro a
  match a with
  | ⟨0, _⟩ =>
    show win2_3.index ⟨8 * ((i 0).val / 1280) + 7, hlt⟩ (0 : Fin 2) * 1280 ≤ (i 0).val ∧ (i 0).val < win2_3.index ⟨8 * ((i 0).val / 1280) + 7, hlt⟩ (0 : Fin 2) * 1280 + 1280
    rw [e6']; omega
  | ⟨1, _⟩ =>
    show win2_3.index ⟨8 * ((i 0).val / 1280) + 7, hlt⟩ (1 : Fin 2) * 512 ≤ (i 1).val ∧ (i 1).val < win2_3.index ⟨8 * ((i 0).val / 1280) + 7, hlt⟩ (1 : Fin 2) * 512 + 512
    rw [e7]; omega

/-- THE ARRAY after the region: `G2`. -/
theorem arr2_eq (c : Dev nD) : (dat2 (F := Ideal) V c).arrAt 3 cfg2.N = G2 V c :=
  (dat2 V c).arrAt_eq_of_cover 3 (G2 V c) (fun t hf => flushed2_eq V c t ((flush2_3 t).mp hf)) cover2_3

/-- Entry (r, q) of it. -/
theorem arr2_apply (c : Dev nD) (r : Fin 10240) (q : Fin 512) :
    (dat2 (F := Ideal) V c).arrAt 3 cfg2.N (ix2 r q)
      = (max ((∑ s : Fin 10240, adj2 V c (ix2 r s) * hid2 V c (ix2 s q)) + bias2 V c (ix2 (0 : Fin 1) q)) 0 : EReal) :=
  (congrFun (arr2_eq V c) (ix2 r q)).trans rfl

end Cert.KernelIdeal.Hand

end
-- ==== Proof.Spec.lean ====
/-
  The two-layer graph convolution as plain mathematics on the extended reals.

  A graph on 10000 nodes is given by 170000 arcs `e ↦ (sN e, dN e)` (source, target; the last 10000 arcs are the
  self-loops). The in-degree of node `i` counts the arcs with target `i`; `dinv i` is its inverse square root where
  the degree is positive, zero elsewhere; the arc `e` carries the weight `nrm e = dinv (sN e) * dinv (dN e)`.
  One layer sends node features `H` to `max (agg (H W) + b) 0`, where `agg X i` adds, over the arcs with target `i`,
  the row `X (sN e)` scaled by `nrm e`.

  The same aggregation is a product with the 10240 × 10240 matrix `adj` whose entry (d, s) adds the weights of the
  arcs from s to d (rows and columns from 10000 on are empty sums): `adj_mul_sum`. The one law used is that a
  product distributes over a sum of NONNEGATIVE extended reals, whatever the other factor is; the weights are
  nonnegative because an inverse square root of a positive extended real is.
-/
import Idealize.ShloMosaic.PureOps.Ideal
import Mathlib.Algebra.BigOperators.Fin
import Mathlib.Data.EReal.Basic
import Mathlib.Data.EReal.Operations
import Mathlib.Data.EReal.Inv
import Mathlib.Algebra.Order.BigOperators.Group.Finset

noncomputable section

open scoped BigOperators

namespace Cert.Spec

open Idealize.ShloMosaic

variable (sN dN : Fin 170000 → Fin 10000)

/-- The in-degree of node `i`: one for every arc with target `i`. -/
def deg (i : Fin 10000) : EReal := ∑ e ∈ Finset.univ.filter (fun e : Fin 170000 => dN e = i), (1 : EReal)

/-- The inverse square root of the in-degree where it is positive, zero elsewhere. -/
def dinv (i : Fin 10000) : EReal := if 0 < deg dN i then Ideal.rsqrt (deg dN i) else 0

/-- The weight of arc `e`. -/
def nrm (e : Fin 170000) : EReal := dinv dN (sN e) * dinv dN (dN e)

/-- The aggregation at node `i`, column `c`: over the arcs with target `i`, the source's entry times the arc's weight. -/
def agg {C : Nat} (X : Fin 10000 → Fin C → EReal) (i : Fin 10000) (c : Fin C) : EReal :=
  ∑ e ∈ Finset.univ.filter (fun e : Fin 170000 => dN e = i), X (sN e) c * nrm sN dN e

/-- A matrix product, entry by entry. -/
def lin {N K C : Nat} (X : Fin N → Fin K → EReal) (W : Fin K → Fin C → EReal) (r : Fin N) (c : Fin C) : EReal :=
  ∑ j : Fin K, X r j * W j c

/-- One layer: the aggregated product plus the bias, cut at zero. -/
def layer {K C : Nat} (H : Fin 10000 → Fin K → EReal) (W : Fin K → Fin C → EReal) (b : Fin C → EReal)
    (i : Fin 10000) (c : Fin C) : EReal :=
  max (agg sN dN (lin H W) i c + b c) 0

/-- The two layers. -/
def G (x : Fin 10000 → Fin 512 → EReal) (W1 : Fin 512 → Fin 1024 → EReal) (b1 : Fin 1024 → EReal)
    (W2 : Fin 1024 → Fin 512 → EReal) (b2 : Fin 512 → EReal) : Fin 10000 → Fin 512 → EReal :=
  layer sN dN (layer sN dN x W1 b1) W2 b2

/-- Entry (d, s) of the padded adjacency matrix: the weights of the arcs whose flat position `target * 10240 + source` is
    `d * 10240 + s`. -/
def adj (d s : Fin 10240) : EReal :=
  ∑ e ∈ Finset.univ.filter (fun e : Fin 170000 => (dN e).val * 10240 + (sN e).val = d.val * 10240 + s.val), nrm sN dN e

/-- An inverse square root of a positive extended real is nonnegative (it is zero at `⊤`). -/
theorem rsqrt_nonneg_of_pos {x : EReal} (hx : 0 < x) : 0 ≤ Ideal.rsqrt x := by
  induction x using EReal.rec with
  | bot => exact absurd hx (by simp)
  | top => simp
  | coe r =>
    have hr : 0 < r := by exact_mod_cast hx
    rw [Ideal.rsqrt_coe, if_neg (not_lt.mpr hr.le), if_neg hr.ne']
    exact_mod_cast inv_nonneg.mpr (Real.sqrt_nonneg r)

theorem dinv_nonneg (i : Fin 10000) : 0 ≤ dinv dN i := by
  unfold dinv
  split_ifs with h
  · exact rsqrt_nonneg_of_pos h
  · exact le_rfl

theorem nrm_nonneg (e : Fin 170000) : 0 ≤ nrm sN dN e :=
  mul_nonneg (dinv_nonneg dN _) (dinv_nonneg dN _)

/-- A product distributes over a finite sum of nonnegative extended reals, whatever the other factor is. -/
theorem sum_mul_of_nonneg {ι : Type*} (S : Finset ι) (a : ι → EReal) (ha : ∀ e ∈ S, 0 ≤ a e) (h : EReal) :
    (∑ e ∈ S, a e) * h = ∑ e ∈ S, a e * h := by
  classical
  induction S using Finset.induction_on with
  | empty => simp
  | insert x S hx ih =>
    have hS : ∀ e ∈ S, 0 ≤ a e := fun e he => ha e (Finset.mem_insert_of_mem he)
    rw [Finset.sum_insert hx, Finset.sum_insert hx,
      EReal.right_distrib_of_nonneg (ha x (Finset.mem_insert_self x S)) (Finset.sum_nonneg hS), ih hS]

/-- The product with the adjacency matrix is the aggregation: for a padded feature matrix `Hp` that agrees with `X`
    on the first 10000 rows, row `i < 10000` of `adj · Hp` is `agg X i`. -/
theorem adj_mul_sum {C : Nat} (X : Fin 10000 → Fin C → EReal) (Hp : Fin 10240 → Fin C → EReal)
    (hHp : ∀ (s : Fin 10240) (h : s.val < 10000) (c : Fin C), Hp s c = X ⟨s.val, h⟩ c)
    (i : Fin 10000) (c : Fin C) :
    ∑ s : Fin 10240, adj sN dN ⟨i.val, by omega⟩ s * Hp s c = agg sN dN X i c := by
  unfold adj agg
  -- The factor enters the inner sum (the weights are nonnegative); as the sources are below 10240, the flat
  -- position of arc `e` is `i * 10240 + s` exactly when its target is `i` and its source is `s`.
  have h1 : ∀ s : Fin 10240,
      (∑ e ∈ Finset.univ.filter (fun e : Fin 170000 =>
          (dN e).val * 10240 + (sN e).val = i.val * 10240 + s.val), nrm sN dN e) * Hp s c
        = ∑ e : Fin 170000, if dN e = i ∧ (⟨(sN e).val, by omega⟩ : Fin 10240) = s
            then nrm sN dN e * Hp s c else 0 := by
    intro s
    rw [sum_mul_of_nonneg _ _ (fun e _ => nrm_nonneg sN dN e), Finset.sum_filter]
    refine Finset.sum_congr rfl (fun e _ => ?_)
    have hiff : ((dN e).val * 10240 + (sN e).val = i.val * 10240 + s.val) ↔
        (dN e = i ∧ (⟨(sN e).val, by omega⟩ : Fin 10240) = s) := by
      rw [Fin.ext_iff, Fin.ext_iff]
      have h1 := (sN e).isLt
      have h2 := s.isLt
      simp only
      omega
    simp only [hiff]
  simp only [h1]
  -- Swap the two sums: an arc with target `i` meets exactly one column, its source.
  rw [Finset.sum_comm, Finset.sum_filter]
  refine Finset.sum_congr rfl (fun e _ => ?_)
  by_cases hd : dN e = i
  · simp only [hd, true_and, if_true]
    rw [Finset.sum_ite_eq Finset.univ (⟨(sN e).val, by omega⟩ : Fin 10240)
      (fun s => nrm sN dN e * Hp s c)]
    simp only [Finset.mem_univ, if_true]
    rw [hHp ⟨(sN e).val, by omega⟩ (sN e).isLt c, mul_comm]
  · simp [hd]

end Cert.Spec

end
-- ==== Proof.Edges.lean ====
/-
  The arcs of the graph, read off the edge list.

  The edge list is a 2 × 160000 table of 32-bit words: row 0 the sources, row 1 the targets. The programs append the
  10000 self-loops (arc 160000 + v goes from node v to node v). Where every word of the table, read unsigned, is below
  10000, each of the 170000 arcs has a source and a target among the 10000 nodes: `sN`, `dN`.
-/
import proofs.«411933_j790273982476_2_alg».proof.Proof.Spec
import Idealize.ShloMosaic.Lib.ValueIdx

noncomputable section

namespace Cert.Edges

open Idealize.ShloMosaic Idealize.ShloMosaic.ValueIdx

/-- The edge table's type: 2 × 160000 words. -/
abbrev Tbl : Type := (⟨2, ![2, 160000]⟩ : Shape).Idx → BitVec 32

/-- Every word of the table, read unsigned, names a node. -/
def InRange (ei : Tbl) : Prop := ∀ (r : Fin 2) (e : Fin 160000), (ei (ix2 r e)).toNat < 10000

/-- The word of row `r` at arc `e`: the table's word for an edge, the node's own number for a self-loop. -/
def word (ei : Tbl) (r : Fin 2) (e : Fin 170000) : BitVec 32 :=
  if h : e.val < 160000 then ei (ix2 r ⟨e.val, h⟩) else BitVec.ofNat 32 (e.val - 160000)

theorem word_lt {ei : Tbl} (h : InRange ei) (r : Fin 2) (e : Fin 170000) : (word ei r e).toNat < 10000 := by
  unfold word
  split
  · exact h r _
  · have := e.isLt
    rw [BitVec.toNat_ofNat]
    have h1 : e.val - 160000 < 10000 := by omega
    rw [Nat.mod_eq_of_lt (by omega)]
    exact h1

/-- The node a word of row `r` names at arc `e`. -/
def node (ei : Tbl) (h : InRange ei) (r : Fin 2) (e : Fin 170000) : Fin 10000 := ⟨(word ei r e).toNat, word_lt h r e⟩

/-- The source of arc `e`. -/
def sN (ei : Tbl) (h : InRange ei) : Fin 170000 → Fin 10000 := node ei h 0
/-- The target of arc `e`. -/
def dN (ei : Tbl) (h : InRange ei) : Fin 170000 → Fin 10000 := node ei h 1

theorem sN_val (ei : Tbl) (h : InRange ei) (e : Fin 170000) : (sN ei h e).val = (word ei 0 e).toNat := rfl
theorem dN_val (ei : Tbl) (h : InRange ei) (e : Fin 170000) : (dN ei h e).val = (word ei 1 e).toNat := rfl

/-- A word that names a node reads the same signed and unsigned. -/
theorem toInt_of_lt (w : BitVec 32) (h : w.toNat < 10000) : w.toInt = (w.toNat : ℤ) := by
  rw [BitVec.toInt_eq_toNat_cond]
  split
  · rfl
  · omega

end Cert.Edges

end
-- ==== Proof.LibSegmentSum.lean ====
/-
  Index-driven host operations read at one index, at the ideal instance (floats are extended reals).

  A segment sum adds, at each segment, the updates whose index word names that segment; an indexed read takes the row
  its index word names. Both are stated over ANY dimension-number record of the right type whose fields are given by
  hypotheses, so that one statement serves every size at which a program uses the operation.

  * `scatterAdd_seg1`   : a one-axis segment sum at a segment.
  * `scatterAdd_segRows`: a segment sum of rows at (segment, column).
  * `gather_rows`       : a gather of rows at (position, column).
  * `gather_seg1`       : a one-axis gather at a position.
  * `clamp_of_inRange`  : a word in range is its own clamp.

  The road for a segment sum: on each operand axis the landing coordinate of an update is its window start (the index
  word read signed, on the axis the index names; zero elsewhere) plus its window coordinate (the update's own coordinate
  on a kept axis; zero on an inserted one). So an update lands on a given element exactly when its index word is the
  element's segment and its remaining coordinates are the element's. The sum over the update indices that land there
  is then re-indexed by coordinates.
-/
import Idealize.ShloMosaic.PureOps.Ideal
import Idealize.ShloMosaic.PureOps.Contract
import Idealize.ShloMosaic.Lib.ValueIdx
import Idealize.ShloMosaic.Lib.ValueIdxRank1
import Idealize.ShloMosaic.Lib.StableHlo.Predicate

noncomputable section

open scoped BigOperators

namespace Cert.LibSegmentSum

open Idealize.ShloMosaic Idealize.ShloMosaic.ValueIdx

/-! ## One-axis segment sum -/

section Seg1

variable {N M w : Nat} (d : ScatterDims ⟨1, ![N]⟩ ⟨2, ![M, 1]⟩ ⟨1, ![M]⟩)

/-- The window's start on the one operand axis is the update's index word, read signed. -/
theorem start_seg1 (hsd : d.scatterDimsToOperandDims = [0]) (hiv : d.indexVectorDim = 1)
    (idx : IVec ⟨2, ![M, 1]⟩ w) (e : Fin M) :
    d.start (ix1 e) idx 0 = (idx (ix2 e 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    -- the row of the index table: the update's one coordinate
    unfold ScatterDims.siIdx
    rw [dif_neg (by rw [hiv]; simp)]
    unfold ScatterDims.siCoord
    apply Fin.ext
    simp only [Fin.val_cast]
    have one : ∀ X : Fin 1, ((ix1 e : (⟨1, ![M]⟩ : Shape).Idx) X).val = e.val := fun X => by
      obtain rfl : X = 0 := Subsingleton.elim _ _
      rfl
    exact one _
  | ⟨1, _⟩ =>
    -- the column of the index table: the position of operand axis 0 in the map, which is 0
    unfold ScatterDims.siIdx
    rw [dif_pos (by rw [hiv])]
    apply Fin.ext
    show List.idxOf (0 : Fin 1) d.scatterDimsToOperandDims = 0
    rw [hsd]; simp

/-- The operand's one axis is inserted: the update has no coordinate inside the window. -/
theorem window_seg1 (hiw : d.insertedWindowDims = [0]) (j : (⟨1, ![M]⟩ : Shape).Idx) : d.window j 0 = 0 := by
  unfold ScatterDims.window
  rw [dif_neg]
  rw [ScatterDims.sKept, hiw]
  simp [Shape.kept, List.mem_filter]

end Seg1

section Seg1Main

variable {N M w : Nat} (d : ScatterDims ⟨1, ![N]⟩ ⟨2, ![M, 1]⟩ ⟨1, ![M]⟩)

/-- An update lands on segment `i` exactly when its index word, read signed, is `i`. -/
theorem resultIdx_seg1 (hiw : d.insertedWindowDims = [0]) (hsd : d.scatterDimsToOperandDims = [0]) (hiv : d.indexVectorDim = 1)
    (idx : IVec ⟨2, ![M, 1]⟩ w) (e : Fin M) (i : Fin N) :
    d.resultIdx? (ix1 e) idx = some (ix1 i) ↔ (idx (ix2 e 0)).toInt = (i.val : ℤ) := by
  have hs := start_seg1 d hsd hiv idx e
  have hw := window_seg1 d hiw (ix1 e)
  have hi := i.isLt
  constructor
  · intro h
    unfold ScatterDims.resultIdx? at h
    split at h
    · rename_i hall
      have h0 := congrArg Fin.val (congrFun (Option.some.inj h) 0)
      have hb := hall 0
      rw [hs, hw] at hb
      change (d.start (ix1 e) idx 0 + (d.window (ix1 e) 0 : ℤ)).toNat = i.val at h0
      rw [hs, hw] at h0
      omega
    · cases h
  · intro h
    have hall : ∀ a, 0 ≤ d.start (ix1 e) idx a + d.window (ix1 e) a ∧
        d.start (ix1 e) idx a + d.window (ix1 e) a < (⟨1, ![N]⟩ : Shape).size a := by
      intro a
      obtain rfl : a = 0 := Subsingleton.elim _ _
      rw [hs, hw]
      change 0 ≤ (idx (ix2 e 0)).toInt + ((0 : ℕ) : ℤ) ∧ (idx (ix2 e 0)).toInt + ((0 : ℕ) : ℤ) < (N : ℤ)
      omega
    unfold ScatterDims.resultIdx?
    rw [dif_pos hall]
    congr 1
    funext a
    obtain rfl : a = 0 := Subsingleton.elim _ _
    apply Fin.ext
    change (d.start (ix1 e) idx 0 + (d.window (ix1 e) 0 : ℤ)).toNat = i.val
    rw [hs, hw]
    omega

end Seg1Main

/-- A one-axis segment sum read at a segment: the operand there plus the updates whose index word, read signed, is that segment. -/
theorem scatterAdd_seg1 {N M w : Nat} (d : ScatterDims ⟨1, ![N]⟩ ⟨2, ![M, 1]⟩ ⟨1, ![M]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![M, 1]⟩ w) (upd : (⟨1, ![M]⟩ : Shape).Idx → EReal) (i : Fin N) :
    Host.scatterAdd (F := Ideal) (φ := .f32) d x idx upd (ix1 i)
      = x (ix1 i) + ∑ e ∈ Finset.univ.filter (fun e : Fin M => (idx (ix2 e 0)).toInt = (i.val : ℤ)), upd (ix1 e) := by
  change x (ix1 i) + ∑ j ∈ Finset.univ.filter (fun j => d.resultIdx? j idx = some (ix1 i)), upd j = _
  congr 1
  -- a sum over the update indices is a sum over their one coordinate
  rw [Finset.sum_filter, Finset.sum_filter, ← Equiv.sum_comp idxEquiv1.symm]
  refine Finset.sum_congr rfl fun e _ => ?_
  change (if d.resultIdx? (ix1 e) idx = some (ix1 i) then upd (ix1 e) else 0) = _
  simp only [resultIdx_seg1 d hiw hsd hiv idx e i]

/-! ## Segment sum of rows -/

/-- An entry of a one-element list is that element. -/
theorem getElem_of_eq_singleton {α : Type} {l : List α} {a : α} (hl : l = [a]) (k : Nat) (h : k < l.length) : l[k] = a := by
  subst hl
  have hk : k = 0 := by simpa using h
  subst hk
  rfl

section Rows

variable {N M D w : Nat} (d : ScatterDims ⟨2, ![N, D]⟩ ⟨2, ![M, 1]⟩ ⟨2, ![M, D]⟩)

/-- On the segment axis the window's start is the update row's index word, read signed. -/
theorem start_rows0 (huw : d.updateWindowDims = [1]) (hsd : d.scatterDimsToOperandDims = [0]) (hiv : d.indexVectorDim = 1)
    (idx : IVec ⟨2, ![M, 1]⟩ w) (e : Fin M) (c' : Fin D) :
    d.start (ix2 e c') idx 0 = (idx (ix2 e 0)).toInt := by
  have hm : (0 : Fin 2) ∈ d.scatterDimsToOperandDims := by rw [hsd]; exact List.mem_singleton.mpr rfl
  -- the updates' one scatter axis is axis 0
  have hus : d.uScatter = [(0 : Fin 2)] := by
    change (⟨2, ![M, D]⟩ : Shape).kept d.updateWindowDims = [0]
    rw [huw]; rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have row : ∀ X : Fin 2, X = 0 → ((ix2 e c' : (⟨2, ![M, D]⟩ : Shape).Idx) X).val = e.val := by
      rintro _ rfl; rfl
    exact row _ (getElem_of_eq_singleton hus _ _)
  | ⟨1, _⟩ =>
    unfold ScatterDims.siIdx
    rw [dif_pos (by rw [hiv])]
    apply Fin.ext
    show List.idxOf (0 : Fin 2) d.scatterDimsToOperandDims = 0
    rw [hsd]; simp

/-- The column axis is not named by the index: its window starts at zero. -/
theorem start_rows1 (hsd : d.scatterDimsToOperandDims = [0]) (idx : IVec ⟨2, ![M, 1]⟩ w) (j : (⟨2, ![M, D]⟩ : Shape).Idx) :
    d.start j idx 1 = 0 := by
  unfold ScatterDims.start
  rw [dif_neg (by rw [hsd]; simp)]

/-- The segment axis is inserted: the update has no coordinate inside the window there. -/
theorem window_rows0 (hiw : d.insertedWindowDims = [0]) (j : (⟨2, ![M, D]⟩ : Shape).Idx) : d.window j 0 = 0 := by
  unfold ScatterDims.window
  rw [dif_neg]
  rw [ScatterDims.sKept, hiw]
  simp [Shape.kept, List.mem_filter]

/-- On the column axis the window coordinate is the update's column. -/
theorem window_rows1 (huw : d.updateWindowDims = [1]) (hiw : d.insertedWindowDims = [0]) (e : Fin M) (c' : Fin D) :
    d.window (ix2 e c') 1 = c'.val := by
  have hk : (1 : Fin 2) ∈ d.sKept := by
    rw [ScatterDims.sKept, hiw]
    simp [Shape.kept, List.mem_filter]
  unfold ScatterDims.window
  rw [dif_pos hk]
  have col : ∀ X : Fin 2, X = 1 → ((ix2 e c' : (⟨2, ![M, D]⟩ : Shape).Idx) X).val = c'.val := by
    rintro _ rfl; rfl
  exact col _ (getElem_of_eq_singleton huw _ _)

end Rows

section RowsMain

variable {N M D w : Nat} (d : ScatterDims ⟨2, ![N, D]⟩ ⟨2, ![M, 1]⟩ ⟨2, ![M, D]⟩)

/-- An update element lands on (segment `i`, column `c`) exactly when its row's index word, read signed, is `i`
    and its own column is `c`. -/
theorem resultIdx_rows (huw : d.updateWindowDims = [1]) (hiw : d.insertedWindowDims = [0]) (hsd : d.scatterDimsToOperandDims = [0])
    (hiv : d.indexVectorDim = 1) (idx : IVec ⟨2, ![M, 1]⟩ w) (e : Fin M) (c' : Fin D) (i : Fin N) (c : Fin D) :
    d.resultIdx? (ix2 e c') idx = some (ix2 i c) ↔ ((idx (ix2 e 0)).toInt = (i.val : ℤ) ∧ c' = c) := by
  have hs0 := start_rows0 d huw hsd hiv idx e c'
  have hs1 := start_rows1 d hsd idx (ix2 e c')
  have hw0 := window_rows0 d hiw (ix2 e c')
  have hw1 := window_rows1 d huw hiw e c'
  have hi := i.isLt
  have hc := c.isLt
  have hc' := c'.isLt
  constructor
  · intro h
    unfold ScatterDims.resultIdx? at h
    split at h
    · rename_i hall
      have hf := Option.some.inj h
      have h0 := congrArg Fin.val (congrFun hf 0)
      have h1 := congrArg Fin.val (congrFun hf 1)
      have hb := hall 0
      rw [hs0, hw0] at hb
      change (d.start (ix2 e c') idx 0 + (d.window (ix2 e c') 0 : ℤ)).toNat = i.val at h0
      change (d.start (ix2 e c') idx 1 + (d.window (ix2 e c') 1 : ℤ)).toNat = c.val at h1
      rw [hs0, hw0] at h0
      rw [hs1, hw1] at h1
      exact ⟨by omega, Fin.ext (by omega)⟩
    · cases h
  · rintro ⟨h, rfl⟩
    have hall : ∀ a, 0 ≤ d.start (ix2 e c') idx a + d.window (ix2 e c') a ∧
        d.start (ix2 e c') idx a + d.window (ix2 e c') a < (⟨2, ![N, D]⟩ : Shape).size a := by
      refine Fin.forall_fin_two.mpr ⟨?_, ?_⟩
      · rw [hs0, hw0]
        change 0 ≤ (idx (ix2 e 0)).toInt + ((0 : ℕ) : ℤ) ∧ (idx (ix2 e 0)).toInt + ((0 : ℕ) : ℤ) < (N : ℤ)
        omega
      · rw [hs1, hw1]
        change 0 ≤ (0 : ℤ) + ((c'.val : ℕ) : ℤ) ∧ (0 : ℤ) + ((c'.val : ℕ) : ℤ) < (D : ℤ)
        omega
    unfold ScatterDims.resultIdx?
    rw [dif_pos hall]
    congr 1
    funext a
    apply Fin.ext
    revert a
    refine Fin.forall_fin_two.mpr ⟨?_, ?_⟩
    · change (d.start (ix2 e c') idx 0 + (d.window (ix2 e c') 0 : ℤ)).toNat = i.val
      rw [hs0, hw0]
      omega
    · change (d.start (ix2 e c') idx 1 + (d.window (ix2 e c') 1 : ℤ)).toNat = c'.val
      rw [hs1, hw1]
      omega

end RowsMain

/-- A segment sum of rows read at (segment, column). -/
theorem scatterAdd_segRows {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0]) (hiv : d.indexVectorDim = 1)
    (x : (⟨2, ![N, D]⟩ : Shape).Idx → EReal) (idx : IVec ⟨2, ![M, 1]⟩ w) (upd : (⟨2, ![M, D]⟩ : Shape).Idx → EReal) (i : Fin N) (c : Fin D) :
    Host.scatterAdd (F := Ideal) (φ := .f32) d x idx upd (ix2 i c)
      = x (ix2 i c) + ∑ e ∈ Finset.univ.filter (fun e : Fin M => (idx (ix2 e 0)).toInt = (i.val : ℤ)), upd (ix2 e c) := by
  change x (ix2 i c) + ∑ j ∈ Finset.univ.filter (fun j => d.resultIdx? j idx = some (ix2 i c)), upd j = _
  congr 1
  -- a sum over the update indices is the double sum over (row, column); in each row only column `c` can land
  rw [Finset.sum_filter, Finset.sum_filter, sum_idx2]
  refine Finset.sum_congr rfl fun e _ => ?_
  simp only [resultIdx_rows d huw hiw hsd hiv idx]
  by_cases hP : (idx (ix2 e 0)).toInt = (i.val : ℤ)
  · simp [hP]
  · simp [hP]

/-! ## Gathers -/

/-- The index of row `p` of a one-column table, in the two spellings that name it. -/
theorem ixP_eq {n : Nat} (p : Fin n) : StableHlo.Predicate.ixP p = ix2 p (0 : Fin 1) := by
  funext b; match b with | ⟨0, _⟩ => rfl | ⟨1, _⟩ => rfl

/-- A rank-1 index from its coordinate, in the two spellings that name it. -/
theorem ofFin_eq {n : Nat} (p : Fin n) : Shape.Idx.ofFin p = ix1 p := by
  funext b; match b with | ⟨0, _⟩ => rfl

/-- A one-axis gather (x[idx] of a flat array) read at a position: the entry the index word names, read signed and clamped into [0, N - 1]. -/
theorem gather_seg1 {α : Type} {N M w : Nat} (d : GatherDims ⟨1, ![N]⟩ ⟨2, ![M, 1]⟩ ⟨1, ![M]⟩) (hcoll : d.collapsedSliceDims = [0]) (hob : d.operandBatchingDims = []) (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e 0)).toInt.toNat (N - 1), by omega⟩) := by
  have h := StableHlo.Predicate.gather_take d hcoll hob hsim hivd x idx e hN
  rw [ofFin_eq, ofFin_eq] at h
  simp only [ixP_eq] at h
  exact h

section GRows

variable {N M D w : Nat} (d : GatherDims ⟨2, ![N, D]⟩ ⟨2, ![M, 1]⟩ ⟨2, ![M, D]⟩)

/-- The start-index table is read at (the result's row, 0). -/
theorem siIdx_rows (hoff : d.offsetDims = [1]) (hsim : d.startIndexMap = [0]) (hivd : d.indexVectorDim = 1)
    (e : Fin M) (c : Fin D) (k : Fin d.startIndexMap.length) :
    d.siIdx (ix2 e c) k = ix2 e 0 := by
  -- the result's one batch axis is axis 0
  have hbd : d.batchDims = [(0 : Fin 2)] := by
    change (⟨2, ![M, D]⟩ : Shape).kept d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    have row : ∀ X : Fin 2, X = 0 → ((ix2 e c : (⟨2, ![M, D]⟩ : Shape).Idx) X).val = e.val := by
      rintro _ rfl; rfl
    exact row _ (getElem_of_eq_singleton hbd _ _)
  | ⟨1, _⟩ =>
    unfold GatherDims.siIdx
    rw [dif_pos (by rw [hivd])]
    apply Fin.ext
    show k.val = 0
    have hk : k.val < d.startIndexMap.length := k.isLt
    have hl : d.startIndexMap.length = 1 := by rw [hsim]; rfl
    omega

/-- On the column axis the offset coordinate is the result's column. -/
theorem offCoord_rows1 (hoff : d.offsetDims = [1]) (hcoll : d.collapsedSliceDims = [0]) (hob : d.operandBatchingDims = [])
    (e : Fin M) (c : Fin D) : d.offCoord (ix2 e c) 1 = c.val := by
  have hk : (1 : Fin 2) ∈ d.sKept := by rw [GatherDims.mem_sKept, hcoll, hob]; simp
  unfold GatherDims.offCoord
  rw [dif_pos hk]
  have col : ∀ X : Fin 2, X = 1 → ((ix2 e c : (⟨2, ![M, D]⟩ : Shape).Idx) X).val = c.val := by
    rintro _ rfl; rfl
  exact col _ (getElem_of_eq_singleton hoff _ _)

end GRows

/-- A gather of rows (x[idx] of a matrix) read at (position, column): the row the index word names, read signed and clamped into [0, N - 1]. -/
theorem gather_rows {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = []) (hsb : d.startIndicesBatchingDims = [])
    (hsim : d.startIndexMap = [0]) (hivd : d.indexVectorDim = 1) (hss : d.sliceSizes = ![1, D])
    (x : (⟨2, ![N, D]⟩ : Shape).Idx → α) (idx : IVec ⟨2, ![M, 1]⟩ w) (e : Fin M) (c : Fin D) (hN : 0 < N) :
    Host.gather d x idx (ix2 e c) = x (ix2 ⟨min (idx (ix2 e 0)).toInt.toNat (N - 1), by omega⟩ c) := by
  have hb : ∀ a : Fin 2, a ∉ d.operandBatchingDims := fun a => by rw [hob]; exact List.not_mem_nil
  unfold Host.gather
  congr 1
  funext a
  apply Fin.ext
  revert a
  refine Fin.forall_fin_two.mpr ⟨?_, ?_⟩
  · -- the row axis: collapsed and named by the index, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    change d.start (ix2 e c) idx 0 + d.batchCoord (ix2 e c) 0 + d.offCoord (ix2 e c) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, siIdx_rows d hoff hsim hivd e c, hsl]
    rfl
  · -- the column axis: kept and not named by the index, so the offset coordinate alone
    have hm : (1 : Fin 2) ∉ d.startIndexMap := by rw [hsim]; simp
    change d.start (ix2 e c) idx 1 + d.batchCoord (ix2 e c) 1 + d.offCoord (ix2 e c) 1 = c.val
    rw [GatherDims.batchCoord_eq_zero _ _ _ (hb 1), offCoord_rows1 d hoff hcoll hob e c, Nat.add_zero]
    unfold GatherDims.start
    rw [dif_neg hm, Nat.zero_add]

/-! ## Words -/

/-- A word that, read signed, lies in [0, N) is its own clamp into [0, N - 1]. -/
theorem clamp_of_inRange {N : Nat} (v : BitVec 32) (h0 : 0 ≤ v.toInt) (hN : v.toInt < (N : ℤ)) :
    min v.toInt.toNat (N - 1) = v.toInt.toNat := by
  have h : v.toInt.toNat < N := by omega
  exact Nat.min_eq_left (by omega)

end Cert.LibSegmentSum

end
-- ==== Proof.KV.HostNorm.lean ====
/-
  The host prefix of the program read at an index.

  Before its first kernel region the program builds, from the 2 × 160000 edge table, the two lists of 170000 arcs
  (row 0, resp. row 1, followed by the node numbers 0 … 9999, each list clipped into [0, 9999]), the in-degree of every
  node (ones added into zeros at the targets), its inverse square root where the degree is positive and zero elsewhere,
  and the arc weights (that table read at the sources times the same table read at the targets).

  Where every word of the edge table names a node, nothing is clipped, no index is wrapped or clamped, and the three
  arrays the first kernel region finds are: the source words, the target words, and the weights `Cert.Spec.nrm` of the
  graph the table describes.

  Each stretch of host operations is a function of the buffer contents it is entered with: its results are stated as
  terms over an arbitrary such contents, the terms are read at an index, and the readings are chained along the
  stretches, a stretch leaving every buffer it does not write as it was.
-/
import proofs.«411933_j790273982476_2_alg».proof.Proof.Gen.KernelIdeal.Regions
import proofs.«411933_j790273982476_2_alg».proof.Proof.Edges
import proofs.«411933_j790273982476_2_alg».proof.Proof.Spec
import proofs.«411933_j790273982476_2_alg».proof.Proof.LibSegmentSum
import Idealize.ShloMosaic.Lib.StableHlo.Run
import Idealize.ShloMosaic.Lib.Pipeline.Value
import Idealize.ShloMosaic.Lib.ValueIdx
import Idealize.ShloMosaic.Lib.StableHlo.Predicate
import Idealize.ShloMosaic.Lib.IdealHost

noncomputable section

namespace Cert.KernelIdeal.HostNorm

open Cert.KernelIdeal Cert.KernelIdeal.Gen Idealize.ShloMosaic Idealize.ShloMosaic.TcCoe Idealize.ShloMosaic.ValueIdx
open scoped BigOperators

variable (W : Valuation τ sig (Elt Ideal))

/-! ## The stretches, each read off an arbitrary valuation it is entered with -/

/-- Row `r` of the edge table followed by the node numbers: the arc list before clipping. -/
def arcs (off : Fin 2 → Nat) (h : S2x160000.Slices off S1x160000) (t : S2x160000.Idx → BitVec 32) : S170000.Idx → BitVec 32 :=
  concatenate S170000 0 [⟨S160000, shapeCast S160000 (extractStridedSlice S1x160000 off t h) Facts₀.shapeCasts_S1x160000_S160000⟩, ⟨S10000, iotaInDim S10000 32 0⟩] Facts₀.concatenates_S160000_S10000_S170000_d0

theorem stA3 : (StableHlo.after (hostOps0 (F := Ideal)) W main_v3 : S170000.Idx → BitVec 32)
    = arcs ![0, 0] Facts₀.slices_S2x160000_S1x160000_0_0 (W main_arg1) := by
  simp only [hostOps0]
  after_results
  rfl

theorem stA6 : (StableHlo.after (hostOps0 (F := Ideal)) W main_v6 : S170000.Idx → BitVec 32)
    = arcs ![1, 0] Facts₀.slices_S2x160000_S1x160000_1_0 (W main_arg1) := by
  simp only [hostOps0]
  after_results
  rfl

theorem stAc : (StableHlo.after (hostOps0 (F := Ideal)) W main_c : S_.Idx → BitVec 32) = constantI S_ 32 0#32 := by
  simp only [hostOps0]
  after_results

theorem stAc0 : (StableHlo.after (hostOps0 (F := Ideal)) W main_c_0 : S_.Idx → BitVec 32) = constantI S_ 32 9999#32 := by
  simp only [hostOps0]
  after_results

/-- The clip of a list of words between two scalar bounds. -/
def clipW (lo hi : S_.Idx → BitVec 32) (x : S170000.Idx → BitVec 32) : S170000.Idx → BitVec 32 :=
  minsi (broadcastInDim S170000 ![] Facts₀.bcast_S_S170000 hi) (maxsi (broadcastInDim S170000 ![] Facts₀.bcast_S_S170000 lo) x)

theorem stB7 : (StableHlo.after (hostOps0_1 (F := Ideal)) W main_v7 : S170000.Idx → BitVec 32)
    = clipW (W main_c) (W main_c_0) (W main_v3) := by
  simp only [hostOps0_1]
  after_results
  rfl

theorem stCc1 : (StableHlo.after (hostOps0_2 (F := Ideal)) W main_c_1 : S_.Idx → BitVec 32) = constantI S_ 32 0#32 := by
  simp only [hostOps0_2]
  after_results

theorem stCc2 : (StableHlo.after (hostOps0_2 (F := Ideal)) W main_c_2 : S_.Idx → BitVec 32) = constantI S_ 32 9999#32 := by
  simp only [hostOps0_2]
  after_results

theorem stD8 : (StableHlo.after (hostOps0_3 (F := Ideal)) W main_v8 : S170000.Idx → BitVec 32)
    = clipW (W main_c_1) (W main_c_2) (W main_v6) := by
  simp only [hostOps0_3]
  after_results
  rfl

/-- The in-degree as the program computes it from the target list: ones added into zeros at the targets. -/
def degV (d : S170000.Idx → BitVec 32) : S10000.Idx → EReal :=
  Host.scatterAdd (F := Ideal) scatter_S10000_S170000x1_S170000_n_0_0_1
    (broadcastInDim S10000 ![] Facts₀.bcast_S_S10000 (constant (F := Ideal) S_ .f32 0x00000000#32))
    (broadcastInDim S170000x1 ![0] Facts₀.bcast_S170000_S170000x1_0 d)
    (broadcastInDim S170000 ![] Facts₀.bcast_S_S170000 (constant (F := Ideal) S_ .f32 0x3F800000#32))

theorem stE12 : (StableHlo.after (hostOps0_4 (F := Ideal)) W main_v12 : S10000.Idx → EReal) = degV (W main_v8) := by
  simp only [hostOps0_4]
  after_results
  rfl

theorem stE14 : (StableHlo.after (hostOps0_4 (F := Ideal)) W main_v14 : S10000.Idx → BitVec 1)
    = cmpf (F := Ideal) .ogt (degV (W main_v8)) (broadcastInDim S10000 ![] Facts₀.bcast_S_S10000 (constant (F := Ideal) S_ .f32 0x00000000#32)) := by
  simp only [hostOps0_4]
  after_results
  rfl

theorem stE15 : (StableHlo.after (hostOps0_4 (F := Ideal)) W main_v15 : S10000.Idx → EReal) = Host.rsqrt (F := Ideal) (φ := .f32) (degV (W main_v8)) := by
  simp only [hostOps0_4]
  after_results
  rfl

theorem stEcst5 : (StableHlo.after (hostOps0_4 (F := Ideal)) W main_cst_5 : S_.Idx → EReal) = constant (F := Ideal) S_ .f32 0x00000000#32 := by
  simp only [hostOps0_4]
  after_results

theorem stF16 : (StableHlo.after (hostOps0_5 (F := Ideal)) W main_v16 : S10000.Idx → EReal)
    = select (W main_v14) (W main_v15) (broadcastInDim S10000 ![] Facts₀.bcast_S_S10000 (W main_cst_5)) := by
  simp only [hostOps0_5]
  after_results
  rfl

/-- The index column of x[idx]: a negative word wrapped by the table's length, as a one-column table. -/
def wrapCol (x : S170000.Idx → BitVec 32) : S170000x1.Idx → BitVec 32 :=
  broadcastInDim S170000x1 ![0] Facts₀.bcast_S170000_S170000x1_0
    (select (cmpi .slt x (broadcastInDim S170000 ![] Facts₀.bcast_S_S170000 (constantI S_ 32 0#32)))
      (addi x (broadcastInDim S170000 ![] Facts₀.bcast_S_S170000 (constantI S_ 32 10000#32))) x)

/-- The arc weights as the program computes them: the table `dinv` read at the sources times the table read at the targets. -/
def nrmV (dinv : S10000.Idx → EReal) (s d : S170000.Idx → BitVec 32) : S170000.Idx → EReal :=
  mulf (F := Ideal) (φ := .f32) (Host.gather gather_S10000_S170000x1_S170000_n_0_n_n_0_1_1 dinv (wrapCol s))
    (Host.gather gather_S10000_S170000x1_S170000_n_0_n_n_0_1_1 dinv (wrapCol d))

theorem stG31 : (StableHlo.after (hostOps0_6 (F := Ideal)) W main_v31 : S170000.Idx → EReal)
    = nrmV (W main_v16) (W main_v7) (W main_v8) := by
  simp only [hostOps0_6]
  after_results_simp
  rfl

/-! ## The stages read at an index -/

/-- The arc list at arc `e`: the table's word for an edge, the node's own number for a self-loop. -/
theorem arcs_apply (r : Fin 2) (h : S2x160000.Slices ![r.val, 0] S1x160000) (t : Cert.Edges.Tbl) (e : Fin 170000) :
    arcs ![r.val, 0] h t (ix1 e) = Cert.Edges.word t r e := by
  unfold arcs Cert.Edges.word
  split
  · rename_i hlt
    refine (concatenate_pair_apply_left (t := S170000) (s₁ := S160000) (s₂ := S10000) 0 _ _ _ (ix1 e) rfl (ix1 ⟨e.val, hlt⟩)
      (fun b => by match b with | ⟨0, _⟩ => rfl)).trans ?_
    refine (shapeCast_apply (s := S1x160000) (t := S160000) _ _ (ix1 ⟨e.val, hlt⟩) (ix2 0 ⟨e.val, hlt⟩) ?_).trans ?_
    · rw [Shape.rowMajor_val_two, Shape.rowMajor_val_one]
      show 0 * 160000 + e.val = e.val
      omega
    · refine extractStridedSlice_apply (s := S2x160000) (t := S1x160000) _ _ _ (ix2 0 ⟨e.val, hlt⟩) (ix2 r ⟨e.val, hlt⟩) ?_
      intro a
      match a with
      | ⟨0, _⟩ => show r.val = r.val + 0; omega
      | ⟨1, _⟩ => show e.val = 0 + e.val; omega
  · rename_i hge
    have hlt : e.val - 160000 < 10000 := by have := e.isLt; omega
    refine (concatenate_pair_apply_right (t := S170000) (s₁ := S160000) (s₂ := S10000) 0 _ _ _ (ix1 e) rfl rfl (ix1 ⟨e.val - 160000, hlt⟩)
      (fun b hb => absurd (Subsingleton.elim (α := Fin 1) _ _) hb) ?_).trans ?_
    · show (e.val - 160000) + 160000 = e.val
      omega
    · rfl

/-- A word that names a node is its own clip into [0, 9999]. -/
theorem clip_id (w : BitVec 32) (hw : w.toNat < 10000) : IntOp.minsi 9999#32 (IntOp.maxsi 0#32 w) = w := by
  have hti : w.toInt = (w.toNat : ℤ) := Cert.Edges.toInt_of_lt w hw
  have h0 : (0#32 : BitVec 32).toInt = 0 := by decide
  have h9 : (9999#32 : BitVec 32).toInt = 9999 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, h9, decide_eq_true_eq]
  omega

/-- The clip between the scalars 0 and 9999 leaves a list of node words as it is. -/
theorem clipW_apply (x : S170000.Idx → BitVec 32) (e : Fin 170000) (hx : (x (ix1 e)).toNat < 10000) :
    clipW (constantI S_ 32 0#32) (constantI S_ 32 9999#32) x (ix1 e) = x (ix1 e) := by
  show IntOp.minsi (broadcastInDim S170000 ![] Facts₀.bcast_S_S170000 (constantI S_ 32 9999#32) (ix1 e))
    (IntOp.maxsi (broadcastInDim S170000 ![] Facts₀.bcast_S_S170000 (constantI S_ 32 0#32) (ix1 e)) (x (ix1 e))) = _
  rw [broadcastInDim_scalar_apply, broadcastInDim_scalar_apply]
  exact clip_id _ hx

/-- A list of words as a one-column table reads the list. -/
theorem col_apply (x : S170000.Idx → BitVec 32) (e : Fin 170000) :
    broadcastInDim S170000x1 ![0] Facts₀.bcast_S170000_S170000x1_0 x (ix2 e 0) = x (ix1 e) :=
  broadcastInDim_apply (s := S170000) (t := S170000x1) _ _ x (ix2 e 0) (ix1 e) (fun a => by
    match a with
    | ⟨0, _⟩ => rfl)

/-- A word that names a node is not negative, so the negative-index wrap leaves it. -/
theorem wrapCol_apply (x : S170000.Idx → BitVec 32) (e : Fin 170000) (hx : (x (ix1 e)).toNat < 10000) :
    wrapCol x (ix2 e 0) = x (ix1 e) := by
  unfold wrapCol
  rw [col_apply]
  show Scalar.select (IntOp.cmpi .slt (x (ix1 e)) (broadcastInDim S170000 ![] Facts₀.bcast_S_S170000 (constantI S_ 32 0#32) (ix1 e)))
    (IntOp.addi (x (ix1 e)) (broadcastInDim S170000 ![] Facts₀.bcast_S_S170000 (constantI S_ 32 10000#32) (ix1 e))) (x (ix1 e)) = _
  rw [broadcastInDim_scalar_apply]
  have hti : (x (ix1 e)).toInt = ((x (ix1 e)).toNat : ℤ) := Cert.Edges.toInt_of_lt _ hx
  have h0 : (0#32 : BitVec 32).toInt = 0 := by decide
  have hc : IntOp.cmpi .slt (x (ix1 e)) (constantI S_ 32 0#32 ix0) = 0#1 := by
    show BitVec.ofBool ((x (ix1 e)).slt 0#32) = 0#1
    have : (x (ix1 e)).slt 0#32 = false := by
      simp only [BitVec.slt, hti, h0, decide_eq_false_iff_not]
      omega
    rw [this]; rfl
  rw [hc]
  exact select_zero _ _

/-- The in-degree the program computes, at node `i`: one for every arc whose target word is `i`. -/
theorem degV_apply (d : S170000.Idx → BitVec 32) (hd : ∀ e : Fin 170000, (d (ix1 e)).toNat < 10000) (i : Fin 10000) :
    degV d (ix1 i) = ∑ e ∈ Finset.univ.filter (fun e : Fin 170000 => (d (ix1 e)).toNat = i.val), (1 : EReal) := by
  unfold degV
  rw [Cert.LibSegmentSum.scatterAdd_seg1 _ rfl rfl rfl rfl]
  rw [broadcastInDim_scalar_apply, constant_apply, Ideal.ofBits_zero_f32, zero_add]
  refine Finset.sum_congr (Finset.filter_congr fun e _ => ?_) fun e _ => ?_
  · rw [col_apply, Cert.Edges.toInt_of_lt _ (hd e)]
    exact Int.ofNat_inj
  · rw [broadcastInDim_scalar_apply, constant_apply, Ideal.ofBits_one_f32]

/-- The comparison "greater than" of two tables of extended reals, at an entry. -/
theorem gt_apply (a b : S10000.Idx → EReal) (i : S10000.Idx) :
    cmpf (F := Ideal) (φ := .f32) .ogt a b i = Ideal.cmp .ogt (a i) (b i) := rfl

/-- The host's inverse square root of a table of extended reals, at an entry. -/
theorem hostRsqrt_apply (a : S10000.Idx → EReal) (i : S10000.Idx) :
    Host.rsqrt (F := Ideal) (φ := .f32) a i = Ideal.rsqrt (a i) := rfl

/-- The inverse square root of a table where it is positive, zero elsewhere, as the program spells it. -/
def dinvV (g : S10000.Idx → EReal) : S10000.Idx → EReal :=
  select (cmpf (F := Ideal) (φ := .f32) .ogt g (broadcastInDim S10000 ![] Facts₀.bcast_S_S10000 (constant (F := Ideal) S_ .f32 0x00000000#32)))
    (Host.rsqrt (F := Ideal) (φ := .f32) g)
    (broadcastInDim S10000 ![] Facts₀.bcast_S_S10000 (constant (F := Ideal) S_ .f32 0x00000000#32))

theorem dinvV_apply (g : S10000.Idx → EReal) (i : S10000.Idx) :
    dinvV g i = if 0 < g i then Ideal.rsqrt (g i) else 0 := by
  unfold dinvV
  rw [select_apply, gt_apply, hostRsqrt_apply, broadcastInDim_scalar_apply, constant_apply, Ideal.ofBits_zero_f32]
  unfold Ideal.cmp
  by_cases hp : 0 < g i
  · rw [if_pos hp]
    simp only [hp, decide_true]
    exact select_one _ _
  · rw [if_neg hp]
    simp only [hp, decide_false]
    exact select_zero _ _

/-- The table `t` read at a list of node words: x[idx] at position `e` is the entry the word names. -/
theorem take_apply (t : S10000.Idx → EReal) (x : S170000.Idx → BitVec 32) (e : Fin 170000) (a : Fin 10000)
    (hx : (x (ix1 e)).toNat = a.val) :
    Host.gather gather_S10000_S170000x1_S170000_n_0_n_n_0_1_1 t (wrapCol x) (ix1 e) = t (ix1 a) := by
  have hlt : (x (ix1 e)).toNat < 10000 := by have := a.isLt; omega
  rw [Cert.LibSegmentSum.gather_seg1 _ rfl rfl rfl rfl t (wrapCol x) e (by decide)]
  refine congrArg t (congrArg ix1 (Fin.ext ?_))
  show min (wrapCol x (ix2 e 0)).toInt.toNat (10000 - 1) = a.val
  rw [wrapCol_apply x e hlt, Cert.Edges.toInt_of_lt _ hlt]
  omega

/-- The weights at arc `e`: the table at the source word times the table at the target word. -/
theorem nrmV_apply (t : S10000.Idx → EReal) (s d : S170000.Idx → BitVec 32) (e : Fin 170000) (a b : Fin 10000)
    (hs : (s (ix1 e)).toNat = a.val) (hd : (d (ix1 e)).toNat = b.val) :
    nrmV t s d (ix1 e) = t (ix1 a) * t (ix1 b) := by
  unfold nrmV
  rw [mulf_apply, take_apply _ _ e a hs, take_apply _ _ e b hd]

/-! ## The arc lists the first kernel region is entered with -/

variable (m : (ℓ : Loc nD τ sig) → Buf (Elt Ideal) ℓ) (c : Dev nD)

/-- The edge table the program is launched with, on core `c`. -/
abbrev ei : Cert.Edges.Tbl := m ((c.tc : Thread nD τ).loc main_arg1)

/-- The source list before clipping. -/
theorem v3_apply (e : Fin 170000) : V1 m c main_v3 (ix1 e) = Cert.Edges.word (ei m c) 0 e :=
  (congrFun (stA3 (V0 m c)) (ix1 e)).trans (arcs_apply 0 _ (ei m c) e)

/-- The target list before clipping. -/
theorem v6_apply (e : Fin 170000) : V1 m c main_v6 (ix1 e) = Cert.Edges.word (ei m c) 1 e :=
  (congrFun (stA6 (V0 m c)) (ix1 e)).trans (arcs_apply 1 _ (ei m c) e)

/-- The clipped source list, right after its stretch. -/
theorem v7_at2 (hr : Cert.Edges.InRange (ei m c)) (e : Fin 170000) : V2 m c main_v7 (ix1 e) = Cert.Edges.word (ei m c) 0 e := by
  have hc : (V1 m c main_c : S_.Idx → BitVec 32) = constantI S_ 32 0#32 := stAc (V0 m c)
  have hc0 : (V1 m c main_c_0 : S_.Idx → BitVec 32) = constantI S_ 32 9999#32 := stAc0 (V0 m c)
  refine (congrFun (stB7 (V1 m c)) (ix1 e)).trans ?_
  rw [hc, hc0, clipW_apply _ e (by rw [v3_apply]; exact Cert.Edges.word_lt hr 0 e)]
  exact v3_apply m c e

/-- The clipped target list, right after its stretch. -/
theorem v8_at4 (hr : Cert.Edges.InRange (ei m c)) (e : Fin 170000) : V4 m c main_v8 (ix1 e) = Cert.Edges.word (ei m c) 1 e := by
  have hc : (V3 m c main_c_1 : S_.Idx → BitVec 32) = constantI S_ 32 0#32 := stCc1 (V2 m c)
  have hc0 : (V3 m c main_c_2 : S_.Idx → BitVec 32) = constantI S_ 32 9999#32 := stCc2 (V2 m c)
  have h6 : V3 m c main_v6 = V1 m c main_v6 := (V3_of m c main_v6 (by decide)).trans (V2_of m c main_v6 (by decide))
  refine (congrFun (stD8 (V3 m c)) (ix1 e)).trans ?_
  rw [hc, hc0, h6, clipW_apply _ e (by rw [v6_apply]; exact Cert.Edges.word_lt hr 1 e)]
  exact v6_apply m c e

/-- No later stretch before the first kernel region writes the source list. -/
theorem V9_v7 : V9 m c main_v7 = V2 m c main_v7 :=
  (V9_of m c main_v7 (by decide)).trans <| (V8_of m c main_v7 (by decide)).trans <| (V7_of m c main_v7 (by decide)).trans <|
    (V6_of m c main_v7 (by decide)).trans <| (V5_of m c main_v7 (by decide)).trans <| (V4_of m c main_v7 (by decide)).trans
      (V3_of m c main_v7 (by decide))

/-- No later stretch before the first kernel region writes the target list. -/
theorem V9_v8 : V9 m c main_v8 = V4 m c main_v8 :=
  (V9_of m c main_v8 (by decide)).trans <| (V8_of m c main_v8 (by decide)).trans <| (V7_of m c main_v8 (by decide)).trans <|
    (V6_of m c main_v8 (by decide)).trans (V5_of m c main_v8 (by decide))

/-- The source list the first kernel region finds: arc `e`'s source word. -/
theorem v7_apply (hr : Cert.Edges.InRange (ei m c)) (e : Fin 170000) :
    V9 (F := Ideal) m c main_v7 (ix1 e) = Cert.Edges.word (ei m c) 0 e := by
  rw [V9_v7]
  exact v7_at2 m c hr e

/-- The target list the first kernel region finds: arc `e`'s target word. -/
theorem v8_apply (hr : Cert.Edges.InRange (ei m c)) (e : Fin 170000) :
    V9 (F := Ideal) m c main_v8 (ix1 e) = Cert.Edges.word (ei m c) 1 e := by
  rw [V9_v8]
  exact v8_at4 m c hr e

/-! ## The in-degree, its inverse square root, the arc weights -/

/-- The in-degree the program computes is the graph's. -/
theorem deg_apply (hr : Cert.Edges.InRange (ei m c)) (i : Fin 10000) :
    degV (V4 m c main_v8) (ix1 i) = Cert.Spec.deg (Cert.Edges.dN (ei m c) hr) i := by
  rw [degV_apply _ (fun e => by rw [v8_at4 m c hr e]; exact Cert.Edges.word_lt hr 1 e)]
  unfold Cert.Spec.deg
  refine Finset.sum_congr (Finset.filter_congr fun e _ => ?_) fun _ _ => rfl
  rw [v8_at4 m c hr e, Fin.ext_iff, Cert.Edges.dN_val]

/-- The table the program gathers from is the graph's `dinv`. -/
theorem dinv_apply (hr : Cert.Edges.InRange (ei m c)) (i : Fin 10000) :
    V6 m c main_v16 (ix1 i) = Cert.Spec.dinv (Cert.Edges.dN (ei m c) hr) i := by
  have h14 : (V5 m c main_v14 : S10000.Idx → BitVec 1) = _ := stE14 (V4 m c)
  have h15 : (V5 m c main_v15 : S10000.Idx → EReal) = _ := stE15 (V4 m c)
  have hc5 : (V5 m c main_cst_5 : S_.Idx → EReal) = _ := stEcst5 (V4 m c)
  refine (congrFun (stF16 (V5 m c)) (ix1 i)).trans ?_
  rw [h14, h15, hc5]
  refine (dinvV_apply (degV (V4 m c main_v8)) (ix1 i)).trans ?_
  rw [deg_apply m c hr i]
  rfl

/-- No later stretch before the first kernel region writes the weights. -/
theorem V9_v31 : V9 m c main_v31 = V7 m c main_v31 :=
  (V9_of m c main_v31 (by decide)).trans (V8_of m c main_v31 (by decide))

/-- The weights the first kernel region finds: arc `e`'s weight in the graph the edge table describes. -/
theorem v31_apply (hr : Cert.Edges.InRange (ei m c)) (e : Fin 170000) :
    V9 (F := Ideal) m c main_v31 (ix1 e) = Cert.Spec.nrm (Cert.Edges.sN (ei m c) hr) (Cert.Edges.dN (ei m c) hr) e := by
  have h7 : V6 m c main_v7 = V2 m c main_v7 :=
    (V6_of m c main_v7 (by decide)).trans <| (V5_of m c main_v7 (by decide)).trans <| (V4_of m c main_v7 (by decide)).trans
      (V3_of m c main_v7 (by decide))
  have h8 : V6 m c main_v8 = V4 m c main_v8 := (V6_of m c main_v8 (by decide)).trans (V5_of m c main_v8 (by decide))
  have hs : (V2 m c main_v7 (ix1 e)).toNat = (Cert.Edges.sN (ei m c) hr e).val :=
    (congrArg BitVec.toNat (v7_at2 m c hr e)).trans (Cert.Edges.sN_val (ei m c) hr e).symm
  have hd : (V4 m c main_v8 (ix1 e)).toNat = (Cert.Edges.dN (ei m c) hr e).val :=
    (congrArg BitVec.toNat (v8_at4 m c hr e)).trans (Cert.Edges.dN_val (ei m c) hr e).symm
  rw [V9_v31]
  refine (congrFun (stG31 (V6 m c)) (ix1 e)).trans ?_
  rw [h7, h8]
  refine (nrmV_apply _ _ _ e _ _ hs hd).trans ?_
  rw [dinv_apply m c hr, dinv_apply m c hr]
  unfold Cert.Spec.nrm
  rfl

end Cert.KernelIdeal.HostNorm

end
-- ==== Proof.KV.HostArrays.lean ====
/-
  The arrays the three matrix-product kernels are fed, read one entry at a time at the extended reals.

  Before its first kernel the program builds, on the host, from the node features, the edge table, the two weight
  matrices and the two biases:
    * the padded adjacency matrix (10240 × 10240): a zero array of 10240 · 10240 entries into which every arc's
      weight is added at the flat position target · 10240 + source, then cut into rows of 10240;
    * the node features padded below with 240 zero rows;
    * the two weight matrices, their float format changed;
    * the two biases, each as a one-row table.
  At the extended reals a change of float format is the identity. The flat position is computed in 32-bit words;
  for node numbers below 10000 it is below 2³¹, so the words neither wrap nor turn negative, and the word's signed
  reading is target · 10240 + source. The entry (d, s) of the adjacency matrix is therefore the sum of the weights
  of the arcs whose flat position is d · 10240 + s. After its last kernel the program keeps the first 10000 rows.
-/
import proofs.«411933_j790273982476_2_alg».proof.Proof.Gen.KernelIdeal.Regions
import proofs.«411933_j790273982476_2_alg».proof.Proof.Edges
import proofs.«411933_j790273982476_2_alg».proof.Proof.Spec
import proofs.«411933_j790273982476_2_alg».proof.Proof.LibSegmentSum
import Idealize.ShloMosaic.Lib.StableHlo.Run
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.KernelVsHost

noncomputable section

namespace Cert.KernelIdeal.HostArrays

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

/-- The edge table at launch. -/
abbrev ei : Cert.Edges.Tbl := m ((c.tc : Thread nD τ).loc main_arg1)

/-! ## The weights and biases -/

/-- The first weight matrix, its float format changed: at the extended reals the matrix itself. -/
theorem v47_apply (j : Fin 512) (q : Fin 1024) :
    V9 (F := Ideal) m c main_v47 (ix2 j q) = V0 (F := Ideal) m c main_arg2 (ix2 j q) := by
  have e : V9 (F := Ideal) m c main_v47
      = truncf (F := Ideal) (s := S512x1024) (φ := .f32) .bf16 (V0 (F := Ideal) m c main_arg2) bitsLt_bf16_f32 := by
    dsimp only [V9]; simp only [hostOps0_8]; after_results_simp <;> rfl
  rw [e, truncf_apply]

/-- The second weight matrix likewise. -/
theorem v48_apply (j : Fin 1024) (q : Fin 512) :
    V9 (F := Ideal) m c main_v48 (ix2 j q) = V0 (F := Ideal) m c main_arg4 (ix2 j q) := by
  have e : V9 (F := Ideal) m c main_v48
      = truncf (F := Ideal) (s := S1024x512) (φ := .f32) .bf16 (V0 (F := Ideal) m c main_arg4) bitsLt_bf16_f32 := by
    dsimp only [V9]; simp only [hostOps0_8]; after_results_simp <;> rfl
  rw [e, truncf_apply]

/-- The first bias as a one-row table: row 0, column q is the bias at q. -/
theorem v49_apply (q : Fin 1024) :
    V9 (F := Ideal) m c main_v49 (ix2 (0 : Fin 1) q) = V0 (F := Ideal) m c main_arg3 (ix1 q) := by
  have e : V9 (F := Ideal) m c main_v49
      = shapeCast S1x1024 (V0 (F := Ideal) m c main_arg3 : S1024.Idx → EReal) shapeCasts_S1024_S1x1024 := by
    dsimp only [V9]; simp only [hostOps0_8]; after_results_simp <;> rfl
  rw [e, shapeCast_a_1a_apply]

/-- The second bias likewise. -/
theorem v50_apply (q : Fin 512) :
    V9 (F := Ideal) m c main_v50 (ix2 (0 : Fin 1) q) = V0 (F := Ideal) m c main_arg5 (ix1 q) := by
  have e : V9 (F := Ideal) m c main_v50
      = shapeCast S1x512 (V0 (F := Ideal) m c main_arg5 : S512.Idx → EReal) shapeCasts_S512_S1x512 := by
    dsimp only [V9]; simp only [hostOps0_8]; after_results_simp <;> rfl
  rw [e, shapeCast_a_1a_apply]

/-! ## The padded node features -/

/-- The node features with 240 rows appended, their float format changed: a row below 10000 is the features' row. -/
theorem v46_apply (r : Fin 10240) (j : Fin 512) (h : r.val < 10000) :
    V9 (F := Ideal) m c main_v46 (ix2 r j) = V0 (F := Ideal) m c main_arg0 (ix2 ⟨r.val, h⟩ j) := by
  have e : V9 (F := Ideal) m c main_v46
      = truncf (F := Ideal) (s := S10240x512) (φ := .f32) .bf16
          (pad S10240x512 ![0, 0] ![240, 0] ![0, 0] (V0 (F := Ideal) m c main_arg0 : S10000x512.Idx → EReal)
            (sitofp (F := Ideal) (s := S_) .f32 (constantI S_ 32 0#32)) pads_S10000x512_S10240x512_02400_000 h_S_)
          bitsLt_bf16_f32 := by
    dsimp only [V9]; simp only [hostOps0_8, hostOps0_7]; after_results_simp
    <;> (try simp only [StableHlo.TRef.ofBuf, StableHlo.TRef.toBuf, cast_eq]) <;> rfl
  rw [e, truncf_apply]
  exact pad_apply_of_inside _ _ _ _ _ _ _ (ix2 r j) (ix2 ⟨r.val, h⟩ j) (fun a => by
    match a with
    | ⟨0, _⟩ => show r.val = 0 + r.val * (0 + 1); omega
    | ⟨1, _⟩ => show j.val = 0 + j.val * (0 + 1); omega)

/-! ## The result's rows -/

/-- After the last kernel the program keeps the first 10000 rows of the padded result. -/
theorem tail_apply (W : Valuation τ sig (Elt Ideal)) (i : Fin 10000) (q : Fin 512) :
    StableHlo.after (hostOps3 (F := Ideal)) W main_v54 (ix2 i q) = W main_v53 (ix2 ⟨i.val, by omega⟩ q) := by
  have e : StableHlo.after (hostOps3 (F := Ideal)) W main_v54
      = extractStridedSlice S10000x512 ![0, 0] (W main_v53 : S10240x512.Idx → EReal) slices_S10240x512_S10000x512_0_0 := by
    simp only [hostOps3]; after_results <;> rfl
  rw [e]
  exact extractStridedSlice_apply _ _ _ (ix2 i q) (ix2 ⟨i.val, by omega⟩ q) (fun a => by
    match a with
    | ⟨0, _⟩ => show i.val = 0 + i.val; omega
    | ⟨1, _⟩ => show q.val = 0 + q.val; omega)

/-! ## The adjacency matrix -/

theorem addi_apply {s : Shape} {w : Nat} (x y : IVec s w) (i : s.Idx) : addi x y i = x i + y i := rfl
theorem muli_apply {s : Shape} {w : Nat} (x y : IVec s w) (i : s.Idx) : muli x y i = x i * y i := rfl
theorem cmpi_apply {s : Shape} {w : Nat} (p : CmpIPredicate) (x y : IVec s w) (i : s.Idx) :
    cmpi p x y i = IntOp.cmpi p (x i) (y i) := rfl

/-- The flat position of each arc as the program computes it in 32-bit words, target · 10240 + source, followed by
    the wrap of a negative index (which adds the array's length to it). -/
def flatIdx (sv dv : IVec S170000 32) : IVec S170000 32 :=
  select
    (cmpi .slt (addi (muli dv (broadcastInDim S170000 ![] bcast_S_S170000 (constantI S_ 32 10240#32))) sv)
      (broadcastInDim S170000 ![] bcast_S_S170000 (constantI S_ 32 0#32)))
    (addi (addi (muli dv (broadcastInDim S170000 ![] bcast_S_S170000 (constantI S_ 32 10240#32))) sv)
      (broadcastInDim S170000 ![] bcast_S_S170000 (constantI S_ 32 104857600#32)))
    (addi (muli dv (broadcastInDim S170000 ![] bcast_S_S170000 (constantI S_ 32 10240#32))) sv)

/-- For source and target words below 10000 the flat position neither wraps nor is negative: read signed it is
    target · 10240 + source (at most 9999 · 10240 + 9999, below 2³¹). -/
theorem flatIdx_apply (sv dv : IVec S170000 32) (e : Fin 170000)
    (hs : (sv (ix1 e)).toNat < 10000) (hd : (dv (ix1 e)).toNat < 10000) :
    (flatIdx sv dv (ix1 e)).toInt = (((dv (ix1 e)).toNat * 10240 + (sv (ix1 e)).toNat : ℕ) : ℤ) := by
  have hb : ∀ k : BitVec 32, broadcastInDim S170000 ![] bcast_S_S170000 (constantI S_ 32 k) (ix1 e) = k := fun k => by
    rw [StableHlo.Predicate.bcast_scalar _ h_S_, constantI_apply]
  have hv : (dv (ix1 e) * 10240#32 + sv (ix1 e)).toNat = (dv (ix1 e)).toNat * 10240 + (sv (ix1 e)).toNat := by
    rw [BitVec.toNat_add, BitVec.toNat_mul]
    have h1 : (10240#32 : BitVec 32).toNat = 10240 := rfl
    rw [h1]; omega
  have h0 : IntOp.cmpi .slt (dv (ix1 e) * 10240#32 + sv (ix1 e)) 0#32 = 0#1 :=
    eq_zero_of_ne_one (by
      rw [StableHlo.Predicate.slt_iff_toNat (by omega) (by decide)]
      exact Nat.not_lt_zero _)
  simp only [flatIdx, select_apply, cmpi_apply, addi_apply, muli_apply, hb]
  rw [h0, select_zero, StableHlo.Predicate.toInt_eq_toNat_of_lt (by omega), hv]

/-- What the seventh host stretch leaves in the adjacency matrix's buffer, from any contents `W`: zeros, into which
    what it leaves in the arc weights' buffer is added at the flat positions of the source and target words it finds;
    cut into rows; its float format changed. -/
theorem after6_v44 (W : Valuation τ sig (Elt Ideal)) :
    StableHlo.after (hostOps0_6 (F := Ideal)) W main_v44
      = truncf (F := Ideal) (s := S10240x10240) (φ := .f32) .bf16
          (shapeCast S10240x10240
            (Host.scatterAdd (F := Ideal) (φ := .f32) scatter_S104857600_S170000x1_S170000_n_0_0_1
              (broadcastInDim S104857600 ![] bcast_S_S104857600 (constant (F := Ideal) S_ .f32 0x00000000#32))
              (broadcastInDim S170000x1 ![0] bcast_S170000_S170000x1_0 (flatIdx (W main_v7) (W main_v8)))
              (StableHlo.after (hostOps0_6 (F := Ideal)) W main_v31))
            shapeCasts_S104857600_S10240x10240) bitsLt_bf16_f32 := by
  simp only [hostOps0_6, flatIdx]; after_results_simp <;> rfl

/-- Entry (d, s) of the adjacency matrix the kernels are fed: the weights of the arcs whose flat position is d · 10240 + s. -/
theorem v44_apply (hr : Cert.Edges.InRange (ei m c))
    (h7 : ∀ e : Fin 170000, V9 (F := Ideal) m c main_v7 (ix1 e) = Cert.Edges.word (ei m c) 0 e)
    (h8 : ∀ e : Fin 170000, V9 (F := Ideal) m c main_v8 (ix1 e) = Cert.Edges.word (ei m c) 1 e)
    (h31 : ∀ e : Fin 170000, V9 (F := Ideal) m c main_v31 (ix1 e)
      = Cert.Spec.nrm (Cert.Edges.sN (ei m c) hr) (Cert.Edges.dN (ei m c) hr) e)
    (d s : Fin 10240) :
    V9 (F := Ideal) m c main_v44 (ix2 d s)
      = Cert.Spec.adj (Cert.Edges.sN (ei m c) hr) (Cert.Edges.dN (ei m c) hr) d s := by
  -- the buffers the stretch reads and writes hold, where the hypotheses speak of them, what they hold around the stretch
  have a7 : V6 (F := Ideal) m c main_v7 = V9 (F := Ideal) m c main_v7 :=
    ((V9_of m c main_v7 (by decide)).trans ((V8_of m c main_v7 (by decide)).trans (V7_of m c main_v7 (by decide)))).symm
  have a8 : V6 (F := Ideal) m c main_v8 = V9 (F := Ideal) m c main_v8 :=
    ((V9_of m c main_v8 (by decide)).trans ((V8_of m c main_v8 (by decide)).trans (V7_of m c main_v8 (by decide)))).symm
  have a31 : StableHlo.after (hostOps0_6 (F := Ideal)) (V6 (F := Ideal) m c) main_v31 = V9 (F := Ideal) m c main_v31 :=
    ((V9_of m c main_v31 (by decide)).trans (V8_of m c main_v31 (by decide))).symm
  have a44 : V9 (F := Ideal) m c main_v44 = StableHlo.after (hostOps0_6 (F := Ideal)) (V6 (F := Ideal) m c) main_v44 :=
    (V9_of m c main_v44 (by decide)).trans (V8_of m c main_v44 (by decide))
  have hf : d.val * 10240 + s.val < 104857600 := by omega
  rw [a44, after6_v44, a7, a8, a31, truncf_apply,
    shapeCast_apply _ _ (ix2 d s) (ix1 ⟨d.val * 10240 + s.val, hf⟩) (by
      rw [Shape.rowMajor_val_one, Shape.rowMajor_val_two]; rfl),
    Cert.LibSegmentSum.scatterAdd_seg1 _ rfl rfl rfl rfl]
  -- the array added into is zero
  have hz : broadcastInDim S104857600 ![] bcast_S_S104857600 (constant (F := Ideal) S_ .f32 0x00000000#32)
      (ix1 ⟨d.val * 10240 + s.val, hf⟩) = 0 := by
    rw [StableHlo.Predicate.bcast_scalar _ h_S_, constant_apply, Ideal.ofBits_zero_f32]
  rw [hz, zero_add]
  unfold Cert.Spec.adj
  show (_ : EReal) = _
  refine Finset.sum_congr (Finset.filter_congr fun e _ => ?_) (fun e _ => h31 e)
  -- an arc's index word, read signed, is its target · 10240 + its source
  rw [← Cert.LibSegmentSum.ixP_eq, StableHlo.Predicate.bcast_col1, Cert.LibSegmentSum.ofFin_eq,
    flatIdx_apply _ _ e (by rw [h7]; exact Cert.Edges.word_lt hr 0 e) (by rw [h8]; exact Cert.Edges.word_lt hr 1 e),
    h7, h8, Cert.Edges.sN_val, Cert.Edges.dN_val]
  exact Nat.cast_inj

end Cert.KernelIdeal.HostArrays

end
-- ==== Proof.SpecPadded.lean ====
/-
  The two layers in the form the matrix-product program computes them, and that this is the specification's `G`.

  The program pads the 10000 nodes to 10240 rows, multiplies by the padded adjacency matrix `adj`, and keeps the
  first 10000 rows at the end. Whatever the padded rows of an intermediate hold does not matter: the adjacency
  matrix's columns from 10000 on are empty sums. So each aggregation is `Spec.adj_mul_sum` at a padded feature matrix
  that agrees with the true one on the first 10000 rows.
-/
import proofs.«411933_j790273982476_2_alg».proof.Proof.Spec

noncomputable section

open scoped BigOperators

namespace Cert.Spec

variable (sN dN : Fin 170000 → Fin 10000)

/-- The first product of the padded program: the padded input times the first weight matrix. -/
def h1p (xp : Fin 10240 → Fin 512 → EReal) (W1 : Fin 512 → Fin 1024 → EReal) (s : Fin 10240) (j : Fin 1024) : EReal :=
  ∑ k : Fin 512, xp s k * W1 k j

/-- The second product: the first layer's output (aggregated, biased, cut at zero) times the second weight matrix. -/
def h2p (xp : Fin 10240 → Fin 512 → EReal) (W1 : Fin 512 → Fin 1024 → EReal) (b1 : Fin 1024 → EReal)
    (W2 : Fin 1024 → Fin 512 → EReal) (s : Fin 10240) (q : Fin 512) : EReal :=
  ∑ j : Fin 1024, max ((∑ s' : Fin 10240, adj sN dN s s' * h1p xp W1 s' j) + b1 j) 0 * W2 j q

/-- The padded program's result at row `r`. -/
def outp (xp : Fin 10240 → Fin 512 → EReal) (W1 : Fin 512 → Fin 1024 → EReal) (b1 : Fin 1024 → EReal)
    (W2 : Fin 1024 → Fin 512 → EReal) (b2 : Fin 512 → EReal) (r : Fin 10240) (q : Fin 512) : EReal :=
  max ((∑ s : Fin 10240, adj sN dN r s * h2p sN dN xp W1 b1 W2 s q) + b2 q) 0

/-- On the first 10000 rows the padded program computes the two layers. -/
theorem outp_eq_G (x : Fin 10000 → Fin 512 → EReal) (xp : Fin 10240 → Fin 512 → EReal)
    (hxp : ∀ (s : Fin 10240) (h : s.val < 10000) (k : Fin 512), xp s k = x ⟨s.val, h⟩ k)
    (W1 : Fin 512 → Fin 1024 → EReal) (b1 : Fin 1024 → EReal) (W2 : Fin 1024 → Fin 512 → EReal) (b2 : Fin 512 → EReal)
    (i : Fin 10000) (q : Fin 512) :
    outp sN dN xp W1 b1 W2 b2 ⟨i.val, by omega⟩ q = G sN dN x W1 b1 W2 b2 i q := by
  -- the first product agrees with `lin x W1` on the true rows
  have h1 : ∀ (s : Fin 10240) (h : s.val < 10000) (j : Fin 1024), h1p xp W1 s j = lin x W1 ⟨s.val, h⟩ j := by
    intro s h j
    unfold h1p lin
    exact Finset.sum_congr rfl fun k _ => by rw [hxp s h k]
  -- so the second product agrees with `lin (layer x W1 b1) W2` on the true rows
  have h2 : ∀ (s : Fin 10240) (h : s.val < 10000) (q' : Fin 512),
      h2p sN dN xp W1 b1 W2 s q' = lin (layer sN dN x W1 b1) W2 ⟨s.val, h⟩ q' := by
    intro s h q'
    unfold h2p lin layer
    refine Finset.sum_congr rfl fun j _ => ?_
    have := adj_mul_sum sN dN (lin x W1) (h1p xp W1) h1 ⟨s.val, h⟩ j
    rw [show (⟨(⟨s.val, h⟩ : Fin 10000).val, by omega⟩ : Fin 10240) = s from Fin.ext rfl] at this
    rw [this]
  unfold outp G
  show max (_ + b2 q) 0 = layer sN dN (layer sN dN x W1 b1) W2 b2 i q
  unfold layer
  rw [adj_mul_sum sN dN (lin (fun i c => max (agg sN dN (lin x W1) i c + b1 c) 0) W2) (h2p sN dN xp W1 b1 W2) h2 i q]

end Cert.Spec

end
-- ==== Proof.KV.Value.lean ====
/- The program's result, entry by entry, at the extended reals: it is the two-layer graph convolution of
   the arrays the program is launched with.

   The run passes through nine stretches of host operations, three matrix-product regions and a closing
   slice.  Reading backwards: the closing slice keeps the first 10000 rows of the third region's output
   array; that array is max(A · H2 + b2, 0), with H2 the second region's output, max(A · H1 + b1, 0) · W2,
   and H1 the first region's output, X · W1.  Every other array a region reads is no output of an earlier
   region, so it still holds what the host stretches left in it: A the padded adjacency matrix of the graph
   the edge table describes, X the node features with 240 zero rows appended, W1, W2 the weight matrices
   and b1, b2 the biases as one-row tables.  This is the padded form of the two layers, which agrees with
   the specification on the first 10000 rows because the adjacency matrix's columns from 10000 on are empty. -/
import proofs.«411933_j790273982476_2_alg».proof.Proof.KI.Run
import proofs.«411933_j790273982476_2_alg».proof.Proof.KV.Array0
import proofs.«411933_j790273982476_2_alg».proof.Proof.KV.Array1
import proofs.«411933_j790273982476_2_alg».proof.Proof.KV.Array2
import proofs.«411933_j790273982476_2_alg».proof.Proof.KV.HostNorm
import proofs.«411933_j790273982476_2_alg».proof.Proof.KV.HostArrays
import proofs.«411933_j790273982476_2_alg».proof.Proof.SpecPadded
import proofs.«411933_j790273982476_2_alg».proof.Proof.Edges
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (c : Dev nD)

/-! ## Each array a region reads, chased back to what the first region is entered with -/

/-- The adjacency matrix is an input of regions 1 and 2 and no array of region 0: it is never written. -/
theorem E1_v44 : E1 m c main_v44 = V9 m c main_v44 := X0_of_ne m c main_v44 (by decide)
theorem E2_v44 : E2 m c main_v44 = V9 m c main_v44 :=
  (X1_arr m c 0).trans (((dat1 (E1 m) c).arrAt_in 0 rfl _).trans ((A_eq1 (E1 m) c 0).trans (E1_v44 m c)))
/-- The two bias rows and the second weight matrix are staged by one region each, as inputs. -/
theorem E1_v49 : E1 m c main_v49 = V9 m c main_v49 := X0_of_ne m c main_v49 (by decide)
theorem E1_v48 : E1 m c main_v48 = V9 m c main_v48 := X0_of_ne m c main_v48 (by decide)
theorem E2_v50 : E2 m c main_v50 = V9 m c main_v50 :=
  (X1_of_ne m c main_v50 (by decide)).trans (X0_of_ne m c main_v50 (by decide))
/-- Region 1 reads region 0's output array, region 2 reads region 1's, and the result is region 2's. -/
theorem E1_v51 : E1 m c main_v51 = (dat0 (E0 m) c).arrAt 2 cfg0.N := X0_arr m c 2
theorem E2_v52 : E2 m c main_v52 = (dat1 (E1 m) c).arrAt 4 cfg1.N := X1_arr m c 4
theorem X2_v53 : X2 m c main_v53 = (dat2 (E2 m) c).arrAt 3 cfg2.N := X2_arr m c 3

/-! ## The arrays the first region is entered with, by coordinates -/

/-- The padded adjacency matrix, the padded input, the two weight matrices and the two bias rows, as the first
    region finds them. -/
def adjP (d s : Fin 10240) : EReal := (V9 (F := Ideal) m c main_v44 : Vec Ideal S10240x10240 .bf16) (ix2 d s)
def xP (s : Fin 10240) (k : Fin 512) : EReal := (V9 (F := Ideal) m c main_v46 : Vec Ideal S10240x512 .bf16) (ix2 s k)
def w1P (k : Fin 512) (j : Fin 1024) : EReal := (V9 (F := Ideal) m c main_v47 : Vec Ideal S512x1024 .bf16) (ix2 k j)
def b1P (j : Fin 1024) : EReal := (V9 (F := Ideal) m c main_v49 : Vec Ideal S1x1024 .f32) (ix2 (0 : Fin 1) j)
def w2P (j : Fin 1024) (q : Fin 512) : EReal := (V9 (F := Ideal) m c main_v48 : Vec Ideal S1024x512 .bf16) (ix2 j q)
def b2P (q : Fin 512) : EReal := (V9 (F := Ideal) m c main_v50 : Vec Ideal S1x512 .f32) (ix2 (0 : Fin 1) q)

variable (sN dN : Fin 170000 → Fin 10000)

/-! ## The three products, each over the one before -/

/-- Region 0's output array is the first product of the padded program. -/
theorem h1_eq (s : Fin 10240) (j : Fin 1024) :
    (dat0 (F := Ideal) (E0 m) c).arrAt 2 cfg0.N (ix2 s j) = Cert.Spec.h1p (xP m c) (w1P m c) s j :=
  arr0_apply (E0 m) c s j

/-- Region 1's output array is the second product: the adjacency matrix times the first product, plus the first
    bias, cut at zero, times the second weight matrix. -/
theorem h2_eq (hadj : ∀ d s, adjP m c d s = Cert.Spec.adj sN dN d s) (s : Fin 10240) (q : Fin 512) :
    (dat1 (F := Ideal) (E1 m) c).arrAt 4 cfg1.N (ix2 s q)
      = Cert.Spec.h2p sN dN (xP m c) (w1P m c) (b1P m c) (w2P m c) s q := by
  refine (arr1_apply (E1 m) c s q).trans ?_
  show @Eq EReal _ _
  unfold Cert.Spec.h2p
  refine Finset.sum_congr rfl fun j _ => ?_
  refine congrArg₂ (fun a b : EReal => a * b) (congrArg (fun z : EReal => max z 0)
    (congrArg₂ (fun a b : EReal => a + b) (Finset.sum_congr rfl fun s' _ => ?_) ?_)) ?_
  · exact congrArg₂ (fun a b : EReal => a * b) ((congrFun (E1_v44 m c) (ix2 s s')).trans (hadj s s'))
      ((congrFun (E1_v51 m c) (ix2 s' j)).trans (h1_eq m c s' j))
  · exact congrFun (E1_v49 m c) (ix2 (0 : Fin 1) j)
  · exact congrFun (E1_v48 m c) (ix2 j q)

/-- Region 2's output array is the padded program's result. -/
theorem out_eq (hadj : ∀ d s, adjP m c d s = Cert.Spec.adj sN dN d s) (r : Fin 10240) (q : Fin 512) :
    (X2 (F := Ideal) m c main_v53 : Vec Ideal S10240x512 .f32) (ix2 r q)
      = Cert.Spec.outp sN dN (xP m c) (w1P m c) (b1P m c) (w2P m c) (b2P m c) r q := by
  refine (congrFun (X2_v53 m c) (ix2 r q)).trans ?_
  refine (arr2_apply (E2 m) c r q).trans ?_
  show @Eq EReal _ _
  unfold Cert.Spec.outp
  refine congrArg (fun z : EReal => max z 0) (congrArg₂ (fun a b : EReal => a + b) (Finset.sum_congr rfl fun s _ => ?_) ?_)
  · exact congrArg₂ (fun a b : EReal => a * b) ((congrFun (E2_v44 m c) (ix2 r s)).trans (hadj r s))
      ((congrFun (E2_v52 m c) (ix2 s q)).trans (h2_eq m c sN dN hadj s q))
  · exact congrFun (E2_v50 m c) (ix2 (0 : Fin 1) q)

/-! ## The result -/

/-- Row `i`, column `q` of the program's result is the two-layer graph convolution of the launch arrays: the
    closing slice keeps the first 10000 rows of region 2's output, which is the padded program's result over the
    arrays the first region is entered with; those are the adjacency matrix of the graph the edge table
    describes, the input padded with 240 rows, and the weights and biases unchanged. -/
theorem result_apply (hr : Cert.Edges.InRange (m ((c.tc : Thread nD τ).loc main_arg1))) (i : Fin 10000) (q : Fin 512) :
    (X3 (F := Ideal) m c main_v54 : Vec Ideal S10000x512 .f32) (ix2 i q)
      = Cert.Spec.G (Cert.Edges.sN _ hr) (Cert.Edges.dN _ hr)
          (fun r j => (m ((c.tc : Thread nD τ).loc main_arg0) : Vec Ideal S10000x512 .f32) (ix2 r j))
          (fun j q => (m ((c.tc : Thread nD τ).loc main_arg2) : Vec Ideal S512x1024 .f32) (ix2 j q))
          (fun q => (m ((c.tc : Thread nD τ).loc main_arg3) : Vec Ideal S1024 .f32) (ix1 q))
          (fun j q => (m ((c.tc : Thread nD τ).loc main_arg4) : Vec Ideal S1024x512 .f32) (ix2 j q))
          (fun q => (m ((c.tc : Thread nD τ).loc main_arg5) : Vec Ideal S512 .f32) (ix1 q)) i q := by
  have hadj : ∀ d s, adjP m c d s = Cert.Spec.adj (Cert.Edges.sN _ hr) (Cert.Edges.dN _ hr) d s := fun d s =>
    Cert.KernelIdeal.HostArrays.v44_apply m c hr (Cert.KernelIdeal.HostNorm.v7_apply m c hr)
      (Cert.KernelIdeal.HostNorm.v8_apply m c hr) (Cert.KernelIdeal.HostNorm.v31_apply m c hr) d s
  have hW1 : w1P m c = fun j q => (m ((c.tc : Thread nD τ).loc main_arg2) : Vec Ideal S512x1024 .f32) (ix2 j q) :=
    funext fun j => funext fun q => Cert.KernelIdeal.HostArrays.v47_apply m c j q
  have hb1 : b1P m c = fun q => (m ((c.tc : Thread nD τ).loc main_arg3) : Vec Ideal S1024 .f32) (ix1 q) :=
    funext fun q => Cert.KernelIdeal.HostArrays.v49_apply m c q
  have hW2 : w2P m c = fun j q => (m ((c.tc : Thread nD τ).loc main_arg4) : Vec Ideal S1024x512 .f32) (ix2 j q) :=
    funext fun j => funext fun q => Cert.KernelIdeal.HostArrays.v48_apply m c j q
  have hb2 : b2P m c = fun q => (m ((c.tc : Thread nD τ).loc main_arg5) : Vec Ideal S512 .f32) (ix1 q) :=
    funext fun q => Cert.KernelIdeal.HostArrays.v50_apply m c q
  refine (Cert.KernelIdeal.HostArrays.tail_apply (X2 m c) i q).trans ?_
  refine (out_eq m c _ _ hadj ⟨i.val, by omega⟩ q).trans ?_
  rw [hW1, hb1, hW2, hb2]
  exact Cert.Spec.outp_eq_G _ _
    (fun r j => (m ((c.tc : Thread nD τ).loc main_arg0) : Vec Ideal S10000x512 .f32) (ix2 r j)) (xP m c)
    (fun s h k => Cert.KernelIdeal.HostArrays.v46_apply m c s k h) _ _ _ _ i q

end Cert.KernelIdeal.Hand

end
-- ==== Proof.RefValue.lean ====
/-
  The reference's value, read entry by entry.

  The reference builds the 170000 arcs from the edge table (row 0 the sources, row 1 the targets, each followed by the
  10000 self-loops), counts the in-degree of every node by a segment sum of ones at the targets, takes the inverse
  square root of the positive degrees, weighs each arc by the product of its two ends' values, and then runs two
  layers: a matrix product, the rows read at the arcs' sources and scaled by the arcs' weights, a segment sum of those
  rows at the arcs' targets, the bias added, the result cut at zero.

  Where every word of the table names a node, each index word reads the same signed and unsigned, the wrap of a
  negative index and the clamp of an indexed read are the identity, and an update lands on node `i` exactly when its
  arc's target is `i`. So every stage is the corresponding function of the specification over the arcs
  `e ↦ (sN e, dN e)`: the degree, its inverse square root, the arc weight, the aggregation, one layer, both layers.

  The second layer recomputes the arcs, the degrees and the weights by the same operations on the same table; those
  stages unfold to the first layer's.
-/
import proofs.«411933_j790273982476_2_alg».proof.Proof.RefRun
import proofs.«411933_j790273982476_2_alg».proof.Proof.RefRead
import proofs.«411933_j790273982476_2_alg».proof.Proof.Spec
import proofs.«411933_j790273982476_2_alg».proof.Proof.LibSegmentSum
import proofs.«411933_j790273982476_2_alg».proof.Proof.Edges
import Idealize.ShloMosaic.Lib.Pipeline.Value
import Idealize.ShloMosaic.PureOps.Ideal.Laws
import Mathlib.Tactic.NormNum

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Words and constants -/

/-- The word 0x3F800000 denotes one. -/
theorem ofBits_one_f32 : Ideal.ofBits .f32 0x3F800000#32 = (1 : EReal) := by
  simp [Ideal.ofBits, Ideal.ieee]
  rw [← EReal.coe_mul, ← EReal.coe_one, EReal.coe_eq_coe_iff]
  norm_num

/-- A strict comparison against zero selects by positivity. -/
theorem select_ogt_zero (d a b : EReal) :
    Scalar.select (Ideal.cmp .ogt d 0) a b = if 0 < d then a else b := by
  unfold Scalar.select Ideal.cmp
  by_cases h : 0 < d <;> simp [h]

/-- A word that names a node is not negative read signed, so the wrap of a negative index keeps it. -/
theorem wrap_eq (w : BitVec 32) (h : w.toNat < 10000) :
    Scalar.select (IntOp.cmpi .slt w 0#32) (IntOp.addi w 10000#32) w = w := by
  have hs : w.slt 0#32 = false := by
    rw [BitVec.slt, BitVec.toInt_eq_toNat_cond]
    simp
    omega
  unfold Scalar.select IntOp.cmpi
  simp [hs]

/-- A word that names node `n` reads, signed, as `n`. -/
theorem toInt_of_node (w : BitVec 32) (n : Fin 10000) (hw : w.toNat = n.val) : w.toInt = (n.val : ℤ) := by
  have := n.isLt
  rw [BitVec.toInt_eq_toNat_cond]
  split
  · rw [hw]
  · omega

/-- A word that names node `n` reads, signed, as `i` exactly when `n` is `i`. -/
theorem toInt_eq_iff (w : BitVec 32) (n i : Fin 10000) (hw : w.toNat = n.val) : w.toInt = (i.val : ℤ) ↔ n = i := by
  rw [toInt_of_node w n hw, Fin.ext_iff]
  exact Int.ofNat_inj

/-! ## Index-driven operations whose index words name nodes -/

/-- A one-axis indexed read at a position whose index word names node `n` is the entry at `n`. -/
theorem gather1_node {α : Type} {M : Nat} (d : GatherDims ⟨1, ![10000]⟩ ⟨2, ![M, 1]⟩ ⟨1, ![M]⟩)
    (hcoll : d.collapsedSliceDims = [0]) (hob : d.operandBatchingDims = []) (hsim : d.startIndexMap = [0]) (hivd : d.indexVectorDim = 1)
    (x : (⟨1, ![10000]⟩ : Shape).Idx → α) (idx : IVec ⟨2, ![M, 1]⟩ 32) (e : Fin M) (n : Fin 10000)
    (hw : (idx (ix2 e 0)).toNat = n.val) :
    Host.gather d x idx (ix1 e) = x (ix1 n) := by
  rw [Cert.LibSegmentSum.gather_seg1 d hcoll hob hsim hivd x idx e (by decide)]
  refine congrArg (fun k : Fin 10000 => x (ix1 k)) (Fin.ext ?_)
  have h1 := toInt_of_node _ n hw
  have := n.isLt
  simp only
  omega

/-- An indexed read of rows at (position, column), the position's index word naming node `n`, is row `n` there. -/
theorem gatherRows_node {α : Type} {M D : Nat} (d : GatherDims ⟨2, ![10000, D]⟩ ⟨2, ![M, 1]⟩ ⟨2, ![M, D]⟩)
    (hoff : d.offsetDims = [1]) (hcoll : d.collapsedSliceDims = [0]) (hob : d.operandBatchingDims = []) (hsb : d.startIndicesBatchingDims = [])
    (hsim : d.startIndexMap = [0]) (hivd : d.indexVectorDim = 1) (hss : d.sliceSizes = ![1, D])
    (x : (⟨2, ![10000, D]⟩ : Shape).Idx → α) (idx : IVec ⟨2, ![M, 1]⟩ 32) (e : Fin M) (c : Fin D) (n : Fin 10000)
    (hw : (idx (ix2 e 0)).toNat = n.val) :
    Host.gather d x idx (ix2 e c) = x (ix2 n c) := by
  rw [Cert.LibSegmentSum.gather_rows d hoff hcoll hob hsb hsim hivd hss x idx e c (by decide)]
  refine congrArg (fun k : Fin 10000 => x (ix2 k c)) (Fin.ext ?_)
  have h1 := toInt_of_node _ n hw
  have := n.isLt
  simp only
  omega

/-- The in-degree: a segment sum of ones into zeros, the index words naming the arcs' targets. -/
theorem deg_node (d : ScatterDims ⟨1, ![10000]⟩ ⟨2, ![170000, 1]⟩ ⟨1, ![170000]⟩)
    (huw : d.updateWindowDims = []) (hiw : d.insertedWindowDims = [0]) (hsd : d.scatterDimsToOperandDims = [0]) (hiv : d.indexVectorDim = 1)
    (z : (⟨1, ![10000]⟩ : Shape).Idx → EReal) (idx : IVec ⟨2, ![170000, 1]⟩ 32) (ones : (⟨1, ![170000]⟩ : Shape).Idx → EReal)
    (dN : Fin 170000 → Fin 10000) (hz : ∀ i, z (ix1 i) = 0) (ho : ∀ e, ones (ix1 e) = 1)
    (hidx : ∀ e, (idx (ix2 e 0)).toNat = (dN e).val) (i : Fin 10000) :
    Host.scatterAdd (F := Ideal) (φ := .f32) d z idx ones (ix1 i) = Cert.Spec.deg dN i := by
  rw [Cert.LibSegmentSum.scatterAdd_seg1 d huw hiw hsd hiv, hz, zero_add]
  unfold Cert.Spec.deg
  exact Finset.sum_congr (Finset.filter_congr fun e _ => toInt_eq_iff _ _ i (hidx e)) fun e _ => ho e

/-- The aggregation: a segment sum into zeros, at the arcs' targets, of the rows read at the arcs' sources, each
    scaled by its arc's weight. -/
theorem agg_node {C : Nat} (dg : GatherDims ⟨2, ![10000, C]⟩ ⟨2, ![170000, 1]⟩ ⟨2, ![170000, C]⟩)
    (hoff : dg.offsetDims = [1]) (hcoll : dg.collapsedSliceDims = [0]) (hob : dg.operandBatchingDims = []) (hsb : dg.startIndicesBatchingDims = [])
    (hsim : dg.startIndexMap = [0]) (hivd : dg.indexVectorDim = 1) (hss : dg.sliceSizes = ![1, C])
    (ds : ScatterDims ⟨2, ![10000, C]⟩ ⟨2, ![170000, 1]⟩ ⟨2, ![170000, C]⟩)
    (huw : ds.updateWindowDims = [1]) (hiw : ds.insertedWindowDims = [0]) (hsd : ds.scatterDimsToOperandDims = [0]) (hiv : ds.indexVectorDim = 1)
    (sN dN : Fin 170000 → Fin 10000)
    (h : (⟨2, ![10000, C]⟩ : Shape).Idx → EReal) (gidx sidx : IVec ⟨2, ![170000, 1]⟩ 32)
    (wt : (⟨2, ![170000, C]⟩ : Shape).Idx → EReal) (z : (⟨2, ![10000, C]⟩ : Shape).Idx → EReal)
    (hg : ∀ e, (gidx (ix2 e 0)).toNat = (sN e).val) (hs : ∀ e, (sidx (ix2 e 0)).toNat = (dN e).val)
    (hwt : ∀ e c, wt (ix2 e c) = Cert.Spec.nrm sN dN e) (hz : ∀ i c, z (ix2 i c) = 0)
    (i : Fin 10000) (c : Fin C) :
    Host.scatterAdd (F := Ideal) (φ := .f32) ds z sidx (mulf (F := Ideal) (φ := .f32) (Host.gather dg h gidx) wt) (ix2 i c)
      = Cert.Spec.agg sN dN (fun r c => h (ix2 r c)) i c := by
  rw [Cert.LibSegmentSum.scatterAdd_segRows ds huw hiw hsd hiv, hz, zero_add]
  unfold Cert.Spec.agg
  refine Finset.sum_congr (Finset.filter_congr fun e _ => toInt_eq_iff _ _ i (hs e)) fun e _ => ?_
  show Host.gather dg h gidx (ix2 e c) * wt (ix2 e c) = h (ix2 (sN e) c) * Cert.Spec.nrm sN dN e
  rw [gatherRows_node dg hoff hcoll hob hsb hsim hivd hss h gidx e c (sN e) (hg e), hwt]

/-! ## The arcs -/

section Arcs

variable (x1 : (⟨S2x160000, .i32⟩ : BufTy).Contents (Elt Ideal))

/-- Edge `e` of row 0, reached through the row's slice and its flattening. -/
theorem row0_idx (e : Fin 160000) : idx_main_v1 (idx_main_v2 (ix1 e)) = ix2 (0 : Fin 2) e :=
  funext fun a => Fin.ext (by
    match a with
    | ⟨0, _⟩ => rfl
    | ⟨1, _⟩ => exact Nat.mod_eq_of_lt e.isLt)

/-- Edge `e` of row 1, reached through the row's slice and its flattening. -/
theorem row1_idx (e : Fin 160000) : idx_main_v4 (idx_main_v5 (ix1 e)) = ix2 (1 : Fin 2) e :=
  funext fun a => Fin.ext (by
    match a with
    | ⟨0, _⟩ => rfl
    | ⟨1, _⟩ => exact Nat.mod_eq_of_lt e.isLt)

/-- The sources: the table's row 0, then the nodes' own numbers. -/
theorem src_apply (e : Fin 170000) : val_main_v3 (F := Ideal) x1 (ix1 e) = Cert.Edges.word x1 0 e := by
  unfold val_main_v3
  by_cases h : e.val < 160000
  · simp only [Cert.Edges.word, dif_pos h]
    rw [concatenate_pair_apply_left (0 : Fin S170000.rank) (val_main_v2 (F := Ideal) x1) (val_main_v0 (F := Ideal))
        concatenates_S160000_S10000_S170000_d0 (ix1 e) rfl (ix1 ⟨e.val, h⟩) (fun b => by match b with | ⟨0, _⟩ => rfl),
      val_main_v2_apply, val_main_v1_apply, row0_idx]
  · simp only [Cert.Edges.word, dif_neg h]
    have h' : e.val - 160000 < 10000 := by have := e.isLt; omega
    exact (concatenate_pair_apply_right (0 : Fin S170000.rank) (val_main_v2 (F := Ideal) x1) (val_main_v0 (F := Ideal))
        concatenates_S160000_S10000_S170000_d0 (ix1 e) rfl rfl (ix1 ⟨e.val - 160000, h'⟩)
        (fun b hb => absurd (Subsingleton.elim (α := Fin 1) _ _) hb)
        (by show e.val - 160000 + 160000 = e.val; omega)).trans (val_main_v0_apply _)

/-- The targets: the table's row 1, then the nodes' own numbers. -/
theorem dst_apply (e : Fin 170000) : val_main_v6 (F := Ideal) x1 (ix1 e) = Cert.Edges.word x1 1 e := by
  unfold val_main_v6
  by_cases h : e.val < 160000
  · simp only [Cert.Edges.word, dif_pos h]
    rw [concatenate_pair_apply_left (0 : Fin S170000.rank) (val_main_v5 (F := Ideal) x1) (val_main_v0 (F := Ideal))
        concatenates_S160000_S10000_S170000_d0 (ix1 e) rfl (ix1 ⟨e.val, h⟩) (fun b => by match b with | ⟨0, _⟩ => rfl),
      val_main_v5_apply, val_main_v4_apply, row1_idx]
  · simp only [Cert.Edges.word, dif_neg h]
    have h' : e.val - 160000 < 10000 := by have := e.isLt; omega
    exact (concatenate_pair_apply_right (0 : Fin S170000.rank) (val_main_v5 (F := Ideal) x1) (val_main_v0 (F := Ideal))
        concatenates_S160000_S10000_S170000_d0 (ix1 e) rfl rfl (ix1 ⟨e.val - 160000, h'⟩)
        (fun b hb => absurd (Subsingleton.elim (α := Fin 1) _ _) hb)
        (by show e.val - 160000 + 160000 = e.val; omega)).trans (val_main_v0_apply _)

/-! The second layer's copies are the same operations on the same table. -/

theorem src2_eq : val_main_v51 (F := Ideal) x1 = val_main_v3 (F := Ideal) x1 := rfl
theorem dst2_eq : val_main_v54 (F := Ideal) x1 = val_main_v6 (F := Ideal) x1 := rfl
theorem norm2_eq : val_main_v77 (F := Ideal) x1 = val_main_v29 (F := Ideal) x1 := rfl

theorem src2_apply (e : Fin 170000) : val_main_v51 (F := Ideal) x1 (ix1 e) = Cert.Edges.word x1 0 e :=
  (congrFun (src2_eq x1) _).trans (src_apply x1 e)

theorem dst2_apply (e : Fin 170000) : val_main_v54 (F := Ideal) x1 (ix1 e) = Cert.Edges.word x1 1 e :=
  (congrFun (dst2_eq x1) _).trans (dst_apply x1 e)

/-! ## The index columns name the arcs' ends -/

variable (hr : Cert.Edges.InRange x1)

/-- The targets' column of the degree's segment sum. -/
theorem dstCol_node (e : Fin 170000) : (val_main_v9 (F := Ideal) x1 (ix2 e 0)).toNat = (Cert.Edges.dN x1 hr e).val := by
  rw [val_main_v9_apply, show idx_main_v9 (ix2 e (0 : Fin 1)) = ix1 e from
      funext fun a => Fin.ext (by match a with | ⟨0, _⟩ => rfl), dst_apply, Cert.Edges.dN_val]

/-- The targets' column of a layer's segment sum: the same broadcast of the same targets. -/
theorem dstCol_node' (e : Fin 170000) : (val_main_v42 (F := Ideal) x1 (ix2 e 0)).toNat = (Cert.Edges.dN x1 hr e).val :=
  dstCol_node x1 hr e

/-- The sources' column of an indexed read: the wrap keeps a word that names a node. -/
theorem srcGather_node (e : Fin 170000) : (val_main_v20 (F := Ideal) x1 (ix2 e 0)).toNat = (Cert.Edges.sN x1 hr e).val := by
  rw [val_main_v20_apply, show idx_main_v20 (ix2 e (0 : Fin 1)) = ix1 e from
      funext fun a => Fin.ext (by match a with | ⟨0, _⟩ => rfl), val_main_v19_apply, val_main_v16_apply,
    val_main_v18_apply, val_main_v15_apply, val_main_v17_apply, val_main_c_apply, val_main_c_3_apply, src_apply,
    wrap_eq _ (Cert.Edges.word_lt hr 0 e), Cert.Edges.sN_val]

/-- The targets' column of an indexed read. -/
theorem dstGather_node (e : Fin 170000) : (val_main_v27 (F := Ideal) x1 (ix2 e 0)).toNat = (Cert.Edges.dN x1 hr e).val := by
  rw [val_main_v27_apply, show idx_main_v27 (ix2 e (0 : Fin 1)) = ix1 e from
      funext fun a => Fin.ext (by match a with | ⟨0, _⟩ => rfl), val_main_v26_apply, val_main_v23_apply,
    val_main_v25_apply, val_main_v22_apply, val_main_v24_apply, val_main_c_4_apply, val_main_c_5_apply, dst_apply,
    wrap_eq _ (Cert.Edges.word_lt hr 1 e), Cert.Edges.dN_val]

/-- The sources' column of a layer's indexed read of rows: the same wrap of the same sources. -/
theorem srcGather_node' (e : Fin 170000) : (val_main_v36 (F := Ideal) x1 (ix2 e 0)).toNat = (Cert.Edges.sN x1 hr e).val :=
  srcGather_node x1 hr e

/-- The second layer's columns: the same operations on the same arcs. -/
theorem srcGather2_node' (e : Fin 170000) : (val_main_v84 (F := Ideal) x1 (ix2 e 0)).toNat = (Cert.Edges.sN x1 hr e).val :=
  srcGather_node x1 hr e

theorem dstCol2_node' (e : Fin 170000) : (val_main_v90 (F := Ideal) x1 (ix2 e 0)).toNat = (Cert.Edges.dN x1 hr e).val :=
  dstCol_node x1 hr e

/-! ## Degrees and weights -/

/-- The in-degree. -/
theorem deg_apply (i : Fin 10000) : val_main_v10 (F := Ideal) x1 (ix1 i) = Cert.Spec.deg (Cert.Edges.dN x1 hr) i :=
  deg_node scatter_S10000_S170000x1_S170000_n_0_0_1 rfl rfl rfl rfl
    (val_main_v8 (F := Ideal)) (val_main_v9 (F := Ideal) x1) (val_main_v7 (F := Ideal)) (Cert.Edges.dN x1 hr)
    (fun i => by rw [val_main_v8_apply, val_main_cst_0_apply]; exact Ideal.ofBits_zero_f32)
    (fun e => by rw [val_main_v7_apply, val_main_cst_apply]; exact ofBits_one_f32)
    (dstCol_node x1 hr) i

/-- The inverse square root of the positive degrees, zero elsewhere. -/
theorem dinv_apply (i : Fin 10000) : val_main_v14 (F := Ideal) x1 (ix1 i) = Cert.Spec.dinv (Cert.Edges.dN x1 hr) i := by
  rw [val_main_v14_apply, val_main_v12_apply, val_main_v13_apply, val_main_call0_v1_apply, val_main_call0_v0_apply,
    val_main_cst_2_apply, val_main_v11_apply, val_main_cst_1_apply, deg_apply x1 hr]
  simp only [Ideal.ofBits_def, Ideal.ofBits_zero_f32, Ideal.cmpf_def, Ideal.hostUnary_rsqrt_def]
  rw [select_ogt_zero]
  rfl

/-- The arc's weight. -/
theorem norm_apply (e : Fin 170000) :
    val_main_v29 (F := Ideal) x1 (ix1 e) = Cert.Spec.nrm (Cert.Edges.sN x1 hr) (Cert.Edges.dN x1 hr) e := by
  rw [val_main_v29_apply]
  unfold val_main_v21 val_main_v28
  rw [gather1_node gather_S10000_S170000x1_S170000_n_0_n_n_0_1_1 rfl rfl rfl rfl (val_main_v14 (F := Ideal) x1)
      (val_main_v20 (F := Ideal) x1) e (Cert.Edges.sN x1 hr e) (srcGather_node x1 hr e),
    gather1_node gather_S10000_S170000x1_S170000_n_0_n_n_0_1_1 rfl rfl rfl rfl (val_main_v14 (F := Ideal) x1)
      (val_main_v27 (F := Ideal) x1) e (Cert.Edges.dN x1 hr e) (dstGather_node x1 hr e),
    dinv_apply x1 hr, dinv_apply x1 hr]
  rfl

/-- The second layer's copy of the weights. -/
theorem norm2_apply (e : Fin 170000) :
    val_main_v77 (F := Ideal) x1 (ix1 e) = Cert.Spec.nrm (Cert.Edges.sN x1 hr) (Cert.Edges.dN x1 hr) e :=
  (congrFun (norm2_eq x1) _).trans (norm_apply x1 hr e)

end Arcs

/-! ## The layers -/

section Layers

variable (x0 : (⟨S10000x512, .f32⟩ : BufTy).Contents (Elt Ideal)) (x1 : (⟨S2x160000, .i32⟩ : BufTy).Contents (Elt Ideal))
  (x2 : (⟨S512x1024, .f32⟩ : BufTy).Contents (Elt Ideal)) (x3 : (⟨S1024, .f32⟩ : BufTy).Contents (Elt Ideal))
  (x4 : (⟨S1024x512, .f32⟩ : BufTy).Contents (Elt Ideal)) (x5 : (⟨S512, .f32⟩ : BufTy).Contents (Elt Ideal))
  (hr : Cert.Edges.InRange x1)

/-- The first layer's matrix product. -/
theorem lin1_apply (r : Fin 10000) (c : Fin 1024) :
    val_main_v30 (F := Ideal) x0 x2 (ix2 r c)
      = Cert.Spec.lin (fun r j => x0 (ix2 r j)) (fun j q => x2 (ix2 j q)) r c := by
  rw [val_main_v30_apply]
  unfold Cert.Spec.lin
  refine Finset.sum_congr rfl fun k _ => ?_
  rw [show lidx_main_v30 (ix2 r c) k = ix2 r k from
      funext fun a => Fin.ext (by match a with | ⟨0, _⟩ => rfl | ⟨1, _⟩ => rfl),
    show ridx_main_v30 (ix2 r c) k = ix2 k c from
      funext fun a => Fin.ext (by match a with | ⟨0, _⟩ => rfl | ⟨1, _⟩ => rfl)]

/-- The first layer's aggregation. -/
theorem agg1_apply (i : Fin 10000) (q : Fin 1024) :
    val_main_v43 (F := Ideal) x0 x1 x2 (ix2 i q)
      = Cert.Spec.agg (Cert.Edges.sN x1 hr) (Cert.Edges.dN x1 hr)
          (Cert.Spec.lin (fun r j => x0 (ix2 r j)) (fun j q => x2 (ix2 j q))) i q := by
  have h := agg_node gather_S10000x1024_S170000x1_S170000x1024_1_0_n_n_0_1_11024 rfl rfl rfl rfl rfl rfl rfl
    scatter_S10000x1024_S170000x1_S170000x1024_1_0_0_1 rfl rfl rfl rfl (Cert.Edges.sN x1 hr) (Cert.Edges.dN x1 hr)
    (val_main_v30 (F := Ideal) x0 x2) (val_main_v36 (F := Ideal) x1) (val_main_v42 (F := Ideal) x1)
    (val_main_v39 (F := Ideal) x1) (val_main_v41 (F := Ideal))
    (srcGather_node' x1 hr) (dstCol_node' x1 hr)
    (fun e c => by
      rw [val_main_v39_apply, val_main_v38_apply,
        show idx_main_v38 (idx_main_v39 (ix2 e c)) = ix1 e from
          funext fun a => Fin.ext (by match a with | ⟨0, _⟩ => rfl),
        norm_apply x1 hr])
    (fun i c => by rw [val_main_v41_apply, val_main_cst_8_apply]; exact Ideal.ofBits_zero_f32) i q
  rw [show (fun r c => val_main_v30 (F := Ideal) x0 x2 (ix2 r c))
      = Cert.Spec.lin (fun r j => x0 (ix2 r j)) (fun j q => x2 (ix2 j q)) from
    funext fun r => funext fun c => lin1_apply x0 x2 r c] at h
  exact h

/-- The first layer. -/
theorem layer1_apply (i : Fin 10000) (q : Fin 1024) :
    val_main_v47 (F := Ideal) x0 x1 x2 x3 (ix2 i q)
      = Cert.Spec.layer (Cert.Edges.sN x1 hr) (Cert.Edges.dN x1 hr)
          (fun r j => x0 (ix2 r j)) (fun j q => x2 (ix2 j q)) (fun q => x3 (ix1 q)) i q := by
  rw [val_main_v47_apply, val_main_v46_apply, agg1_apply x0 x1 x2 hr, val_main_v45_apply, val_main_v44_apply,
    show idx_main_v44 (idx_main_v45 (ix2 i q)) = ix1 q from
      funext fun a => Fin.ext (by match a with | ⟨0, _⟩ => rfl),
    val_main_call1_v0_apply, val_main_call1_cst_apply]
  show max (_ + _) (Ideal.ofBits .f32 0x00000000#32) = _
  rw [Ideal.ofBits_zero_f32]
  rfl

/-- The second layer's matrix product, of the first layer's result. -/
theorem lin2_apply (r : Fin 10000) (c : Fin 512) :
    val_main_v78 (F := Ideal) x0 x1 x2 x3 x4 (ix2 r c)
      = Cert.Spec.lin (Cert.Spec.layer (Cert.Edges.sN x1 hr) (Cert.Edges.dN x1 hr)
          (fun r j => x0 (ix2 r j)) (fun j q => x2 (ix2 j q)) (fun q => x3 (ix1 q))) (fun j q => x4 (ix2 j q)) r c := by
  rw [val_main_v78_apply]
  unfold Cert.Spec.lin
  refine Finset.sum_congr rfl fun k _ => ?_
  rw [show lidx_main_v78 (ix2 r c) k = ix2 r k from
      funext fun a => Fin.ext (by match a with | ⟨0, _⟩ => rfl | ⟨1, _⟩ => rfl),
    show ridx_main_v78 (ix2 r c) k = ix2 k c from
      funext fun a => Fin.ext (by match a with | ⟨0, _⟩ => rfl | ⟨1, _⟩ => rfl),
    layer1_apply x0 x1 x2 x3 hr]

/-- The second layer's aggregation. -/
theorem agg2_apply (i : Fin 10000) (q : Fin 512) :
    val_main_v91 (F := Ideal) x0 x1 x2 x3 x4 (ix2 i q)
      = Cert.Spec.agg (Cert.Edges.sN x1 hr) (Cert.Edges.dN x1 hr)
          (Cert.Spec.lin (Cert.Spec.layer (Cert.Edges.sN x1 hr) (Cert.Edges.dN x1 hr)
            (fun r j => x0 (ix2 r j)) (fun j q => x2 (ix2 j q)) (fun q => x3 (ix1 q))) (fun j q => x4 (ix2 j q))) i q := by
  have h := agg_node gather_S10000x512_S170000x1_S170000x512_1_0_n_n_0_1_1512 rfl rfl rfl rfl rfl rfl rfl
    scatter_S10000x512_S170000x1_S170000x512_1_0_0_1 rfl rfl rfl rfl (Cert.Edges.sN x1 hr) (Cert.Edges.dN x1 hr)
    (val_main_v78 (F := Ideal) x0 x1 x2 x3 x4) (val_main_v84 (F := Ideal) x1) (val_main_v90 (F := Ideal) x1)
    (val_main_v87 (F := Ideal) x1) (val_main_v89 (F := Ideal))
    (srcGather2_node' x1 hr) (dstCol2_node' x1 hr)
    (fun e c => by
      rw [val_main_v87_apply, val_main_v86_apply,
        show idx_main_v86 (idx_main_v87 (ix2 e c)) = ix1 e from
          funext fun a => Fin.ext (by match a with | ⟨0, _⟩ => rfl),
        norm2_apply x1 hr])
    (fun i c => by rw [val_main_v89_apply, val_main_cst_19_apply]; exact Ideal.ofBits_zero_f32) i q
  rw [show (fun r c => val_main_v78 (F := Ideal) x0 x1 x2 x3 x4 (ix2 r c))
      = Cert.Spec.lin (Cert.Spec.layer (Cert.Edges.sN x1 hr) (Cert.Edges.dN x1 hr)
          (fun r j => x0 (ix2 r j)) (fun j q => x2 (ix2 j q)) (fun q => x3 (ix1 q))) (fun j q => x4 (ix2 j q)) from
    funext fun r => funext fun c => lin2_apply x0 x1 x2 x3 x4 hr r c] at h
  exact h

/-- The result: both layers. -/
theorem result_apply (i : Fin 10000) (q : Fin 512) :
    val_main_v95 (F := Ideal) x0 x1 x2 x3 x4 x5 (ix2 i q)
      = Cert.Spec.G (Cert.Edges.sN x1 hr) (Cert.Edges.dN x1 hr)
          (fun r j => x0 (ix2 r j)) (fun j q => x2 (ix2 j q)) (fun q => x3 (ix1 q))
          (fun j q => x4 (ix2 j q)) (fun q => x5 (ix1 q)) i q := by
  rw [val_main_v95_apply, val_main_v94_apply, agg2_apply x0 x1 x2 x3 x4 hr, val_main_v93_apply, val_main_v92_apply,
    show idx_main_v92 (idx_main_v93 (ix2 i q)) = ix1 q from
      funext fun a => Fin.ext (by match a with | ⟨0, _⟩ => rfl),
    val_main_call3_v0_apply, val_main_call3_cst_apply]
  show max (_ + _) (Ideal.ofBits .f32 0x00000000#32) = _
  rw [Ideal.ofBits_zero_f32]
  rfl

end Layers

end Cert.ReferenceIdeal.RefValue

end
-- ==== Proof.PreRange.lean ====
/-
  The precondition's last conjunct, read back.

  The precondition is a conjunction of tests whose last one says that every word w of the 2 × 160000 edge table
  satisfies 0 ≤ w and w < 10000, both read signed. A 32-bit word that is nonnegative read signed is its unsigned value,
  so every word, read unsigned, is below 10000: each names one of the 10000 nodes. The tests on the float arguments
  are never opened, so the statement holds at every float instance.
-/
import proofs.«411933_j790273982476_2_alg».proof.Pre_finite_inputs
import proofs.«411933_j790273982476_2_alg».proof.Proof.Gen.Pre_finite_inputs
import proofs.«411933_j790273982476_2_alg».proof.Proof.Edges
import Idealize.ShloMosaic.Lib.ReduceAll
import Idealize.ShloMosaic.Lib.StableHlo.Predicate
import Idealize.ShloMosaic.PureOps.Ideal

noncomputable section

namespace Cert.PreRange

open Idealize.ShloMosaic Idealize.ShloMosaic.ValueIdx

/-- A word that is at least 0 and below 10000, both read signed, is below 10000 read unsigned. -/
theorem toNat_lt_of_signed (w : BitVec 32) (h1 : (0#32 : BitVec 32).toInt ≤ w.toInt)
    (h2 : w.toInt < (10000#32 : BitVec 32).toInt) : w.toNat < 10000 := by
  have c0 : (0#32 : BitVec 32).toInt = 0 := by decide
  have c1 : (10000#32 : BitVec 32).toInt = 10000 := by decide
  rw [c0] at h1
  rw [c1] at h2
  rw [BitVec.toInt_eq_toNat_cond] at h1 h2
  have hb := w.isLt
  split at h1 <;> omega

/-- Where the precondition holds, every word of the edge table names a node. -/
theorem inRange_of_pre {F : FTy → Type} [FloatOps F] [Cert.Pre_finite_inputs.Facts]
    (a0 : FVec F Cert.Pre_finite_inputs.S10000x512 .f32) (a1 : IVec Cert.Pre_finite_inputs.S2x160000 32)
    (a2 : FVec F Cert.Pre_finite_inputs.S512x1024 .f32) (a3 : FVec F Cert.Pre_finite_inputs.S1024 .f32)
    (a4 : FVec F Cert.Pre_finite_inputs.S1024x512 .f32) (a5 : FVec F Cert.Pre_finite_inputs.S512 .f32)
    (h : Cert.Pre_finite_inputs.fn (F := F) a0 a1 a2 a3 a4 a5 = (fun _ => 1#1)) : Cert.Edges.InRange a1 := by
  -- the rank-0 result has one index
  haveI : Subsingleton Cert.Pre_finite_inputs.S_.Idx := ⟨fun a b => funext fun d => d.elim0⟩
  show ∀ (r : Fin 2) (e : Fin 160000), (a1 (ix2 r e)).toNat < 10000
  intro r e
  -- the predicate at its one index
  have h0 := congrFun h (fun d => d.elim0)
  dsimp only [Cert.Pre_finite_inputs.fn, Cert.Pre_finite_inputs.fn_part1] at h0
  -- of the outer conjunction keep the last conjunct, the test on the table
  have hall := (IntOp.andi_eq_one.1 h0).2
  -- a conjunction over all entries that is 1 has a 1 at every entry
  have hel := Host.reduce_andi_all _ _ _ _ _ hall (ix2 r e)
  -- the entry at (r, e) is the conjunction of the word's two comparisons with the constants 0 and 10000
  obtain ⟨hge, hlt⟩ := IntOp.andi_eq_one.1 hel
  have hge' : IntOp.cmpi .sge (a1 (ix2 r e)) 0#32 = 1#1 := by
    simpa only [cmpi, broadcastInDim, constantI] using hge
  have hlt' : IntOp.cmpi .slt (a1 (ix2 r e)) 10000#32 = 1#1 := by
    simpa only [cmpi, broadcastInDim, constantI] using hlt
  exact toNat_lt_of_signed _ (IntOp.cmpi_sge.1 hge') (IntOp.cmpi_slt.1 hlt')

end Cert.PreRange

end
-- ==== Proof.lean ====
/-
  A two-layer graph convolution: the matrix-product program against the segment-sum reference.

  Both programs read an edge list (2 × 160000 node ids), append the 10000 self-loops, count the in-degrees, and weight
  the arc from s to d by 1/√deg s · 1/√deg d. The reference adds, at each node, the weighted feature rows of its
  in-neighbours (a segment sum of gathered rows), adds the bias and cuts at zero, twice. The program under proof first
  scatters the weights into a 10240 × 10240 adjacency matrix (node ids clipped into range, rows and columns from 10000
  on empty) and then runs three blocked matrix products on the matrix unit, accumulating over 8 column blocks of 1280:
  x·W₁; (A·that + b₁)₊·W₂; (A·that + b₂)₊; it keeps the first 10000 rows.

  Where every node id of the edge list lies in [0, 10000) the two are the same function on the extended reals: a row of
  the adjacency product regroups the node's segment sum by source, and a product distributes over a sum of nonnegative
  weights whatever the other factor is, so no finiteness of the features is used; rounding to a narrower float format
  is the identity there. Outside that range the reference itself indexes out of range (its gather wraps and clamps, its
  scatter drops) while the program clips, so the range is part of the precondition.

  The frames: each program terminates from any memory, faults nowhere and leaves its six arguments as launched (no host
  operation writes an argument and no region stages one), at the word level and at the ideal instance alike.
-/
import proofs.«411933_j790273982476_2_alg».proof.Defs
import proofs.«411933_j790273982476_2_alg».proof.Proof.Gen.Kernel
import proofs.«411933_j790273982476_2_alg».proof.Proof.Gen.KernelIdeal
import proofs.«411933_j790273982476_2_alg».proof.Proof.Gen.ReferenceIdeal
import proofs.«411933_j790273982476_2_alg».proof.Proof.Gen.Pre_finite_inputs
import proofs.«411933_j790273982476_2_alg».proof.Proof.K.Run
import proofs.«411933_j790273982476_2_alg».proof.Proof.KI.Run
import proofs.«411933_j790273982476_2_alg».proof.Proof.KV.Value
import proofs.«411933_j790273982476_2_alg».proof.Proof.RefValue
import proofs.«411933_j790273982476_2_alg».proof.Proof.PreRange
import Idealize.ShloMosaic.Lib.ValueIdx
import Idealize.ShloMosaic.Adequacy
import Idealize.ShloMosaic.Init

noncomputable section

namespace Cert.Proof

open Idealize.ShloMosaic Idealize.ShloMosaic.TcCoe Idealize.SL.Sem Idealize.ShloMosaic.ValueIdx

instance : Cert.Pre_finite_inputs.Facts := Cert.Pre_finite_inputs.Gen.facts

/-- The word-level program runs and leaves its arguments as launched. -/
theorem frame_k : Cert.frame_Kernel (hKernel := Cert.Kernel.Gen.facts) := fun m ρ _ => Cert.Kernel.Hand.frame m ρ

/-- So does its idealization. -/
theorem frame_ki : Cert.frame_KernelIdeal (hKernelIdeal := Cert.KernelIdeal.Gen.facts) := fun m ρ _ => Cert.KernelIdeal.Hand.frame m ρ

/-- The reference is host operations only: its run with the result dropped. -/
theorem frame_ri : Cert.frame_ReferenceIdeal (hReferenceIdeal := Cert.ReferenceIdeal.Gen.facts) := fun m ρ _ =>
  (θ_run Cert.ReferenceIdeal.defs _ _).mono (fun _ h c => (h c).2) (Cert.ReferenceIdeal.Value.run (F := Ideal) m ρ)

/-- Both idealized programs end at the two layers `Spec.G` of arguments that agree. -/
theorem algebraic : Cert.algebraic_KernelIdeal_ReferenceIdeal (hKernelIdeal := Cert.KernelIdeal.Gen.facts)
    (hReferenceIdeal := Cert.ReferenceIdeal.Gen.facts) := by
  intro m ρ m' ρ' hpre hagree
  -- every node id of the edge list is in range, on every core
  have hr : ∀ c : Dev Cert.KernelIdeal.nD, Cert.Edges.InRange (m ((c.tc : Thread Cert.KernelIdeal.nD Cert.KernelIdeal.τ).loc Cert.KernelIdeal.main_arg1)) :=
    fun c => Cert.PreRange.inRange_of_pre _ _ _ _ _ _ (hpre c)
  refine ⟨fun c => Cert.KernelIdeal.Hand.X3 (F := Ideal) m c Cert.KernelIdeal.main_v54, ?_, ?_⟩
  · -- the program's run: every unscoped buffer at the last valuation, the arguments read back to the launch memory
    refine (θ_run Cert.KernelIdeal.defs _ _).mono (fun r h c => ?_) (Cert.KernelIdeal.Hand.run_all (F := Ideal) m ρ)
    exact ⟨h c _ (Cert.KernelIdeal.Hand.mem_uc Cert.KernelIdeal.main_v54 (by decide)),
      (h c _ (Cert.KernelIdeal.Hand.mem_uc Cert.KernelIdeal.main_arg0 (by decide))).trans (Cert.KernelIdeal.Hand.X3_main_arg0 m c),
      (h c _ (Cert.KernelIdeal.Hand.mem_uc Cert.KernelIdeal.main_arg1 (by decide))).trans (Cert.KernelIdeal.Hand.X3_main_arg1 m c),
      (h c _ (Cert.KernelIdeal.Hand.mem_uc Cert.KernelIdeal.main_arg2 (by decide))).trans (Cert.KernelIdeal.Hand.X3_main_arg2 m c),
      (h c _ (Cert.KernelIdeal.Hand.mem_uc Cert.KernelIdeal.main_arg3 (by decide))).trans (Cert.KernelIdeal.Hand.X3_main_arg3 m c),
      (h c _ (Cert.KernelIdeal.Hand.mem_uc Cert.KernelIdeal.main_arg4 (by decide))).trans (Cert.KernelIdeal.Hand.X3_main_arg4 m c),
      (h c _ (Cert.KernelIdeal.Hand.mem_uc Cert.KernelIdeal.main_arg5 (by decide))).trans (Cert.KernelIdeal.Hand.X3_main_arg5 m c)⟩
  · -- the reference's run: its result, index by index, is the same function of the same arguments
    refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    rw [Cert.ReferenceIdeal.Read.val_main_v95_eq, h0, h1, h2, h3, h4, h5]
    funext idx
    obtain ⟨i, q, rfl⟩ : ∃ (i : Fin 10000) (q : Fin 512), idx = ix2 i q := ⟨idx 0, idx 1, eq_ix2 idx⟩
    rw [Cert.ReferenceIdeal.RefValue.result_apply _ _ _ _ _ _ (hr c) i q]
    exact (Cert.KernelIdeal.Hand.result_apply m c (hr c) i q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
